-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.named_const.Statement Cert.KernelIdeal.κ "inv_26" .f32 0x3D1D89D9#32 ((1 / 26 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S19683x64 : Shape := ⟨2, ![19683, 64]⟩
abbrev S19683x26x64 : Shape := ⟨3, ![19683, 26, 64]⟩
abbrev S128x32 : Shape := ⟨2, ![128, 32]⟩
abbrev S32 : Shape := ⟨1, ![32]⟩
abbrev S32x3 : Shape := ⟨2, ![32, 3]⟩
abbrev S3 : Shape := ⟨1, ![3]⟩
abbrev S128x64 : Shape := ⟨2, ![128, 64]⟩
abbrev S64 : Shape := ⟨1, ![64]⟩
abbrev S96x64 : Shape := ⟨2, ![96, 64]⟩
abbrev S_ : Shape := ⟨0, ![]⟩

class Facts : Prop where
  bcast_S_S19683x64 : S_.BroadcastsInDim S19683x64 (![] : Fin 0 → Fin S19683x64.rank)
  reducesTo_S19683x64_S_d0_1 : S19683x64.ReducesTo [0, 1] S_
  h_S_ : 0 < S_.numel
  bcast_S_S19683x26x64 : S_.BroadcastsInDim S19683x26x64 (![] : Fin 0 → Fin S19683x26x64.rank)
  reducesTo_S19683x26x64_S_d0_1_2 : S19683x26x64.ReducesTo [0, 1, 2] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S96x64 : S_.BroadcastsInDim S96x64 (![] : Fin 0 → Fin S96x64.rank)
  reducesTo_S96x64_S_d0_1 : S96x64.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S64 .f32) (main_arg12 : FVec F S128x64 .f32) (main_arg13 : FVec F S64 .f32) (main_v48 : IVec S_ 1) (main_v49 : FVec F S96x64 .f32) (main_v50 : FVec F S96x64 .f32) : IVec S_ 1 :=
  let main_v51 : IVec S96x64 1 := cmpf .olt main_v49 main_v50
  let main_c_19 : IVec S_ 1 := constantI S_ 1 1#1
  let main_v52 : IVec S_ 1 := (fun x v => Host.reduce IntOp.andi x v reducesTo_S96x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S128x64 .f32 := Host.absf main_arg12
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg7 : FVec F S64 .f32) (main_arg8 : FVec F S128x32 .f32) (main_arg9 : FVec F S32 .f32) (main_arg10 : FVec F S96x64 .f32) (main_arg11 : FVec F S64 .f32) (main_arg12 : FVec F S128x64 .f32) (main_arg13 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x32 .f32 := Host.absf main_arg8
  let main_cst_14 : FVec F S_ .f32 := constant S_ .f32 0x7F800000#32
  let main_v40 : FVec F S128x32 .f32 := broadcastInDim S128x32 ![] bcast_S_S128x32 main_cst_14
  let main_v41 : IVec S128x32 1 := cmpf .olt main_v39 main_v40
  let main_c_15 : IVec S_ 1 := constantI S_ 1 1#1
  let main_v42 : IVec S_ 1 := (fun x v => Host.reduce IntOp.andi x v reducesTo_S128x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S96x64 .f32 := Host.absf main_arg10
  let main_cst_18 : FVec F S_ .f32 := constant S_ .f32 0x7F800000#32
  let main_v50 : FVec F S96x64 .f32 := broadcastInDim S96x64 ![] bcast_S_S96x64 main_cst_18
  fn_part3 (F := F) main_arg11 main_arg12 main_arg13 main_v48 main_v49 main_v50

def fn_part1 {F : FTy → Type} [FloatOps F] (main_arg4 : FVec F S32x3 .f32) (main_arg5 : FVec F S3 .f32) (main_arg6 : FVec F S128x64 .f32) (main_arg7 : FVec F S64 .f32) (main_arg8 : FVec F S128x32 .f32) (main_arg9 : FVec F S32 .f32) (main_arg10 : FVec F S96x64 .f32) (main_arg11 : FVec F S64 .f32) (main_arg12 : FVec F S128x64 .f32) (main_arg13 : FVec F S64 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x3 .f32 := Host.absf main_arg4
  let main_cst_6 : FVec F S_ .f32 := constant S_ .f32 0x7F800000#32
  let main_v20 : FVec F S32x3 .f32 := broadcastInDim S32x3 ![] bcast_S_S32x3 main_cst_6
  let main_v21 : IVec S32x3 1 := cmpf .olt main_v19 main_v20
  let main_c_7 : IVec S_ 1 := constantI S_ 1 1#1
  let main_v22 : IVec S_ 1 := (fun x v => Host.reduce IntOp.andi x v reducesTo_S32x3_S_d0_1 h_S_) main_v21 main_c_7
  let main_v23 : IVec S_ 1 := andi main_v18 main_v22
  let main_v24 : FVec F S3 .f32 := Host.absf main_arg5
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S19683x64 .f32) (main_arg1 : FVec F S19683x26x64 .f32) (main_arg2 : FVec F S128x32 .f32) (main_arg3 : FVec F S32 .f32) (main_arg4 : FVec F S32x3 .f32) (main_arg5 : FVec F S3 .f32) (main_arg6 : FVec F S128x64 .f32) (main_arg7 : FVec F S64 .f32) (main_arg8 : FVec F S128x32 .f32) (main_arg9 : FVec F S32 .f32) (main_arg10 : FVec F S96x64 .f32) (main_arg11 : FVec F S64 .f32) (main_arg12 : FVec F S128x64 .f32) (main_arg13 : FVec F S64 .f32) : IVec S_ 1 :=
  let main_v0 : FVec F S19683x64 .f32 := Host.absf main_arg0
  let main_cst : FVec F S_ .f32 := constant S_ .f32 0x7F800000#32
  let main_v1 : FVec F S19683x64 .f32 := broadcastInDim S19683x64 ![] bcast_S_S19683x64 main_cst
  let main_v2 : IVec S19683x64 1 := cmpf .olt main_v0 main_v1
  let main_c : IVec S_ 1 := constantI S_ 1 1#1
  let main_v3 : IVec S_ 1 := (fun x v => Host.reduce IntOp.andi x v reducesTo_S19683x64_S_d0_1 h_S_) main_v2 main_c
  let main_v4 : FVec F S19683x26x64 .f32 := Host.absf main_arg1
  let main_cst_0 : FVec F S_ .f32 := constant S_ .f32 0x7F800000#32
  let main_v5 : FVec F S19683x26x64 .f32 := broadcastInDim S19683x26x64 ![] bcast_S_S19683x26x64 main_cst_0
  let main_v6 : IVec S19683x26x64 1 := cmpf .olt main_v4 main_v5
  let main_c_1 : IVec S_ 1 := constantI S_ 1 1#1
  let main_v7 : IVec S_ 1 := (fun x v => Host.reduce IntOp.andi x v reducesTo_S19683x26x64_S_d0_1_2 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_arg12 main_arg13 main_v13 main_v16
-- ==== Kernel.lean ====
abbrev S19683x64 : Shape := ⟨2, ![19683, 64]⟩
abbrev S19683x26x64 : Shape := ⟨3, ![19683, 26, 64]⟩
abbrev S128x32 : Shape := ⟨2, ![128, 32]⟩
abbrev S32 : Shape := ⟨1, ![32]⟩
abbrev S32x3 : Shape := ⟨2, ![32, 3]⟩
abbrev S3 : Shape := ⟨1, ![3]⟩
abbrev S128x64 : Shape := ⟨2, ![128, 64]⟩
abbrev S64 : Shape := ⟨1, ![64]⟩
abbrev S96x64 : Shape := ⟨2, ![96, 64]⟩
abbrev S27x729x64 : Shape := ⟨3, ![27, 729, 64]⟩
abbrev S1x32 : Shape := ⟨2, ![1, 32]⟩
abbrev S1x3 : Shape := ⟨2, ![1, 3]⟩
abbrev S1x64 : Shape := ⟨2, ![1, 64]⟩
abbrev S27x729x3 : Shape := ⟨3, ![27, 729, 3]⟩
abbrev S19683x3 : Shape := ⟨2, ![19683, 3]⟩
abbrev S729x26x64 : Shape := ⟨3, ![729, 26, 64]⟩
abbrev S1x729x64 : Shape := ⟨3, ![1, 729, 64]⟩
abbrev S1x729x3 : Shape := ⟨3, ![1, 729, 3]⟩
abbrev S729x1x64 : Shape := ⟨3, ![729, 1, 64]⟩
abbrev S729x64 : Shape := ⟨2, ![729, 64]⟩
abbrev S729x128 : Shape := ⟨2, ![729, 128]⟩
abbrev S729x32 : Shape := ⟨2, ![729, 32]⟩
abbrev S729x3 : Shape := ⟨2, ![729, 3]⟩
abbrev S729 : Shape := ⟨1, ![729]⟩
abbrev S729x1 : Shape := ⟨2, ![729, 1]⟩
abbrev S64x64 : Shape := ⟨2, ![64, 64]⟩
abbrev S32x64 : Shape := ⟨2, ![32, 64]⟩

abbrev nBuf : Space → Nat
  | .hbm => 25
  | .vmem => 20
  | .smem => 0
  | _ => 0

abbrev bufTy : (tb : Table) → Fin (tcTables nBuf tb) → BufTy
  | .hbm, ⟨0, _⟩ => ⟨S19683x64, .f32⟩
  | .hbm, ⟨1, _⟩ => ⟨S19683x26x64, .f32⟩
  | .hbm, ⟨2, _⟩ => ⟨S128x32, .f32⟩
  | .hbm, ⟨3, _⟩ => ⟨S32, .f32⟩
  | .hbm, ⟨4, _⟩ => ⟨S32x3, .f32⟩
  | .hbm, ⟨5, _⟩ => ⟨S3, .f32⟩
  | .hbm, ⟨6, _⟩ => ⟨S128x64, .f32⟩
  | .hbm, ⟨7, _⟩ => ⟨S64, .f32⟩
  | .hbm, ⟨8, _⟩ => ⟨S128x32, .f32⟩
  | .hbm, ⟨9, _⟩ => ⟨S32, .f32⟩
  | .hbm, ⟨10, _⟩ => ⟨S96x64, .f32⟩
  | .hbm, ⟨11, _⟩ => ⟨S64, .f32⟩
  | .hbm, ⟨12, _⟩ => ⟨S128x64, .f32⟩
  | .hbm, ⟨13, _⟩ => ⟨S64, .f32⟩
  | .hbm, ⟨14, _⟩ => ⟨S27x729x64, .f32⟩
  | .hbm, ⟨15, _⟩ => ⟨S1x32, .f32⟩
  | .hbm, ⟨16, _⟩ => ⟨S1x3, .f32⟩
  | .hbm, ⟨17, _⟩ => ⟨S1x64, .f32⟩
  | .hbm, ⟨18, _⟩ => ⟨S1x32, .f32⟩
  | .hbm, ⟨19, _⟩ => ⟨S1x64, .f32⟩
  | .hbm, ⟨20, _⟩ => ⟨S1x64, .f32⟩
  | .hbm, ⟨21, _⟩ => ⟨S27x729x64, .f32⟩
  | .hbm, ⟨22, _⟩ => ⟨S27x729x3, .f32⟩
  | .hbm, ⟨23, _⟩ => ⟨S19683x64, .f32⟩
  | .hbm, ⟨24, _⟩ => ⟨S19683x3, .f32⟩
  | .local _ .vmem, ⟨0, _⟩ => ⟨S729x26x64, .f32⟩
  | .local _ .vmem, ⟨1, _⟩ => ⟨S729x26x64, .f32⟩
  | .local _ .vmem, ⟨2, _⟩ => ⟨S1x729x64, .f32⟩
  | .local _ .vmem, ⟨3, _⟩ => ⟨S1x729x64, .f32⟩
  | .local _ .vmem, ⟨4, _⟩ => ⟨S128x32, .f32⟩
  | .local _ .vmem, ⟨5, _⟩ => ⟨S1x32, .f32⟩
  | .local _ .vmem, ⟨6, _⟩ => ⟨S32x3, .f32⟩
  | .local _ .vmem, ⟨7, _⟩ => ⟨S1x3, .f32⟩
  | .local _ .vmem, ⟨8, _⟩ => ⟨S128x64, .f32⟩
  | .local _ .vmem, ⟨9, _⟩ => ⟨S1x64, .f32⟩
  | .local _ .vmem, ⟨10, _⟩ => ⟨S128x32, .f32⟩
  | .local _ .vmem, ⟨11, _⟩ => ⟨S1x32, .f32⟩
  | .local _ .vmem, ⟨12, _⟩ => ⟨S96x64, .f32⟩
  | .local _ .vmem, ⟨13, _⟩ => ⟨S1x64, .f32⟩
  | .local _ .vmem, ⟨14, _⟩ => ⟨S128x64, .f32⟩
  | .local _ .vmem, ⟨15, _⟩ => ⟨S1x64, .f32⟩
  | .local _ .vmem, ⟨16, _⟩ => ⟨S1x729x64, .f32⟩
  | .local _ .vmem, ⟨17, _⟩ => ⟨S1x729x64, .f32⟩
  | .local _ .vmem, ⟨18, _⟩ => ⟨S1x729x3, .f32⟩
  | .local _ .vmem, ⟨19, _⟩ => ⟨S1x729x3, .f32⟩
  | _, _ => ⟨S19683x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7_0 : Ref sig .tc := ⟨.hbm, 21, rfl⟩
abbrev main_call0_v7_1 : Ref sig .tc := ⟨.hbm, 22, rfl⟩
abbrev main_v0_0 : Ref sig .tc := ⟨.hbm, 23, rfl⟩
abbrev main_v0_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![27], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S729x26x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x729x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S96x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x729x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x729x3 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  shapeCasts_S19683x64_S27x729x64 : S19683x64.ShapeCasts S27x729x64
  shapeCasts_S32_S1x32 : S32.ShapeCasts S1x32
  shapeCasts_S3_S1x3 : S3.ShapeCasts S1x3
  shapeCasts_S64_S1x64 : S64.ShapeCasts S1x64
  shapeCasts_S27x729x64_S19683x64 : S27x729x64.ShapeCasts S19683x64
  shapeCasts_S27x729x3_S19683x3 : S27x729x3.ShapeCasts S19683x3
  inb_S729x26x64_S729x1x64_0_0_0 : ∀ a, (![0, 0, 0] : Fin 3 → Nat) a + S729x1x64.size a ≤ S729x26x64.size a
  h_S729x1x64 : 0 < S729x1x64.numel
  shapeCasts_S729x1x64_S729x64 : S729x1x64.ShapeCasts S729x64
  inb_S729x26x64_S729x1x64_0_1_0 : ∀ a, (![0, 1, 0] : Fin 3 → Nat) a + S729x1x64.size a ≤ S729x26x64.size a
  inb_S729x26x64_S729x1x64_0_2_0 : ∀ a, (![0, 2, 0] : Fin 3 → Nat) a + S729x1x64.size a ≤ S729x26x64.size a
  inb_S729x26x64_S729x1x64_0_3_0 : ∀ a, (![0, 3, 0] : Fin 3 → Nat) a + S729x1x64.size a ≤ S729x26x64.size a
  inb_S729x26x64_S729x1x64_0_4_0 : ∀ a, (![0, 4, 0] : Fin 3 → Nat) a + S729x1x64.size a ≤ S729x26x64.size a
  inb_S729x26x64_S729x1x64_0_5_0 : ∀ a, (![0, 5, 0] : Fin 3 → Nat) a + S729x1x64.size a ≤ S729x26x64.size a
  inb_S729x26x64_S729x1x64_0_6_0 : ∀ a, (![0, 6, 0] : Fin 3 → Nat) a + S729x1x64.size a ≤ S729x26x64.size a
  inb_S729x26x64_S729x1x64_0_7_0 : ∀ a, (![0, 7, 0] : Fin 3 → Nat) a + S729x1x64.size a ≤ S729x26x64.size a
  inb_S729x26x64_S729x1x64_0_8_0 : ∀ a, (![0, 8, 0] : Fin 3 → Nat) a + S729x1x64.size a ≤ S729x26x64.size a
  inb_S729x26x64_S729x1x64_0_9_0 : ∀ a, (![0, 9, 0] : Fin 3 → Nat) a + S729x1x64.size a ≤ S729x26x64.size a
  inb_S729x26x64_S729x1x64_0_10_0 : ∀ a, (![0, 10, 0] : Fin 3 → Nat) a + S729x1x64.size a ≤ S729x26x64.size a
  inb_S729x26x64_S729x1x64_0_11_0 : ∀ a, (![0, 11, 0] : Fin 3 → Nat) a + S729x1x64.size a ≤ S729x26x64.size a
  inb_S729x26x64_S729x1x64_0_12_0 : ∀ a, (![0, 12, 0] : Fin 3 → Nat) a + S729x1x64.size a ≤ S729x26x64.size a
  inb_S729x26x64_S729x1x64_0_13_0 : ∀ a, (![0, 13, 0] : Fin 3 → Nat) a + S729x1x64.size a ≤ S729x26x64.size a
  inb_S729x26x64_S729x1x64_0_14_0 : ∀ a, (![0, 14, 0] : Fin 3 → Nat) a + S729x1x64.size a ≤ S729x26x64.size a
  inb_S729x26x64_S729x1x64_0_15_0 : ∀ a, (![0, 15, 0] : Fin 3 → Nat) a + S729x1x64.size a ≤ S729x26x64.size a
  inb_S729x26x64_S729x1x64_0_16_0 : ∀ a, (![0, 16, 0] : Fin 3 → Nat) a + S729x1x64.size a ≤ S729x26x64.size a
  inb_S729x26x64_S729x1x64_0_17_0 : ∀ a, (![0, 17, 0] : Fin 3 → Nat) a + S729x1x64.size a ≤ S729x26x64.size a
  inb_S729x26x64_S729x1x64_0_18_0 : ∀ a, (![0, 18, 0] : Fin 3 → Nat) a + S729x1x64.size a ≤ S729x26x64.size a
  inb_S729x26x64_S729x1x64_0_19_0 : ∀ a, (![0, 19, 0] : Fin 3 → Nat) a + S729x1x64.size a ≤ S729x26x64.size a
  inb_S729x26x64_S729x1x64_0_20_0 : ∀ a, (![0, 20, 0] : Fin 3 → Nat) a + S729x1x64.size a ≤ S729x26x64.size a
  inb_S729x26x64_S729x1x64_0_21_0 : ∀ a, (![0, 21, 0] : Fin 3 → Nat) a + S729x1x64.size a ≤ S729x26x64.size a
  inb_S729x26x64_S729x1x64_0_22_0 : ∀ a, (![0, 22, 0] : Fin 3 → Nat) a + S729x1x64.size a ≤ S729x26x64.size a
  inb_S729x26x64_S729x1x64_0_23_0 : ∀ a, (![0, 23, 0] : Fin 3 → Nat) a + S729x1x64.size a ≤ S729x26x64.size a
  inb_S729x26x64_S729x1x64_0_24_0 : ∀ a, (![0, 24, 0] : Fin 3 → Nat) a + S729x1x64.size a ≤ S729x26x64.size a
  inb_S729x26x64_S729x1x64_0_25_0 : ∀ a, (![0, 25, 0] : Fin 3 → Nat) a + S729x1x64.size a ≤ S729x26x64.size a
  inb_S1x729x64_S1x729x64_0_0_0 : ∀ a, (![0, 0, 0] : Fin 3 → Nat) a + S1x729x64.size a ≤ S1x729x64.size a
  h_S1x729x64 : 0 < S1x729x64.numel
  shapeCasts_S1x729x64_S729x64 : S1x729x64.ShapeCasts S729x64
  concatenates_S729x64_S729x64_S729x128_d1 : Shape.Concatenates [S729x64, S729x64] S729x128 1
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S729x32 : S1x32.Broadcasts S729x32
  inb_S32x3_S32x3_0_0 : ∀ a, (![0, 0] : Fin 2 → Nat) a + S32x3.size a ≤ S32x3.size a
  h_S32x3 : 0 < S32x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S729x3 : S1x3.Broadcasts S729x3
  reduces_S729x3_S729 : S729x3.Reduces [1] S729
  shapeCasts_S729_S729x1 : S729.ShapeCasts S729x1
  broadcasts_S729x1_S729x3 : S729x1.Broadcasts S729x3
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S729x64 : S1x64.Broadcasts S729x64
  inb_S96x64_S64x64_0_0 : ∀ a, (![0, 0] : Fin 2 → Nat) a + S64x64.size a ≤ S96x64.size a
  h_S64x64 : 0 < S64x64.numel
  inb_S96x64_S32x64_64_0 : ∀ a, (![64, 0] : Fin 2 → Nat) a + S32x64.size a ≤ S96x64.size a
  h_S32x64 : 0 < S32x64.numel
  inb_S128x64_S64x64_64_0 : ∀ a, (![64, 0] : Fin 2 → Nat) a + S64x64.size a ≤ S128x64.size a
  inb_S128x64_S64x64_0_0 : ∀ a, (![0, 0] : Fin 2 → Nat) a + S64x64.size a ≤ S128x64.size a
  slices_S729x3_o0_0_S729x1 : S729x3.Slices ![0, 0] S729x1
  broadcasts_S729x1_S729x64 : S729x1.Broadcasts S729x64
  slices_S729x3_o0_1_S729x1 : S729x3.Slices ![0, 1] S729x1
  slices_S729x3_o0_2_S729x1 : S729x3.Slices ![0, 2] S729x1
  shapeCasts_S729x64_S1x729x64 : S729x64.ShapeCasts S1x729x64
  inb_S1x729x3_S1x729x3_0_0_0 : ∀ a, (![0, 0, 0] : Fin 3 → Nat) a + S1x729x3.size a ≤ S1x729x3.size a
  h_S1x729x3 : 0 < S1x729x3.numel
  shapeCasts_S1x729x3_S729x3 : S1x729x3.ShapeCasts S729x3
  shapeCasts_S729x3_S1x729x3 : S729x3.ShapeCasts S1x729x3
  dot_S729x128_S128x32_S729x32_1_0_0_1_n_n_wf : DotDims.WF S729x128 S128x32 S729x32 [1] [0] [0] [1] [] []
  dot_S729x32_S32x3_S729x3_1_0_0_1_n_n_wf : DotDims.WF S729x32 S32x3 S729x3 [1] [0] [0] [1] [] []
  dot_S729x128_S128x64_S729x64_1_0_0_1_n_n_wf : DotDims.WF S729x128 S128x64 S729x64 [1] [0] [0] [1] [] []
  dot_S729x64_S64x64_S729x64_1_0_0_1_n_n_wf : DotDims.WF S729x64 S64x64 S729x64 [1] [0] [0] [1] [] []
  dot_S729x32_S32x64_S729x64_1_0_0_1_n_n_wf : DotDims.WF S729x32 S32x64 S729x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S729x26x64.size a ≤ S19683x26x64.size a
  hwx0_0 : ∀ i : grid0.Coords, EltTy.bits .f32 = 32 ∨ (Rect.block (s := S19683x26x64) S729x26x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x729x64.size a ≤ S27x729x64.size a
  hwx0_1 : ∀ i : grid0.Coords, EltTy.bits .f32 = 32 ∨ (Rect.block (s := S27x729x64) S1x729x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x3.size a ≤ S32x3.size a
  hwx0_4 : ∀ i : grid0.Coords, EltTy.bits .f32 = 32 ∨ (Rect.block (s := S32x3) S32x3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3.size a ≤ S1x3.size a
  hwx0_5 : ∀ i : grid0.Coords, EltTy.bits .f32 = 32 ∨ (Rect.block (s := S1x3) S1x3.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x32.size a ≤ S128x32.size a
  hwx0_8 : ∀ i : grid0.Coords, EltTy.bits .f32 = 32 ∨ (Rect.block (s := S128x32) S128x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S96x64.size a ≤ S96x64.size a
  hwx0_10 : ∀ i : grid0.Coords, EltTy.bits .f32 = 32 ∨ (Rect.block (s := S96x64) S96x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x64.size a ≤ S128x64.size a
  hwx0_12 : ∀ i : grid0.Coords, EltTy.bits .f32 = 32 ∨ (Rect.block (s := S128x64) S128x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x729x64.size a ≤ S27x729x64.size a
  hwx0_14 : ∀ i : grid0.Coords, EltTy.bits .f32 = 32 ∨ (Rect.block (s := S27x729x64) S1x729x64.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x729x3.size a ≤ S27x729x3.size a
  hwx0_15 : ∀ i : grid0.Coords, EltTy.bits .f32 = 32 ∨ (Rect.block (s := S27x729x3) S1x729x3.size (cc0_transform_15 i) (hinb0_15 i)).WholeWords (EltTy.packing .f32)

variable [Facts₀]

def dot_S729x128_S128x32_S729x32_1_0_0_1_n_n : DotDims S729x128 S128x32 S729x32 where
  lhsContracting := [1]
  rhsContracting := [0]
  lhsNonContracting := [0]
  rhsNonContracting := [1]
  lhsBatch := []
  rhsBatch := []
  wf := dot_S729x128_S128x32_S729x32_1_0_0_1_n_n_wf
def dot_S729x32_S32x3_S729x3_1_0_0_1_n_n : DotDims S729x32 S32x3 S729x3 where
  lhsContracting := [1]
  rhsContracting := [0]
  lhsNonContracting := [0]
  rhsNonContracting := [1]
  lhsBatch := []
  rhsBatch := []
  wf := dot_S729x32_S32x3_S729x3_1_0_0_1_n_n_wf
def dot_S729x128_S128x64_S729x64_1_0_0_1_n_n : DotDims S729x128 S128x64 S729x64 where
  lhsContracting := [1]
  rhsContracting := [0]
  lhsNonContracting := [0]
  rhsNonContracting := [1]
  lhsBatch := []
  rhsBatch := []
  wf := dot_S729x128_S128x64_S729x64_1_0_0_1_n_n_wf
def dot_S729x64_S64x64_S729x64_1_0_0_1_n_n : DotDims S729x64 S64x64 S729x64 where
  lhsContracting := [1]
  rhsContracting := [0]
  lhsNonContracting := [0]
  rhsNonContracting := [1]
  lhsBatch := []
  rhsBatch := []
  wf := dot_S729x64_S64x64_S729x64_1_0_0_1_n_n_wf
def dot_S729x32_S32x64_S729x64_1_0_0_1_n_n : DotDims S729x32 S32x64 S729x64 where
  lhsContracting := [1]
  rhsContracting := [0]
  lhsNonContracting := [0]
  rhsNonContracting := [1]
  lhsBatch := []
  rhsBatch := []
  wf := dot_S729x32_S32x64_S729x64_1_0_0_1_n_n_wf

abbrev win0_0 : Pipeline.Window sig grid0 :=
  Pipeline.Window.ofSpec (Memref.whole main_arg1) S729x26x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x729x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S1x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v3) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v4) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S96x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v5) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_call0_v6) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_call0_v7_0) S1x729x64.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_call0_v7_1) S1x729x3.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S19683x64 : Shape := ⟨2, ![19683, 64]⟩
abbrev S19683x26x64 : Shape := ⟨3, ![19683, 26, 64]⟩
abbrev S128x32 : Shape := ⟨2, ![128, 32]⟩
abbrev S32 : Shape := ⟨1, ![32]⟩
abbrev S32x3 : Shape := ⟨2, ![32, 3]⟩
abbrev S3 : Shape := ⟨1, ![3]⟩
abbrev S128x64 : Shape := ⟨2, ![128, 64]⟩
abbrev S64 : Shape := ⟨1, ![64]⟩
abbrev S96x64 : Shape := ⟨2, ![96, 64]⟩
abbrev S_ : Shape := ⟨0, ![]⟩
abbrev S19683x128 : Shape := ⟨2, ![19683, 128]⟩
abbrev S19683x32 : Shape := ⟨2, ![19683, 32]⟩
abbrev S1x32 : Shape := ⟨2, ![1, 32]⟩
abbrev S19683x3 : Shape := ⟨2, ![19683, 3]⟩
abbrev S1x3 : Shape := ⟨2, ![1, 3]⟩
abbrev S19683 : Shape := ⟨1, ![19683]⟩
abbrev S19683x1 : Shape := ⟨2, ![19683, 1]⟩
abbrev S1x64 : Shape := ⟨2, ![1, 64]⟩
abbrev S19683x96 : Shape := ⟨2, ![19683, 96]⟩

abbrev nBuf : Space → Nat
  | .hbm => 100
  | .vmem => 0
  | .smem => 0
  | _ => 0

abbrev bufTy : (tb : Table) → Fin (tcTables nBuf tb) → BufTy
  | .hbm, ⟨0, _⟩ => ⟨S19683x64, .f32⟩
  | .hbm, ⟨1, _⟩ => ⟨S19683x26x64, .f32⟩
  | .hbm, ⟨2, _⟩ => ⟨S128x32, .f32⟩
  | .hbm, ⟨3, _⟩ => ⟨S32, .f32⟩
  | .hbm, ⟨4, _⟩ => ⟨S32x3, .f32⟩
  | .hbm, ⟨5, _⟩ => ⟨S3, .f32⟩
  | .hbm, ⟨6, _⟩ => ⟨S128x64, .f32⟩
  | .hbm, ⟨7, _⟩ => ⟨S64, .f32⟩
  | .hbm, ⟨8, _⟩ => ⟨S128x32, .f32⟩
  | .hbm, ⟨9, _⟩ => ⟨S32, .f32⟩
  | .hbm, ⟨10, _⟩ => ⟨S96x64, .f32⟩
  | .hbm, ⟨11, _⟩ => ⟨S64, .f32⟩
  | .hbm, ⟨12, _⟩ => ⟨S128x64, .f32⟩
  | .hbm, ⟨13, _⟩ => ⟨S64, .f32⟩
  | .hbm, ⟨14, _⟩ => ⟨S_, .f32⟩
  | .hbm, ⟨15, _⟩ => ⟨S19683x64, .f32⟩
  | .hbm, ⟨16, _⟩ => ⟨S_, .f32⟩
  | .hbm, ⟨17, _⟩ => ⟨S19683x64, .f32⟩
  | .hbm, ⟨18, _⟩ => ⟨S19683x64, .f32⟩
  | .hbm, ⟨19, _⟩ => ⟨S19683x128, .f32⟩
  | .hbm, ⟨20, _⟩ => ⟨S19683x32, .f32⟩
  | .hbm, ⟨21, _⟩ => ⟨S1x32, .f32⟩
  | .hbm, ⟨22, _⟩ => ⟨S19683x32, .f32⟩
  | .hbm, ⟨23, _⟩ => ⟨S19683x32, .f32⟩
  | .hbm, ⟨24, _⟩ => ⟨S19683x32, .f32⟩
  | .hbm, ⟨25, _⟩ => ⟨S19683x3, .f32⟩
  | .hbm, ⟨26, _⟩ => ⟨S1x3, .f32⟩
  | .hbm, ⟨27, _⟩ => ⟨S19683x3, .f32⟩
  | .hbm, ⟨28, _⟩ => ⟨S19683x3, .f32⟩
  | .hbm, ⟨29, _⟩ => ⟨S_, .f32⟩
  | .hbm, ⟨30, _⟩ => ⟨S19683, .f32⟩
  | .hbm, ⟨31, _⟩ => ⟨S_, .f32⟩
  | .hbm, ⟨32, _⟩ => ⟨S19683, .f32⟩
  | .hbm, ⟨33, _⟩ => ⟨S19683, .f32⟩
  | .hbm, ⟨34, _⟩ => ⟨S19683x1, .f32⟩
  | .hbm, ⟨35, _⟩ => ⟨S19683x3, .f32⟩
  | .hbm, ⟨36, _⟩ => ⟨S19683x3, .f32⟩
  | .hbm, ⟨37, _⟩ => ⟨S19683x3, .f32⟩
  | .hbm, ⟨38, _⟩ => ⟨S_, .f32⟩
  | .hbm, ⟨39, _⟩ => ⟨S19683, .f32⟩
  | .hbm, ⟨40, _⟩ => ⟨S19683x1, .f32⟩
  | .hbm, ⟨41, _⟩ => ⟨S19683x3, .f32⟩
  | .hbm, ⟨42, _⟩ => ⟨S19683x3, .f32⟩
  | .hbm, ⟨43, _⟩ => ⟨S19683x64, .f32⟩
  | .hbm, ⟨44, _⟩ => ⟨S1x64, .f32⟩
  | .hbm, ⟨45, _⟩ => ⟨S19683x64, .f32⟩
  | .hbm, ⟨46, _⟩ => ⟨S19683x64, .f32⟩
  | .hbm, ⟨47, _⟩ => ⟨S19683x64, .f32⟩
  | .hbm, ⟨48, _⟩ => ⟨S19683x32, .f32⟩
  | .hbm, ⟨49, _⟩ => ⟨S1x32, .f32⟩
  | .hbm, ⟨50, _⟩ => ⟨S19683x32, .f32⟩
  | .hbm, ⟨51, _⟩ => ⟨S19683x32, .f32⟩
  | .hbm, ⟨52, _⟩ => ⟨S19683x32, .f32⟩
  | .hbm, ⟨53, _⟩ => ⟨S19683x96, .f32⟩
  | .hbm, ⟨54, _⟩ => ⟨S19683x64, .f32⟩
  | .hbm, ⟨55, _⟩ => ⟨S1x64, .f32⟩
  | .hbm, ⟨56, _⟩ => ⟨S19683x64, .f32⟩
  | .hbm, ⟨57, _⟩ => ⟨S19683x64, .f32⟩
  | .hbm, ⟨58, _⟩ => ⟨S19683x64, .f32⟩
  | .hbm, ⟨59, _⟩ => ⟨S19683x128, .f32⟩
  | .hbm, ⟨60, _⟩ => ⟨S19683x64, .f32⟩
  | .hbm, ⟨61, _⟩ => ⟨S1x64, .f32⟩
  | .hbm, ⟨62, _⟩ => ⟨S19683x64, .f32⟩
  | .hbm, ⟨63, _⟩ => ⟨S19683x64, .f32⟩
  | .hbm, ⟨64, _⟩ => ⟨S19683x64, .f32⟩
  | .hbm, ⟨65, _⟩ => ⟨S_, .f32⟩
  | .hbm, ⟨66, _⟩ => ⟨S19683x64, .f32⟩
  | .hbm, ⟨67, _⟩ => ⟨S19683x64, .f32⟩
  | .hbm, ⟨68, _⟩ => ⟨S19683x64, .f32⟩
  | .hbm, ⟨69, _⟩ => ⟨S19683x128, .f32⟩
  | .hbm, ⟨70, _⟩ => ⟨S19683x64, .f32⟩
  | .hbm, ⟨71, _⟩ => ⟨S1x64, .f32⟩
  | .hbm, ⟨72, _⟩ => ⟨S19683x64, .f32⟩
  | .hbm, ⟨73, _⟩ => ⟨S19683x64, .f32⟩
  | .hbm, ⟨74, _⟩ => ⟨S19683x64, .f32⟩
  | .hbm, ⟨75, _⟩ => ⟨S_, .f32⟩
  | .hbm, ⟨76, _⟩ => ⟨S19683x64, .f32⟩
  | .hbm, ⟨77, _⟩ => ⟨S19683x64, .f32⟩
  | .hbm, ⟨78, _⟩ => ⟨S19683x64, .f32⟩
  | .hbm, ⟨79, _⟩ => ⟨S19683x128, .f32⟩
  | .hbm, ⟨80, _⟩ => ⟨S19683x64, .f32⟩
  | .hbm, ⟨81, _⟩ => ⟨S1x64, .f32⟩
  | .hbm, ⟨82, _⟩ => ⟨S19683x64, .f32⟩
  | .hbm, ⟨83, _⟩ => ⟨S19683x64, .f32⟩
  | .hbm, ⟨84, _⟩ => ⟨S19683x64, .f32⟩
  | .hbm, ⟨85, _⟩ => ⟨S_, .f32⟩
  | .hbm, ⟨86, _⟩ => ⟨S19683x64, .f32⟩
  | .hbm, ⟨87, _⟩ => ⟨S19683x64, .f32⟩
  | .hbm, ⟨88, _⟩ => ⟨S19683x64, .f32⟩
  | .hbm, ⟨89, _⟩ => ⟨S19683x1, .f32⟩
  | .hbm, ⟨90, _⟩ => ⟨S19683x64, .f32⟩
  | .hbm, ⟨91, _⟩ => ⟨S19683x64, .f32⟩
  | .hbm, ⟨92, _⟩ => ⟨S19683x1, .f32⟩
  | .hbm, ⟨93, _⟩ => ⟨S19683x64, .f32⟩
  | .hbm, ⟨94, _⟩ => ⟨S19683x64, .f32⟩
  | .hbm, ⟨95, _⟩ => ⟨S19683x64, .f32⟩
  | .hbm, ⟨96, _⟩ => ⟨S19683x1, .f32⟩
  | .hbm, ⟨97, _⟩ => ⟨S19683x64, .f32⟩
  | .hbm, ⟨98, _⟩ => ⟨S19683x64, .f32⟩
  | .hbm, ⟨99, _⟩ => ⟨S19683x64, .f32⟩
  | _, _ => ⟨S19683x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_4 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_5 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_6 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩

abbrev nD : Nat := 1
abbrev τ : Topo := Topo.v7x

variable {F : FTy → Type} [FloatOps F]

class Facts₀ : Prop where
  reducesTo_S19683x26x64_S19683x64_d1 : S19683x26x64.ReducesTo [1] S19683x64
  h_S_ : 0 < S_.numel
  bcast_S_S19683x64 : S_.BroadcastsInDim S19683x64 (![] : Fin 0 → Fin S19683x64.rank)
  concatenates_S19683x64_S19683x64_S19683x128_d1 : Shape.Concatenates [S19683x64, S19683x64] S19683x128 1
  bcast_S32_S1x32_1 : S32.BroadcastsInDim S1x32 (![1] : Fin 1 → Fin S1x32.rank)
  bcast_S1x32_S19683x32_0_1 : S1x32.BroadcastsInDim S19683x32 (![0, 1] : Fin 2 → Fin S19683x32.rank)
  bcast_S3_S1x3_1 : S3.BroadcastsInDim S1x3 (![1] : Fin 1 → Fin S1x3.rank)
  bcast_S1x3_S19683x3_0_1 : S1x3.BroadcastsInDim S19683x3 (![0, 1] : Fin 2 → Fin S19683x3.rank)
  reducesTo_S19683x3_S19683_d1 : S19683x3.ReducesTo [1] S19683
  bcast_S_S19683 : S_.BroadcastsInDim S19683 (![] : Fin 0 → Fin S19683.rank)
  bcast_S19683_S19683x1_0 : S19683.BroadcastsInDim S19683x1 (![0] : Fin 1 → Fin S19683x1.rank)
  bcast_S19683x1_S19683x3_0_1 : S19683x1.BroadcastsInDim S19683x3 (![0, 1] : Fin 2 → Fin S19683x3.rank)
  bcast_S64_S1x64_1 : S64.BroadcastsInDim S1x64 (![1] : Fin 1 → Fin S1x64.rank)
  bcast_S1x64_S19683x64_0_1 : S1x64.BroadcastsInDim S19683x64 (![0, 1] : Fin 2 → Fin S19683x64.rank)
  concatenates_S19683x64_S19683x32_S19683x96_d1 : Shape.Concatenates [S19683x64, S19683x32] S19683x96 1
  slices_S19683x3_S19683x1_0_0 : S19683x3.Slices ![0, 0] S19683x1
  bcast_S19683x1_S19683x64_0_1 : S19683x1.BroadcastsInDim S19683x64 (![0, 1] : Fin 2 → Fin S19683x64.rank)
  slices_S19683x3_S19683x1_0_1 : S19683x3.Slices ![0, 1] S19683x1
  slices_S19683x3_S19683x1_0_2 : S19683x3.Slices ![0, 2] S19683x1
  dot_S19683x128_S128x32_S19683x32_1_0_0_1_n_n_wf : DotDims.WF S19683x128 S128x32 S19683x32 [1] [0] [0] [1] [] []
  dot_S19683x32_S32x3_S19683x3_1_0_0_1_n_n_wf : DotDims.WF S19683x32 S32x3 S19683x3 [1] [0] [0] [1] [] []
  dot_S19683x128_S128x64_S19683x64_1_0_0_1_n_n_wf : DotDims.WF S19683x128 S128x64 S19683x64 [1] [0] [0] [1] [] []
  dot_S19683x96_S96x64_S19683x64_1_0_0_1_n_n_wf : DotDims.WF S19683x96 S96x64 S19683x64 [1] [0] [0] [1] [] []

variable [Facts₀]

def dot_S19683x128_S128x32_S19683x32_1_0_0_1_n_n : DotDims S19683x128 S128x32 S19683x32 where
  lhsContracting := [1]
  rhsContracting := [0]
  lhsNonContracting := [0]
  rhsNonContracting := [1]
  lhsBatch := []
  rhsBatch := []
  wf := dot_S19683x128_S128x32_S19683x32_1_0_0_1_n_n_wf
def dot_S19683x32_S32x3_S19683x3_1_0_0_1_n_n : DotDims S19683x32 S32x3 S19683x3 where
  lhsContracting := [1]
  rhsContracting := [0]
  lhsNonContracting := [0]
  rhsNonContracting := [1]
  lhsBatch := []
  rhsBatch := []
  wf := dot_S19683x32_S32x3_S19683x3_1_0_0_1_n_n_wf
def dot_S19683x128_S128x64_S19683x64_1_0_0_1_n_n : DotDims S19683x128 S128x64 S19683x64 where
  lhsContracting := [1]
  rhsContracting := [0]
  lhsNonContracting := [0]
  rhsNonContracting := [1]
  lhsBatch := []
  rhsBatch := []
  wf := dot_S19683x128_S128x64_S19683x64_1_0_0_1_n_n_wf
def dot_S19683x96_S96x64_S19683x64_1_0_0_1_n_n : DotDims S19683x96 S96x64 S19683x64 where
  lhsContracting := [1]
  rhsContracting := [0]
  lhsNonContracting := [0]
  rhsNonContracting := [1]
  lhsBatch := []
  rhsBatch := []
  wf := dot_S19683x96_S96x64_S19683x64_1_0_0_1_n_n_wf

class Facts : Prop extends Facts₀ where

variable [Facts]
-- ==== Proof.Spec.lean ====
/-
  One lattice cell's update over the extended reals, as a function of the cell's own state (64 numbers), its 26
  neighbours' states and the weights: the mean of the neighbours is laid after the cell's state; a gating layer
  (tanh, then a softmax over three experts) weighs three experts — a tanh layer, a message layer followed by an
  update layer on the state laid before the message, and three explicit Euler steps of size 1/3 of a tanh vector
  field that sees the moving state laid before the neighbour mean.

  Two spellings of the same function are stated. `state` / `gate` take every layer as ONE product with the whole
  weight matrix. `kState` / `kGate` add the neighbours one after the other, take the update layer as the sum of two
  products (the state with the matrix's first 64 rows, the message with its last 32) and the vector field as the
  product of the moving state with the matrix's first 64 rows plus a term that does not move (the neighbour mean with
  its last 64 rows, plus the bias). They agree (`kGate_split`, `kState_split`): a sum over an index laid end to end
  splits in two, and addition of extended reals is associative and commutative; nothing needs the numbers finite.
-/
import Idealize.ShloMosaic.PureOps.Ideal
import Idealize.ShloMosaic.Lib.ValueIdx
import Mathlib.Algebra.BigOperators.Fin

noncomputable section

namespace Cert.Moe

open Idealize.ShloMosaic Idealize.ShloMosaic.ValueIdx

/-! ## Rows, products, layers -/

/-- Entry `j` of the row `x` times the matrix `W`. -/
def dot {K M : ℕ} (x : Fin K → EReal) (W : Fin K → Fin M → EReal) (j : Fin M) : EReal := ∑ k : Fin K, x k * W k j

/-- An affine layer, before its nonlinearity. -/
def lin {K M : ℕ} (x : Fin K → EReal) (W : Fin K → Fin M → EReal) (b : Fin M → EReal) (j : Fin M) : EReal :=
  dot x W j + b j

/-- Two rows laid end to end (read at an index of the joined row). -/
def cat {A B N : ℕ} (x : Fin A → EReal) (y : Fin B → EReal) (j : Fin N) : EReal :=
  if h : j.val < A then x ⟨j.val, h⟩ else if h' : j.val - A < B then y ⟨j.val - A, h'⟩ else 0

/-- The product of a joined row with a matrix is the sum of the two rows' products with the matrix's upper and lower
    rows. -/
theorem dot_cat {A B N M : ℕ} (h : A + B = N) (x : Fin A → EReal) (y : Fin B → EReal) (W : Fin N → Fin M → EReal)
    (j : Fin M) :
    dot (cat x y : Fin N → EReal) W j
      = dot x (fun k => W ⟨k.val, by omega⟩) j + dot y (fun k => W ⟨A + k.val, by omega⟩) j := by
  subst h
  unfold dot
  rw [Fin.sum_univ_add]
  congr 1
  · refine Finset.sum_congr rfl fun k _ => ?_
    have hk : (Fin.castAdd B k).val < A := k.isLt
    unfold cat
    rw [dif_pos hk]
    rfl
  · refine Finset.sum_congr rfl fun k _ => ?_
    have hk : ¬ (Fin.natAdd A k).val < A := by simp
    have hk' : (Fin.natAdd A k).val - A < B := by simp
    unfold cat
    rw [dif_neg hk, dif_pos hk']
    congr 2
    · exact Fin.ext (by simp)

/-! ## The neighbours' mean -/

/-- Terms `0 … n` of a sequence, added one after the other from the left. -/
def chainSum (g : ℕ → EReal) : ℕ → EReal
  | 0 => g 0
  | n + 1 => chainSum g n + g (n + 1)

theorem chainSum_eq_sum (g : ℕ → EReal) (n : ℕ) : chainSum g n = ∑ k ∈ Finset.range (n + 1), g k := by
  induction n with
  | zero => simp [chainSum]
  | succ n ih => rw [chainSum, ih, Finset.sum_range_succ (n := n + 1)]

/-- Twenty-six terms added one after the other are their sum. -/
theorem sum26 (f : Fin 26 → EReal) :
    f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 = ∑ k : Fin 26, f k := by
  rw [Finset.sum_fin_eq_sum_range, ← chainSum_eq_sum (fun k => if h : k < 26 then f ⟨k, h⟩ else 0) 25]
  rfl

/-- The mean of the 26 neighbours, entry `q`: their sum times 1/26. -/
def nmean (nb : Fin 26 → Fin 64 → EReal) (q : Fin 64) : EReal := (∑ k : Fin 26, nb k q) * ((1 / 26 : ℝ) : EReal)

/-- The same with the neighbours added one after the other. -/
def kNmean (nb : Fin 26 → Fin 64 → EReal) (q : Fin 64) : EReal :=
  (nb 0 q + nb 1 q + nb 2 q + nb 3 q + nb 4 q + nb 5 q + nb 6 q + nb 7 q + nb 8 q + nb 9 q + nb 10 q + nb 11 q + nb 12 q + nb 13 q + nb 14 q + nb 15 q + nb 16 q + nb 17 q + nb 18 q + nb 19 q + nb 20 q + nb 21 q + nb 22 q + nb 23 q + nb 24 q + nb 25 q) * ((1 / 26 : ℝ) : EReal)

theorem kNmean_eq (nb : Fin 26 → Fin 64 → EReal) : kNmean nb = nmean nb := by
  funext q
  unfold kNmean nmean
  rw [sum26 (fun k => nb k q)]

/-! ## The softmax over the three experts -/

/-- The pattern of minus infinity, from which a row's maximum is taken. -/
def negInf : EReal := Ideal.ofBits .f32 0xFF800000#32

theorem negInf_eq : negInf = ⊥ := by simp [negInf, Ideal.ofBits, Ideal.ieee]

theorem max_negInf (x : EReal) : max negInf x = x := by rw [negInf_eq]; exact bot_sup_eq x

/-- The largest of a row's three entries. -/
def rowMax (l : Fin 3 → EReal) : EReal := (Finset.univ : Finset (Fin 3)).fold max negInf l

/-- The softmax of a row of three, shifted by its maximum. -/
def softmax (l : Fin 3 → EReal) (e : Fin 3) : EReal :=
  Ideal.div (Ideal.exp (l e - rowMax l)) (∑ e' : Fin 3, Ideal.exp (l e' - rowMax l))

/-- The Euler step's size: the pattern both programs spell for 1/3. -/
def third : EReal := Ideal.ofBits .f32 0x3EAAAAAB#32

/-! ## One cell, every layer one product -/

/-- The weights. -/
structure Params where
  Wg1 : Fin 128 → Fin 32 → EReal
  bg1 : Fin 32 → EReal
  Wg2 : Fin 32 → Fin 3 → EReal
  bg2 : Fin 3 → EReal
  Wl : Fin 128 → Fin 64 → EReal
  bl : Fin 64 → EReal
  Wm : Fin 128 → Fin 32 → EReal
  bm : Fin 32 → EReal
  Wu : Fin 96 → Fin 64 → EReal
  bu : Fin 64 → EReal
  Wc : Fin 128 → Fin 64 → EReal
  bc : Fin 64 → EReal

section Cell

variable (P : Params) (cs : Fin 64 → EReal) (nb : Fin 26 → Fin 64 → EReal)

/-- The cell's state laid before its neighbours' mean. -/
def comb : Fin 128 → EReal := cat cs (nmean nb)
/-- The gating network's hidden layer. -/
def gateH (a : Fin 32) : EReal := Ideal.tanh (lin (comb cs nb) P.Wg1 P.bg1 a)
/-- The three experts' logits. -/
def logits (e : Fin 3) : EReal := lin (gateH P cs nb) P.Wg2 P.bg2 e
/-- The three experts' weights. -/
def gate : Fin 3 → EReal := softmax (logits P cs nb)
/-- The first expert: one tanh layer. -/
def localOut (q : Fin 64) : EReal := Ideal.tanh (lin (comb cs nb) P.Wl P.bl q)
/-- The second expert's message. -/
def msg (a : Fin 32) : EReal := Ideal.tanh (lin (comb cs nb) P.Wm P.bm a)
/-- The second expert: a tanh layer on the state laid before the message. -/
def funcOut (q : Fin 64) : EReal := Ideal.tanh (lin (cat cs (msg P cs nb) : Fin 96 → EReal) P.Wu P.bu q)
/-- One Euler step of the third expert's vector field. -/
def cnfStep (s : Fin 64 → EReal) (q : Fin 64) : EReal :=
  s q + third * Ideal.tanh (lin (cat s (nmean nb) : Fin 128 → EReal) P.Wc P.bc q)
/-- The third expert: three steps from the cell's state. -/
def cnfOut : Fin 64 → EReal := cnfStep P nb (cnfStep P nb (cnfStep P nb cs))
/-- The cell's new state: the experts mixed by their weights. -/
def state (q : Fin 64) : EReal :=
  gate P cs nb 0 * localOut P cs nb q + gate P cs nb 1 * funcOut P cs nb q + gate P cs nb 2 * cnfOut P cs nb q

end Cell

/-! ## One cell, the products split -/

/-- The weights with the update matrix and the vector field's matrix cut into their upper and lower rows. -/
structure KParams where
  Wg1 : Fin 128 → Fin 32 → EReal
  bg1 : Fin 32 → EReal
  Wg2 : Fin 32 → Fin 3 → EReal
  bg2 : Fin 3 → EReal
  Wl : Fin 128 → Fin 64 → EReal
  bl : Fin 64 → EReal
  Wm : Fin 128 → Fin 32 → EReal
  bm : Fin 32 → EReal
  WuTop : Fin 64 → Fin 64 → EReal
  WuBot : Fin 32 → Fin 64 → EReal
  bu : Fin 64 → EReal
  WcTop : Fin 64 → Fin 64 → EReal
  WcBot : Fin 64 → Fin 64 → EReal
  bc : Fin 64 → EReal

/-- The weights, cut. -/
def Params.split (P : Params) : KParams where
  Wg1 := P.Wg1
  bg1 := P.bg1
  Wg2 := P.Wg2
  bg2 := P.bg2
  Wl := P.Wl
  bl := P.bl
  Wm := P.Wm
  bm := P.bm
  WuTop := fun k => P.Wu ⟨k.val, by omega⟩
  WuBot := fun k => P.Wu ⟨64 + k.val, by omega⟩
  bu := P.bu
  WcTop := fun k => P.Wc ⟨k.val, by omega⟩
  WcBot := fun k => P.Wc ⟨64 + k.val, by omega⟩
  bc := P.bc

section KCell

variable (Q : KParams) (cs : Fin 64 → EReal) (nb : Fin 26 → Fin 64 → EReal)

def kComb : Fin 128 → EReal := cat cs (kNmean nb)
def kGateH (a : Fin 32) : EReal := Ideal.tanh (dot (kComb cs nb) Q.Wg1 a + Q.bg1 a)
def kLogits (e : Fin 3) : EReal := dot (kGateH Q cs nb) Q.Wg2 e + Q.bg2 e
def kGate : Fin 3 → EReal := softmax (kLogits Q cs nb)
def kLocal (q : Fin 64) : EReal := Ideal.tanh (dot (kComb cs nb) Q.Wl q + Q.bl q)
def kMsg (a : Fin 32) : EReal := Ideal.tanh (dot (kComb cs nb) Q.Wm a + Q.bm a)
/-- The update layer before its tanh: the state's product, plus the message's, plus the bias. -/
def kFuncPre (q : Fin 64) : EReal := dot cs Q.WuTop q + dot (kMsg Q cs nb) Q.WuBot q + Q.bu q
/-- The part of the vector field's argument that does not move. -/
def kBase (q : Fin 64) : EReal := dot (kNmean nb) Q.WcBot q + Q.bc q
def kStep (s : Fin 64 → EReal) (q : Fin 64) : EReal := s q + third * Ideal.tanh (dot s Q.WcTop q + kBase Q nb q)
def kCnf : Fin 64 → EReal := kStep Q nb (kStep Q nb (kStep Q nb cs))
def kState (q : Fin 64) : EReal :=
  kGate Q cs nb 0 * kLocal Q cs nb q + kGate Q cs nb 1 * Ideal.tanh (kFuncPre Q cs nb q) + kGate Q cs nb 2 * kCnf Q cs nb q

end KCell

/-! ## The two spellings agree -/

section Agree

variable (P : Params) (cs : Fin 64 → EReal) (nb : Fin 26 → Fin 64 → EReal)

theorem kComb_eq : kComb cs nb = comb cs nb := by unfold kComb comb; rw [kNmean_eq]

theorem kGateH_split : kGateH P.split cs nb = gateH P cs nb := by
  funext a; unfold kGateH gateH lin; rw [kComb_eq]; rfl

theorem kLogits_split : kLogits P.split cs nb = logits P cs nb := by
  funext e; unfold kLogits logits lin; rw [kGateH_split]; rfl

theorem kGate_split : kGate P.split cs nb = gate P cs nb := by
  unfold kGate gate; rw [kLogits_split]

theorem kLocal_split : kLocal P.split cs nb = localOut P cs nb := by
  funext q; unfold kLocal localOut lin; rw [kComb_eq]; rfl

theorem kMsg_split : kMsg P.split cs nb = msg P cs nb := by
  funext a; unfold kMsg msg lin; rw [kComb_eq]; rfl

theorem kFuncPre_split (q : Fin 64) :
    kFuncPre P.split cs nb q = lin (cat cs (msg P cs nb) : Fin 96 → EReal) P.Wu P.bu q := by
  unfold kFuncPre lin
  rw [dot_cat (A := 64) (B := 32) (by norm_num) cs (msg P cs nb) P.Wu q, kMsg_split]
  rfl

theorem kStep_split (s : Fin 64 → EReal) : kStep P.split nb s = cnfStep P nb s := by
  funext q
  unfold kStep cnfStep kBase lin
  rw [dot_cat (A := 64) (B := 64) (by norm_num) s (nmean nb) P.Wc q, kNmean_eq, add_assoc]
  rfl

theorem kState_split : kState P.split cs nb = state P cs nb := by
  funext q
  unfold kState state kCnf cnfOut funcOut
  rw [kGate_split, kLocal_split, kFuncPre_split, kStep_split, kStep_split, kStep_split]

end Agree

/-! ## The whole arrays -/

/-- A vector, a matrix and a rank-3 array of extended reals over literal extents. -/
abbrev Arr1 (n : ℕ) : Type := (⟨1, ![n]⟩ : Shape).Idx → EReal
abbrev Arr2 (m n : ℕ) : Type := (⟨2, ![m, n]⟩ : Shape).Idx → EReal
abbrev Arr3 (a b c : ℕ) : Type := (⟨3, ![a, b, c]⟩ : Shape).Idx → EReal

/-- The weights read off the twelve weight arrays. -/
def paramsOf (x2 : Arr2 128 32) (x3 : Arr1 32) (x4 : Arr2 32 3) (x5 : Arr1 3) (x6 : Arr2 128 64) (x7 : Arr1 64)
    (x8 : Arr2 128 32) (x9 : Arr1 32) (x10 : Arr2 96 64) (x11 : Arr1 64) (x12 : Arr2 128 64) (x13 : Arr1 64) : Params where
  Wg1 := fun k a => x2 (ix2 k a)
  bg1 := fun a => x3 (ix1 a)
  Wg2 := fun a e => x4 (ix2 a e)
  bg2 := fun e => x5 (ix1 e)
  Wl := fun k q => x6 (ix2 k q)
  bl := fun q => x7 (ix1 q)
  Wm := fun k a => x8 (ix2 k a)
  bm := fun a => x9 (ix1 a)
  Wu := fun k q => x10 (ix2 k q)
  bu := fun q => x11 (ix1 q)
  Wc := fun k q => x12 (ix2 k q)
  bc := fun q => x13 (ix1 q)

/-- Every cell's new state: row `r` from row `r` of the states and of the neighbours' states. -/
def Gstate (x0 : Arr2 19683 64) (x1 : Arr3 19683 26 64) (x2 : Arr2 128 32) (x3 : Arr1 32) (x4 : Arr2 32 3) (x5 : Arr1 3)
    (x6 : Arr2 128 64) (x7 : Arr1 64) (x8 : Arr2 128 32) (x9 : Arr1 32) (x10 : Arr2 96 64) (x11 : Arr1 64)
    (x12 : Arr2 128 64) (x13 : Arr1 64) : Arr2 19683 64 := fun i =>
  state (paramsOf x2 x3 x4 x5 x6 x7 x8 x9 x10 x11 x12 x13) (fun q => x0 (ix2 (i 0) q)) (fun k q => x1 (ix3 (i 0) k q)) (i 1)

/-- Every cell's three expert weights. -/
def Ggate (x0 : Arr2 19683 64) (x1 : Arr3 19683 26 64) (x2 : Arr2 128 32) (x3 : Arr1 32) (x4 : Arr2 32 3) (x5 : Arr1 3)
    (x6 : Arr2 128 64) (x7 : Arr1 64) (x8 : Arr2 128 32) (x9 : Arr1 32) (x10 : Arr2 96 64) (x11 : Arr1 64)
    (x12 : Arr2 128 64) (x13 : Arr1 64) : Arr2 19683 3 := fun i =>
  gate (paramsOf x2 x3 x4 x5 x6 x7 x8 x9 x10 x11 x12 x13) (fun q => x0 (ix2 (i 0) q)) (fun k q => x1 (ix3 (i 0) k q)) (i 1)

/-- The weights as a block of 729 cells finds them: each bias as a one-row matrix, the update matrix and the vector
    field's matrix read in their upper and lower rows. -/
def kparamsOf (b2 : Arr2 128 32) (b3 : Arr2 1 32) (b4 : Arr2 32 3) (b5 : Arr2 1 3) (b6 : Arr2 128 64) (b7 : Arr2 1 64)
    (b8 : Arr2 128 32) (b9 : Arr2 1 32) (b10 : Arr2 96 64) (b11 : Arr2 1 64) (b12 : Arr2 128 64) (b13 : Arr2 1 64) : KParams where
  Wg1 := fun k a => b2 (ix2 k a)
  bg1 := fun a => b3 (ix2 0 a)
  Wg2 := fun a e => b4 (ix2 a e)
  bg2 := fun e => b5 (ix2 0 e)
  Wl := fun k q => b6 (ix2 k q)
  bl := fun q => b7 (ix2 0 q)
  Wm := fun k a => b8 (ix2 k a)
  bm := fun a => b9 (ix2 0 a)
  WuTop := fun k q => b10 (ix2 ⟨k.val, by omega⟩ q)
  WuBot := fun k q => b10 (ix2 ⟨64 + k.val, by omega⟩ q)
  bu := fun q => b11 (ix2 0 q)
  WcTop := fun k q => b12 (ix2 ⟨k.val, by omega⟩ q)
  WcBot := fun k q => b12 (ix2 ⟨64 + k.val, by omega⟩ q)
  bc := fun q => b13 (ix2 0 q)

/-- When each one-row bias is its vector, the block's weights are the arrays' weights, cut. -/
theorem kparamsOf_eq (x2 : Arr2 128 32) (x3 : Arr1 32) (x4 : Arr2 32 3) (x5 : Arr1 3) (x6 : Arr2 128 64) (x7 : Arr1 64)
    (x8 : Arr2 128 32) (x9 : Arr1 32) (x10 : Arr2 96 64) (x11 : Arr1 64) (x12 : Arr2 128 64) (x13 : Arr1 64)
    (b3 : Arr2 1 32) (b5 : Arr2 1 3) (b7 : Arr2 1 64) (b9 : Arr2 1 32) (b11 : Arr2 1 64) (b13 : Arr2 1 64)
    (h3 : ∀ a, b3 (ix2 0 a) = x3 (ix1 a)) (h5 : ∀ a, b5 (ix2 0 a) = x5 (ix1 a)) (h7 : ∀ a, b7 (ix2 0 a) = x7 (ix1 a))
    (h9 : ∀ a, b9 (ix2 0 a) = x9 (ix1 a)) (h11 : ∀ a, b11 (ix2 0 a) = x11 (ix1 a)) (h13 : ∀ a, b13 (ix2 0 a) = x13 (ix1 a)) :
    kparamsOf x2 b3 x4 b5 x6 b7 x8 b9 x10 b11 x12 b13 = (paramsOf x2 x3 x4 x5 x6 x7 x8 x9 x10 x11 x12 x13).split := by
  unfold kparamsOf paramsOf Params.split
  simp only [h3, h5, h7, h9, h11, h13]

end Cert.Moe

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.KMatmul.lean ====
/-
  The kernel's five matrix products, each read at one entry over the extended reals: entry (p, q) of a product
  accumulated into zero is the sum over the contracted axis of left[p, k] · right[k, q]. Each printed record of
  dimension numbers contracts the left operand's second axis with the right operand's first and has no batch axis;
  the four facts about where it reads its operands are checked per record, and the general statement does the rest.
-/
import proofs.«152412_g38233798869014_cont_8to1_b_1562_9_alg».proof.Proof.Gen.KernelIdeal
import proofs.«152412_g38233798869014_cont_8to1_b_1562_9_alg».proof.Proof.LibMatmulAt

noncomputable section

namespace Cert.KernelIdeal.Cell

open Cert.KernelIdeal Idealize.ShloMosaic Idealize.ShloMosaic.ValueIdx

/-! ### [729 × 128] · [128 × 32] -/

theorem lhs_S729x128_S128x32_0 (i : S729x32.Idx) (q : dot_S729x128_S128x32_S729x32_1_0_0_1_n_n.contr.Idx) :
    (dot_S729x128_S128x32_S729x32_1_0_0_1_n_n.lhsIdx i q 0).val = (i 0).val := by
  unfold DotDims.lhsIdx
  rw [dif_neg (show ¬(0 : Fin S729x128.rank) ∈ dot_S729x128_S128x32_S729x32_1_0_0_1_n_n.lhsBatch by decide), dif_pos (show (0 : Fin S729x128.rank) ∈ dot_S729x128_S128x32_S729x32_1_0_0_1_n_n.lhsNonContracting by decide)]
  rfl
theorem lhs_S729x128_S128x32_1 (i : S729x32.Idx) (q : dot_S729x128_S128x32_S729x32_1_0_0_1_n_n.contr.Idx) :
    (dot_S729x128_S128x32_S729x32_1_0_0_1_n_n.lhsIdx i q 1).val = (q ⟨0, by decide⟩).val :=
  dot_S729x128_S128x32_S729x32_1_0_0_1_n_n.lhsIdx_val_of_single rfl i q
theorem rhs_S729x128_S128x32_0 (i : S729x32.Idx) (q : dot_S729x128_S128x32_S729x32_1_0_0_1_n_n.contr.Idx) :
    (dot_S729x128_S128x32_S729x32_1_0_0_1_n_n.rhsIdx i q 0).val = (q ⟨0, by decide⟩).val :=
  dot_S729x128_S128x32_S729x32_1_0_0_1_n_n.rhsIdx_val_of_single rfl i q
theorem rhs_S729x128_S128x32_1 (i : S729x32.Idx) (q : dot_S729x128_S128x32_S729x32_1_0_0_1_n_n.contr.Idx) :
    (dot_S729x128_S128x32_S729x32_1_0_0_1_n_n.rhsIdx i q 1).val = (i 1).val := by
  unfold DotDims.rhsIdx
  rw [dif_neg (show ¬(1 : Fin S128x32.rank) ∈ dot_S729x128_S128x32_S729x32_1_0_0_1_n_n.rhsBatch by decide), dif_pos (show (1 : Fin S128x32.rank) ∈ dot_S729x128_S128x32_S729x32_1_0_0_1_n_n.rhsNonContracting by decide)]
  rfl

/-- Entry (p, q) of the [729 × 128] · [128 × 32] product into zero. -/
theorem mm_S729x128_S128x32 (prec : Option ContractPrecision) (l : FVec Ideal S729x128 .f32) (r : FVec Ideal S128x32 .f32) (p : Fin 729) (q : Fin 32) :
    matmul dot_S729x128_S128x32_S729x32_1_0_0_1_n_n prec l r (constant (F := Ideal) S729x32 .f32 0x00000000#32) (ix2 p q)
      = ∑ k : Fin 128, l (ix2 p k) * r (ix2 k q) :=
  MatmulAt.matmul_zero_at dot_S729x128_S128x32_S729x32_1_0_0_1_n_n rfl rfl lhs_S729x128_S128x32_0 lhs_S729x128_S128x32_1 rhs_S729x128_S128x32_0 rhs_S729x128_S128x32_1 prec l r p q

/-! ### [729 × 32] · [32 × 3] -/

theorem lhs_S729x32_S32x3_0 (i : S729x3.Idx) (q : dot_S729x32_S32x3_S729x3_1_0_0_1_n_n.contr.Idx) :
    (dot_S729x32_S32x3_S729x3_1_0_0_1_n_n.lhsIdx i q 0).val = (i 0).val := by
  unfold DotDims.lhsIdx
  rw [dif_neg (show ¬(0 : Fin S729x32.rank) ∈ dot_S729x32_S32x3_S729x3_1_0_0_1_n_n.lhsBatch by decide), dif_pos (show (0 : Fin S729x32.rank) ∈ dot_S729x32_S32x3_S729x3_1_0_0_1_n_n.lhsNonContracting by decide)]
  rfl
theorem lhs_S729x32_S32x3_1 (i : S729x3.Idx) (q : dot_S729x32_S32x3_S729x3_1_0_0_1_n_n.contr.Idx) :
    (dot_S729x32_S32x3_S729x3_1_0_0_1_n_n.lhsIdx i q 1).val = (q ⟨0, by decide⟩).val :=
  dot_S729x32_S32x3_S729x3_1_0_0_1_n_n.lhsIdx_val_of_single rfl i q
theorem rhs_S729x32_S32x3_0 (i : S729x3.Idx) (q : dot_S729x32_S32x3_S729x3_1_0_0_1_n_n.contr.Idx) :
    (dot_S729x32_S32x3_S729x3_1_0_0_1_n_n.rhsIdx i q 0).val = (q ⟨0, by decide⟩).val :=
  dot_S729x32_S32x3_S729x3_1_0_0_1_n_n.rhsIdx_val_of_single rfl i q
theorem rhs_S729x32_S32x3_1 (i : S729x3.Idx) (q : dot_S729x32_S32x3_S729x3_1_0_0_1_n_n.contr.Idx) :
    (dot_S729x32_S32x3_S729x3_1_0_0_1_n_n.rhsIdx i q 1).val = (i 1).val := by
  unfold DotDims.rhsIdx
  rw [dif_neg (show ¬(1 : Fin S32x3.rank) ∈ dot_S729x32_S32x3_S729x3_1_0_0_1_n_n.rhsBatch by decide), dif_pos (show (1 : Fin S32x3.rank) ∈ dot_S729x32_S32x3_S729x3_1_0_0_1_n_n.rhsNonContracting by decide)]
  rfl

/-- Entry (p, q) of the [729 × 32] · [32 × 3] product into zero. -/
theorem mm_S729x32_S32x3 (prec : Option ContractPrecision) (l : FVec Ideal S729x32 .f32) (r : FVec Ideal S32x3 .f32) (p : Fin 729) (q : Fin 3) :
    matmul dot_S729x32_S32x3_S729x3_1_0_0_1_n_n prec l r (constant (F := Ideal) S729x3 .f32 0x00000000#32) (ix2 p q)
      = ∑ k : Fin 32, l (ix2 p k) * r (ix2 k q) :=
  MatmulAt.matmul_zero_at dot_S729x32_S32x3_S729x3_1_0_0_1_n_n rfl rfl lhs_S729x32_S32x3_0 lhs_S729x32_S32x3_1 rhs_S729x32_S32x3_0 rhs_S729x32_S32x3_1 prec l r p q

/-! ### [729 × 128] · [128 × 64] -/

theorem lhs_S729x128_S128x64_0 (i : S729x64.Idx) (q : dot_S729x128_S128x64_S729x64_1_0_0_1_n_n.contr.Idx) :
    (dot_S729x128_S128x64_S729x64_1_0_0_1_n_n.lhsIdx i q 0).val = (i 0).val := by
  unfold DotDims.lhsIdx
  rw [dif_neg (show ¬(0 : Fin S729x128.rank) ∈ dot_S729x128_S128x64_S729x64_1_0_0_1_n_n.lhsBatch by decide), dif_pos (show (0 : Fin S729x128.rank) ∈ dot_S729x128_S128x64_S729x64_1_0_0_1_n_n.lhsNonContracting by decide)]
  rfl
theorem lhs_S729x128_S128x64_1 (i : S729x64.Idx) (q : dot_S729x128_S128x64_S729x64_1_0_0_1_n_n.contr.Idx) :
    (dot_S729x128_S128x64_S729x64_1_0_0_1_n_n.lhsIdx i q 1).val = (q ⟨0, by decide⟩).val :=
  dot_S729x128_S128x64_S729x64_1_0_0_1_n_n.lhsIdx_val_of_single rfl i q
theorem rhs_S729x128_S128x64_0 (i : S729x64.Idx) (q : dot_S729x128_S128x64_S729x64_1_0_0_1_n_n.contr.Idx) :
    (dot_S729x128_S128x64_S729x64_1_0_0_1_n_n.rhsIdx i q 0).val = (q ⟨0, by decide⟩).val :=
  dot_S729x128_S128x64_S729x64_1_0_0_1_n_n.rhsIdx_val_of_single rfl i q
theorem rhs_S729x128_S128x64_1 (i : S729x64.Idx) (q : dot_S729x128_S128x64_S729x64_1_0_0_1_n_n.contr.Idx) :
    (dot_S729x128_S128x64_S729x64_1_0_0_1_n_n.rhsIdx i q 1).val = (i 1).val := by
  unfold DotDims.rhsIdx
  rw [dif_neg (show ¬(1 : Fin S128x64.rank) ∈ dot_S729x128_S128x64_S729x64_1_0_0_1_n_n.rhsBatch by decide), dif_pos (show (1 : Fin S128x64.rank) ∈ dot_S729x128_S128x64_S729x64_1_0_0_1_n_n.rhsNonContracting by decide)]
  rfl

/-- Entry (p, q) of the [729 × 128] · [128 × 64] product into zero. -/
theorem mm_S729x128_S128x64 (prec : Option ContractPrecision) (l : FVec Ideal S729x128 .f32) (r : FVec Ideal S128x64 .f32) (p : Fin 729) (q : Fin 64) :
    matmul dot_S729x128_S128x64_S729x64_1_0_0_1_n_n prec l r (constant (F := Ideal) S729x64 .f32 0x00000000#32) (ix2 p q)
      = ∑ k : Fin 128, l (ix2 p k) * r (ix2 k q) :=
  MatmulAt.matmul_zero_at dot_S729x128_S128x64_S729x64_1_0_0_1_n_n rfl rfl lhs_S729x128_S128x64_0 lhs_S729x128_S128x64_1 rhs_S729x128_S128x64_0 rhs_S729x128_S128x64_1 prec l r p q

/-! ### [729 × 64] · [64 × 64] -/

theorem lhs_S729x64_S64x64_0 (i : S729x64.Idx) (q : dot_S729x64_S64x64_S729x64_1_0_0_1_n_n.contr.Idx) :
    (dot_S729x64_S64x64_S729x64_1_0_0_1_n_n.lhsIdx i q 0).val = (i 0).val := by
  unfold DotDims.lhsIdx
  rw [dif_neg (show ¬(0 : Fin S729x64.rank) ∈ dot_S729x64_S64x64_S729x64_1_0_0_1_n_n.lhsBatch by decide), dif_pos (show (0 : Fin S729x64.rank) ∈ dot_S729x64_S64x64_S729x64_1_0_0_1_n_n.lhsNonContracting by decide)]
  rfl
theorem lhs_S729x64_S64x64_1 (i : S729x64.Idx) (q : dot_S729x64_S64x64_S729x64_1_0_0_1_n_n.contr.Idx) :
    (dot_S729x64_S64x64_S729x64_1_0_0_1_n_n.lhsIdx i q 1).val = (q ⟨0, by decide⟩).val :=
  dot_S729x64_S64x64_S729x64_1_0_0_1_n_n.lhsIdx_val_of_single rfl i q
theorem rhs_S729x64_S64x64_0 (i : S729x64.Idx) (q : dot_S729x64_S64x64_S729x64_1_0_0_1_n_n.contr.Idx) :
    (dot_S729x64_S64x64_S729x64_1_0_0_1_n_n.rhsIdx i q 0).val = (q ⟨0, by decide⟩).val :=
  dot_S729x64_S64x64_S729x64_1_0_0_1_n_n.rhsIdx_val_of_single rfl i q
theorem rhs_S729x64_S64x64_1 (i : S729x64.Idx) (q : dot_S729x64_S64x64_S729x64_1_0_0_1_n_n.contr.Idx) :
    (dot_S729x64_S64x64_S729x64_1_0_0_1_n_n.rhsIdx i q 1).val = (i 1).val := by
  unfold DotDims.rhsIdx
  rw [dif_neg (show ¬(1 : Fin S64x64.rank) ∈ dot_S729x64_S64x64_S729x64_1_0_0_1_n_n.rhsBatch by decide), dif_pos (show (1 : Fin S64x64.rank) ∈ dot_S729x64_S64x64_S729x64_1_0_0_1_n_n.rhsNonContracting by decide)]
  rfl

/-- Entry (p, q) of the [729 × 64] · [64 × 64] product into zero. -/
theorem mm_S729x64_S64x64 (prec : Option ContractPrecision) (l : FVec Ideal S729x64 .f32) (r : FVec Ideal S64x64 .f32) (p : Fin 729) (q : Fin 64) :
    matmul dot_S729x64_S64x64_S729x64_1_0_0_1_n_n prec l r (constant (F := Ideal) S729x64 .f32 0x00000000#32) (ix2 p q)
      = ∑ k : Fin 64, l (ix2 p k) * r (ix2 k q) :=
  MatmulAt.matmul_zero_at dot_S729x64_S64x64_S729x64_1_0_0_1_n_n rfl rfl lhs_S729x64_S64x64_0 lhs_S729x64_S64x64_1 rhs_S729x64_S64x64_0 rhs_S729x64_S64x64_1 prec l r p q

/-! ### [729 × 32] · [32 × 64] -/

theorem lhs_S729x32_S32x64_0 (i : S729x64.Idx) (q : dot_S729x32_S32x64_S729x64_1_0_0_1_n_n.contr.Idx) :
    (dot_S729x32_S32x64_S729x64_1_0_0_1_n_n.lhsIdx i q 0).val = (i 0).val := by
  unfold DotDims.lhsIdx
  rw [dif_neg (show ¬(0 : Fin S729x32.rank) ∈ dot_S729x32_S32x64_S729x64_1_0_0_1_n_n.lhsBatch by decide), dif_pos (show (0 : Fin S729x32.rank) ∈ dot_S729x32_S32x64_S729x64_1_0_0_1_n_n.lhsNonContracting by decide)]
  rfl
theorem lhs_S729x32_S32x64_1 (i : S729x64.Idx) (q : dot_S729x32_S32x64_S729x64_1_0_0_1_n_n.contr.Idx) :
    (dot_S729x32_S32x64_S729x64_1_0_0_1_n_n.lhsIdx i q 1).val = (q ⟨0, by decide⟩).val :=
  dot_S729x32_S32x64_S729x64_1_0_0_1_n_n.lhsIdx_val_of_single rfl i q
theorem rhs_S729x32_S32x64_0 (i : S729x64.Idx) (q : dot_S729x32_S32x64_S729x64_1_0_0_1_n_n.contr.Idx) :
    (dot_S729x32_S32x64_S729x64_1_0_0_1_n_n.rhsIdx i q 0).val = (q ⟨0, by decide⟩).val :=
  dot_S729x32_S32x64_S729x64_1_0_0_1_n_n.rhsIdx_val_of_single rfl i q
theorem rhs_S729x32_S32x64_1 (i : S729x64.Idx) (q : dot_S729x32_S32x64_S729x64_1_0_0_1_n_n.contr.Idx) :
    (dot_S729x32_S32x64_S729x64_1_0_0_1_n_n.rhsIdx i q 1).val = (i 1).val := by
  unfold DotDims.rhsIdx
  rw [dif_neg (show ¬(1 : Fin S32x64.rank) ∈ dot_S729x32_S32x64_S729x64_1_0_0_1_n_n.rhsBatch by decide), dif_pos (show (1 : Fin S32x64.rank) ∈ dot_S729x32_S32x64_S729x64_1_0_0_1_n_n.rhsNonContracting by decide)]
  rfl

/-- Entry (p, q) of the [729 × 32] · [32 × 64] product into zero. -/
theorem mm_S729x32_S32x64 (prec : Option ContractPrecision) (l : FVec Ideal S729x32 .f32) (r : FVec Ideal S32x64 .f32) (p : Fin 729) (q : Fin 64) :
    matmul dot_S729x32_S32x64_S729x64_1_0_0_1_n_n prec l r (constant (F := Ideal) S729x64 .f32 0x00000000#32) (ix2 p q)
      = ∑ k : Fin 32, l (ix2 p k) * r (ix2 k q) :=
  MatmulAt.matmul_zero_at dot_S729x32_S32x64_S729x64_1_0_0_1_n_n rfl rfl lhs_S729x32_S32x64_0 lhs_S729x32_S32x64_1 rhs_S729x32_S32x64_0 rhs_S729x32_S32x64_1 prec l r p q

end Cert.KernelIdeal.Cell

end
-- ==== Proof.KGate.lean ====
/-
  The kernel's body on one block of 729 cells, read at a cell: the neighbours' mean, the cell's state, the two laid end
  to end, and the gating path (hidden layer, logits, softmax) down to the block of expert weights the body stores.
-/
import proofs.«152412_g38233798869014_cont_8to1_b_1562_9_alg».proof.Proof.Spec
import proofs.«152412_g38233798869014_cont_8to1_b_1562_9_alg».proof.Proof.KMatmul
import proofs.«152412_g38233798869014_cont_8to1_b_1562_9_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.Cell.Gate

open Cert.KernelIdeal Cert.KernelIdeal.Gen Idealize.ShloMosaic Idealize.ShloMosaic.ValueIdx Cert.Moe

/-! ## Layout operations read at an index -/

section Layout
variable {α : Type}

/-- An `[a, 1, b]` array cast to `[a, b]` reads, at `(i, j)`, the operand at `(i, 0, j)`: both have row-major
    position `i · b + j`. -/
theorem cast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array cast to the column `[a, 1]` reads, at `(i, u)`, the operand at `i`. -/
theorem cast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem bcast_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The all-zero offsets of a rank-2 and of a rank-3 rectangle. -/
theorem hz2 : (![0, 0] : Fin 2 → ℕ) = fun _ => 0 := by funext a; fin_cases a <;> rfl
theorem hz3 : (![0, 0, 0] : Fin 3 → ℕ) = fun _ => 0 := by funext a; fin_cases a <;> rfl

/-! ## The neighbours' slabs and their mean -/

/-- Slab `n` of the neighbours' block, read at `(p, 0, q)`, is neighbour `n` of cell `p` at `q`. -/
theorem ld_slab (x0 : Vec Ideal S729x26x64 .f32) (n : ℕ) (hn : n < 26)
    (inb : ∀ a, (![0, n, 0] : Fin 3 → ℕ) a + S729x1x64.size a ≤ S729x26x64.size a) (p : Fin 729) (q : Fin 64) :
    View.ld x0 (Rect.unit (s := S729x26x64) ![0, n, 0] S729x1x64.size inb) (ix3 p (0 : Fin 1) q) = x0 (ix3 p ⟨n, hn⟩ q) := by
  show x0 _ = x0 _
  refine congrArg x0 (funext fun a => Fin.ext ?_)
  match a with
  | ⟨0, _⟩ => show 0 + 1 * p.val = p.val; omega
  | ⟨1, _⟩ => show n + 1 * 0 = n; omega
  | ⟨2, _⟩ => show 0 + 1 * q.val = q.val; omega

/-- The named constant is 1/26. -/
theorem inv26 : Named.named (F := Ideal) Cert.KernelIdeal.κ "inv_26" (φ := .f32) 0x3D1D89D9#32 = ((1 / 26 : ℝ) : EReal) :=
  IdealRules.named_const.ideal_named_scalar _ _ _ _ rfl

/-- The first ten slabs added one after the other. -/
theorem pay3_at (l0 l1 l2 l3 l4 l5 l6 l7 l8 l9 : Vec Ideal S729x1x64 .f32) (p : Fin 729) (q : Fin 64) :
    k0_pay3 (F := Ideal) l0 l1 l2 l3 l4 l5 l6 l7 l8 l9 (ix2 p q)
      = l0 (ix3 p (0 : Fin 1) q) + l1 (ix3 p (0 : Fin 1) q) + l2 (ix3 p (0 : Fin 1) q) + l3 (ix3 p (0 : Fin 1) q) + l4 (ix3 p (0 : Fin 1) q) + l5 (ix3 p (0 : Fin 1) q) + l6 (ix3 p (0 : Fin 1) q) + l7 (ix3 p (0 : Fin 1) q) + l8 (ix3 p (0 : Fin 1) q) + l9 (ix3 p (0 : Fin 1) q) := by
  unfold k0_pay3
  simp only [addf_apply, cast_a1b_ab_apply]

/-- Ten more slabs added to a running sum. -/
theorem pay4_at (s : FVec Ideal S729x64 .f32) (l10 l11 l12 l13 l14 l15 l16 l17 l18 l19 : Vec Ideal S729x1x64 .f32) (p : Fin 729) (q : Fin 64) :
    k0_pay4 (F := Ideal) s l10 l11 l12 l13 l14 l15 l16 l17 l18 l19 (ix2 p q)
      = s (ix2 p q) + l10 (ix3 p (0 : Fin 1) q) + l11 (ix3 p (0 : Fin 1) q) + l12 (ix3 p (0 : Fin 1) q) + l13 (ix3 p (0 : Fin 1) q) + l14 (ix3 p (0 : Fin 1) q) + l15 (ix3 p (0 : Fin 1) q) + l16 (ix3 p (0 : Fin 1) q) + l17 (ix3 p (0 : Fin 1) q) + l18 (ix3 p (0 : Fin 1) q) + l19 (ix3 p (0 : Fin 1) q) := by
  unfold k0_pay4
  simp only [addf_apply, cast_a1b_ab_apply]

/-- The last six slabs added to the running sum, and the whole times 1/26. -/
theorem pay5_at (s : FVec Ideal S729x64 .f32) (l20 l21 l22 l23 l24 l25 : Vec Ideal S729x1x64 .f32) (p : Fin 729) (q : Fin 64) :
    k0_pay5 (F := Ideal) s l20 l21 l22 l23 l24 l25 (ix2 p q)
      = (s (ix2 p q) + l20 (ix3 p (0 : Fin 1) q) + l21 (ix3 p (0 : Fin 1) q) + l22 (ix3 p (0 : Fin 1) q) + l23 (ix3 p (0 : Fin 1) q) + l24 (ix3 p (0 : Fin 1) q) + l25 (ix3 p (0 : Fin 1) q)) * ((1 / 26 : ℝ) : EReal) := by
  unfold k0_pay5
  simp only [mulf_apply, addf_apply, broadcast_apply, cast_a1b_ab_apply, inv26]

/-- The three payloads chained over 26 free slabs, each known at `(p, 0, q)`: the chain of neighbours times 1/26. -/
theorem nm_gen (l0 l1 l2 l3 l4 l5 l6 l7 l8 l9 l10 l11 l12 l13 l14 l15 l16 l17 l18 l19 l20 l21 l22 l23 l24 l25 : Vec Ideal S729x1x64 .f32) (nb : Fin 26 → Fin 64 → EReal) (p : Fin 729) (q : Fin 64)
    (h0 : l0 (ix3 p (0 : Fin 1) q) = nb 0 q) (h1 : l1 (ix3 p (0 : Fin 1) q) = nb 1 q) (h2 : l2 (ix3 p (0 : Fin 1) q) = nb 2 q) (h3 : l3 (ix3 p (0 : Fin 1) q) = nb 3 q) (h4 : l4 (ix3 p (0 : Fin 1) q) = nb 4 q) (h5 : l5 (ix3 p (0 : Fin 1) q) = nb 5 q) (h6 : l6 (ix3 p (0 : Fin 1) q) = nb 6 q) (h7 : l7 (ix3 p (0 : Fin 1) q) = nb 7 q) (h8 : l8 (ix3 p (0 : Fin 1) q) = nb 8 q) (h9 : l9 (ix3 p (0 : Fin 1) q) = nb 9 q) (h10 : l10 (ix3 p (0 : Fin 1) q) = nb 10 q) (h11 : l11 (ix3 p (0 : Fin 1) q) = nb 11 q) (h12 : l12 (ix3 p (0 : Fin 1) q) = nb 12 q) (h13 : l13 (ix3 p (0 : Fin 1) q) = nb 13 q) (h14 : l14 (ix3 p (0 : Fin 1) q) = nb 14 q) (h15 : l15 (ix3 p (0 : Fin 1) q) = nb 15 q) (h16 : l16 (ix3 p (0 : Fin 1) q) = nb 16 q) (h17 : l17 (ix3 p (0 : Fin 1) q) = nb 17 q) (h18 : l18 (ix3 p (0 : Fin 1) q) = nb 18 q) (h19 : l19 (ix3 p (0 : Fin 1) q) = nb 19 q) (h20 : l20 (ix3 p (0 : Fin 1) q) = nb 20 q) (h21 : l21 (ix3 p (0 : Fin 1) q) = nb 21 q) (h22 : l22 (ix3 p (0 : Fin 1) q) = nb 22 q) (h23 : l23 (ix3 p (0 : Fin 1) q) = nb 23 q) (h24 : l24 (ix3 p (0 : Fin 1) q) = nb 24 q) (h25 : l25 (ix3 p (0 : Fin 1) q) = nb 25 q) :
    k0_pay5 (F := Ideal) (k0_pay4 (k0_pay3 l0 l1 l2 l3 l4 l5 l6 l7 l8 l9) l10 l11 l12 l13 l14 l15 l16 l17 l18 l19) l20 l21 l22 l23 l24 l25 (ix2 p q) = kNmean nb q := by
  rw [pay5_at, pay4_at, pay3_at, h0, h1, h2, h3, h4, h5, h6, h7, h8, h9, h10, h11, h12, h13, h14, h15, h16, h17, h18, h19, h20, h21, h22, h23, h24, h25]
  rfl

/-! ## The cell's state, and the two laid end to end -/

/-- The leading unit axis of the state block dropped. -/
theorem pay6_at (v : Vec Ideal S1x729x64 .f32) (p : Fin 729) (q : Fin 64) :
    k0_pay6 (F := Ideal) v (ix2 p q) = v (ix3 (0 : Fin 1) p q) := by
  unfold k0_pay6
  exact shapeCast_1ab_ab_apply v _ p q

/-- The concatenation along the second axis, read at column `j`: the state below 64, the mean from 64 on. -/
theorem pay7_at (s : FVec Ideal S729x64 .f32) (l20 l21 l22 l23 l24 l25 : Vec Ideal S729x1x64 .f32) (v79 : Vec Ideal S1x729x64 .f32)
    (p : Fin 729) (j : Fin 128) :
    k0_pay7 (F := Ideal) s l20 l21 l22 l23 l24 l25 v79 (ix2 p j)
      = (cat (fun q : Fin 64 => k0_pay6 (F := Ideal) v79 (ix2 p q)) (fun q : Fin 64 => k0_pay5 (F := Ideal) s l20 l21 l22 l23 l24 l25 (ix2 p q)) : Fin 128 → EReal) j := by
  unfold k0_pay7 cat
  by_cases h : j.val < 64
  · rw [dif_pos h]
    refine concatenate_pair_apply_left (t := S729x128) (s₁ := S729x64) (s₂ := S729x64) _ _ _ _ (ix2 p j) rfl (ix2 p (⟨j.val, h⟩ : Fin 64) : S729x64.Idx) fun b => ?_
    match b with
    | ⟨0, _⟩ => rfl
    | ⟨1, _⟩ => rfl
  · have h' : j.val - 64 < 64 := by have := j.isLt; omega
    rw [dif_neg h, dif_pos h']
    refine concatenate_pair_apply_right (t := S729x128) (s₁ := S729x64) (s₂ := S729x64) _ _ _ _ (ix2 p j) rfl rfl (ix2 p (⟨j.val - 64, h'⟩ : Fin 64) : S729x64.Idx) (fun b hb => ?_) ?_
    · match b, hb with
      | ⟨0, _⟩, _ => rfl
      | ⟨1, _⟩, hb => exact absurd rfl hb
    · show (j.val - 64) + 64 = j.val
      omega

/-! ## The gating path -/

/-- The hidden layer: product with the first gating matrix, the bias row broadcast over the cells, tanh. -/
theorem pay8_at (s : FVec Ideal S729x64 .f32) (l20 l21 l22 l23 l24 l25 : Vec Ideal S729x1x64 .f32) (v79 : Vec Ideal S1x729x64 .f32)
    (v82 : FVec Ideal S128x32 .f32) (v84 : FVec Ideal S1x32 .f32) (p : Fin 729) (a : Fin 32) :
    k0_pay8 (F := Ideal) s l20 l21 l22 l23 l24 l25 v79 v82 v84 (ix2 p a)
      = Ideal.tanh ((∑ k : Fin 128, k0_pay7 (F := Ideal) s l20 l21 l22 l23 l24 l25 v79 (ix2 p k) * v82 (ix2 k a)) + v84 (ix2 (0 : Fin 1) a)) := by
  unfold k0_pay8
  show Ideal.tanh (matmul dot_S729x128_S128x32_S729x32_1_0_0_1_n_n none (k0_pay7 (F := Ideal) s l20 l21 l22 l23 l24 l25 v79) v82 (constant (F := Ideal) S729x32 .f32 0x00000000#32) (ix2 p a)
      + broadcastTo S729x32 (shapeCast S1x32 v84 shapeCasts_S1x32_S1x32) broadcasts_S1x32_S729x32 (ix2 p a)) = _
  rw [mm_S729x128_S128x32, shapeCast_self, broadcastTo_1b_ab_apply]

/-- The logits block: the hidden layer's product with the second gating matrix, plus the bias row. -/
def lgt (v88 : FVec Ideal S729x32 .f32) (v89 : FVec Ideal S32x3 .f32) (v91 : FVec Ideal S1x3 .f32) : FVec Ideal S729x3 .f32 :=
  addf (matmul dot_S729x32_S32x3_S729x3_1_0_0_1_n_n none v88 v89 (constant (F := Ideal) S729x3 .f32 0x00000000#32))
    (broadcastTo S729x3 (shapeCast S1x3 v91 shapeCasts_S1x3_S1x3) broadcasts_S1x3_S729x3)

theorem lgt_at (v88 : FVec Ideal S729x32 .f32) (v89 : FVec Ideal S32x3 .f32) (v91 : FVec Ideal S1x3 .f32) (p : Fin 729) (e : Fin 3) :
    lgt v88 v89 v91 (ix2 p e) = (∑ k : Fin 32, v88 (ix2 p k) * v89 (ix2 k e)) + v91 (ix2 (0 : Fin 1) e) := by
  unfold lgt
  rw [addf_apply, mm_S729x32_S32x3, shapeCast_self, broadcastTo_1b_ab_apply]

/-- The source index a row reduction inserts is `(p, e)`. -/
theorem lift_row (h : S729x3.Reduces [1] S729) (p : Fin 729) (e : Fin 3) : h.lift (ix1 p) e = ix2 p e :=
  funext fun c => Fin.ext (by
    match c with
    | ⟨0, _⟩ => rfl
    | ⟨1, _⟩ => rfl)

/-- A row's maximum over its three entries, taken from minus infinity. -/
theorem rowmax_at (V : FVec Ideal S729x3 .f32) (h : S729x3.Reduces [1] S729) (hφ : FKind.Formats .f32)
    (hacc : (0xFF800000#32 : BitVec 32) = FKind.maximumf.neutral .f32 hφ) (p : Fin 729) :
    multiReduction .maximumf [1] S729 V 0xFF800000#32 h hφ hacc (ix1 p) = rowMax (fun e => V (ix2 p e)) := by
  refine (Ideal.multiReduction_maximumf_single V _ h hφ hacc (ix1 p)).trans ?_
  unfold rowMax negInf
  exact congrArg (fun f : Fin 3 → EReal => (Finset.univ : Finset (Fin 3)).fold max (Ideal.ofBits .f32 0xFF800000#32) f)
    (funext fun e => congrArg V (lift_row h p e))

/-- A row's sum over its three entries. -/
theorem rowsum_at (V : FVec Ideal S729x3 .f32) (h : S729x3.Reduces [1] S729) (hφ : FKind.Formats .f32)
    (hacc : (0x00000000#32 : BitVec 32) = FKind.add.neutral .f32 hφ) (p : Fin 729) :
    multiReduction .add [1] S729 V 0x00000000#32 h hφ hacc (ix1 p) = ∑ e : Fin 3, V (ix2 p e) := by
  refine (Ideal.multiReduction_add_single V _ h hφ hacc (ix1 p)).trans ?_
  show ∑ e : Fin 3, V (h.lift (ix1 p) e) = _
  simp only [lift_row]

/-- Each row's maximum, kept as a column and broadcast back over the row. -/
def rmax (V : FVec Ideal S729x3 .f32) : FVec Ideal S729x3 .f32 :=
  broadcastTo S729x3 (shapeCast S729x1 (multiReduction .maximumf [1] S729 V 0xFF800000#32 reduces_S729x3_S729 (.inl rfl) rfl) shapeCasts_S729_S729x1) broadcasts_S729x1_S729x3

/-- Each row's sum, kept as a column and broadcast back over the row. -/
def rsum (V : FVec Ideal S729x3 .f32) : FVec Ideal S729x3 .f32 :=
  broadcastTo S729x3 (shapeCast S729x1 (multiReduction .add [1] S729 V 0x00000000#32 reduces_S729x3_S729 (.inl rfl) rfl) shapeCasts_S729_S729x1) broadcasts_S729x1_S729x3

theorem rmax_at (V : FVec Ideal S729x3 .f32) (p : Fin 729) (e : Fin 3) : rmax V (ix2 p e) = rowMax (fun e' => V (ix2 p e')) := by
  unfold rmax
  refine (bcast_a1_ab_apply _ _ p e).trans ?_
  refine (cast_a_a1_apply _ _ p 0).trans ?_
  exact rowmax_at V _ _ _ p

theorem rsum_at (V : FVec Ideal S729x3 .f32) (p : Fin 729) (e : Fin 3) : rsum V (ix2 p e) = ∑ e' : Fin 3, V (ix2 p e') := by
  unfold rsum
  refine (bcast_a1_ab_apply _ _ p e).trans ?_
  refine (cast_a_a1_apply _ _ p 0).trans ?_
  exact rowsum_at V _ _ _ p

/-- The softmax payload is: logits; minus the row maximum; exp; over the row sum. -/
theorem pay9_eq (v88 : FVec Ideal S729x32 .f32) (v89 : FVec Ideal S32x3 .f32) (v91 : FVec Ideal S1x3 .f32) :
    k0_pay9 (F := Ideal) v88 v89 v91
      = divf (Idealize.ShloMosaic.exp (subf (lgt v88 v89 v91) (rmax (lgt v88 v89 v91))))
          (rsum (Idealize.ShloMosaic.exp (subf (lgt v88 v89 v91) (rmax (lgt v88 v89 v91))))) := rfl

/-- The softmax payload at cell `p`, expert `e`: the softmax of the cell's three logits. -/
theorem pay9_at (v88 : FVec Ideal S729x32 .f32) (v89 : FVec Ideal S32x3 .f32) (v91 : FVec Ideal S1x3 .f32) (p : Fin 729) (e : Fin 3) :
    k0_pay9 (F := Ideal) v88 v89 v91 (ix2 p e)
      = softmax (fun e' => (∑ k : Fin 32, v88 (ix2 p k) * v89 (ix2 k e')) + v91 (ix2 (0 : Fin 1) e')) e := by
  rw [pay9_eq]
  have hexp : ∀ (v : FVec Ideal S729x3 .f32) (i : S729x3.Idx), Idealize.ShloMosaic.exp v i = Ideal.exp (v i) := fun _ _ => rfl
  simp only [divf_apply, rsum_at, hexp, subf_apply, rmax_at, lgt_at]
  rfl

/-- The stored block: a leading unit axis added. -/
theorem pay2_at (v : FVec Ideal S729x3 .f32) (u : Fin 1) (p : Fin 729) (e : Fin 3) :
    k0_pay2 (F := Ideal) v (ix3 u p e) = v (ix2 p e) := by
  unfold k0_pay2
  exact shapeCast_ab_1ab_apply v _ u p e

end Cert.KernelIdeal.Cell.Gate

namespace Cert.KernelIdeal.Cell

open Cert.KernelIdeal Cert.KernelIdeal.Gen Idealize.ShloMosaic Idealize.ShloMosaic.ValueIdx Cert.Moe
open Cert.KernelIdeal.Cell.Gate

/-- The 26 neighbour slabs added one after the other, times the named 1/26: the neighbours' mean of cell `p`. -/
theorem nm_at (x0 : Vec Ideal S729x26x64 .f32) (p : Fin 729) (q : Fin 64) :
    (k0_pay5 (k0_pay4 (k0_pay3 (View.ld x0 r0_0) (View.ld x0 r0_1) (View.ld x0 r0_2) (View.ld x0 r0_3) (View.ld x0 r0_4) (View.ld x0 r0_5) (View.ld x0 r0_6) (View.ld x0 r0_7) (View.ld x0 r0_8) (View.ld x0 r0_9)) (View.ld x0 r0_10) (View.ld x0 r0_11) (View.ld x0 r0_12) (View.ld x0 r0_13) (View.ld x0 r0_14) (View.ld x0 r0_15) (View.ld x0 r0_16) (View.ld x0 r0_17) (View.ld x0 r0_18) (View.ld x0 r0_19)) (View.ld x0 r0_20) (View.ld x0 r0_21) (View.ld x0 r0_22) (View.ld x0 r0_23) (View.ld x0 r0_24) (View.ld x0 r0_25)) (ix2 p q) = kNmean (fun k q' => x0 (ix3 p k q')) q :=
  nm_gen _ _ _ _ _ _ _ _ _ _ _ _ _ _ _ _ _ _ _ _ _ _ _ _ _ _ (fun k q' => x0 (ix3 p k q')) p q
    (ld_slab x0 0 (by decide) inb_S729x26x64_S729x1x64_0_0_0 p q)
    (ld_slab x0 1 (by decide) inb_S729x26x64_S729x1x64_0_1_0 p q)
    (ld_slab x0 2 (by decide) inb_S729x26x64_S729x1x64_0_2_0 p q)
    (ld_slab x0 3 (by decide) inb_S729x26x64_S729x1x64_0_3_0 p q)
    (ld_slab x0 4 (by decide) inb_S729x26x64_S729x1x64_0_4_0 p q)
    (ld_slab x0 5 (by decide) inb_S729x26x64_S729x1x64_0_5_0 p q)
    (ld_slab x0 6 (by decide) inb_S729x26x64_S729x1x64_0_6_0 p q)
    (ld_slab x0 7 (by decide) inb_S729x26x64_S729x1x64_0_7_0 p q)
    (ld_slab x0 8 (by decide) inb_S729x26x64_S729x1x64_0_8_0 p q)
    (ld_slab x0 9 (by decide) inb_S729x26x64_S729x1x64_0_9_0 p q)
    (ld_slab x0 10 (by decide) inb_S729x26x64_S729x1x64_0_10_0 p q)
    (ld_slab x0 11 (by decide) inb_S729x26x64_S729x1x64_0_11_0 p q)
    (ld_slab x0 12 (by decide) inb_S729x26x64_S729x1x64_0_12_0 p q)
    (ld_slab x0 13 (by decide) inb_S729x26x64_S729x1x64_0_13_0 p q)
    (ld_slab x0 14 (by decide) inb_S729x26x64_S729x1x64_0_14_0 p q)
    (ld_slab x0 15 (by decide) inb_S729x26x64_S729x1x64_0_15_0 p q)
    (ld_slab x0 16 (by decide) inb_S729x26x64_S729x1x64_0_16_0 p q)
    (ld_slab x0 17 (by decide) inb_S729x26x64_S729x1x64_0_17_0 p q)
    (ld_slab x0 18 (by decide) inb_S729x26x64_S729x1x64_0_18_0 p q)
    (ld_slab x0 19 (by decide) inb_S729x26x64_S729x1x64_0_19_0 p q)
    (ld_slab x0 20 (by decide) inb_S729x26x64_S729x1x64_0_20_0 p q)
    (ld_slab x0 21 (by decide) inb_S729x26x64_S729x1x64_0_21_0 p q)
    (ld_slab x0 22 (by decide) inb_S729x26x64_S729x1x64_0_22_0 p q)
    (ld_slab x0 23 (by decide) inb_S729x26x64_S729x1x64_0_23_0 p q)
    (ld_slab x0 24 (by decide) inb_S729x26x64_S729x1x64_0_24_0 p q)
    (ld_slab x0 25 (by decide) inb_S729x26x64_S729x1x64_0_25_0 p q)

/-- The cell's own state. -/
theorem cs_at (x1 : Vec Ideal S1x729x64 .f32) (p : Fin 729) (q : Fin 64) :
    (k0_pay6 (View.ld x1 r0_26)) (ix2 p q) = x1 (ix3 (0 : Fin 1) p q) :=
  (pay6_at (View.ld x1 r0_26) p q).trans
    (congrFun (View.ld_unit_zero (S := S1x729x64) hz3 inb_S1x729x64_S1x729x64_0_0_0 x1) (ix3 (0 : Fin 1) p q))

/-- The state laid before the neighbours' mean. -/
theorem comb_at (x0 : Vec Ideal S729x26x64 .f32) (x1 : Vec Ideal S1x729x64 .f32) (p : Fin 729) (j : Fin 128) :
    (k0_pay7 (k0_pay4 (k0_pay3 (View.ld x0 r0_0) (View.ld x0 r0_1) (View.ld x0 r0_2) (View.ld x0 r0_3) (View.ld x0 r0_4) (View.ld x0 r0_5) (View.ld x0 r0_6) (View.ld x0 r0_7) (View.ld x0 r0_8) (View.ld x0 r0_9)) (View.ld x0 r0_10) (View.ld x0 r0_11) (View.ld x0 r0_12) (View.ld x0 r0_13) (View.ld x0 r0_14) (View.ld x0 r0_15) (View.ld x0 r0_16) (View.ld x0 r0_17) (View.ld x0 r0_18) (View.ld x0 r0_19)) (View.ld x0 r0_20) (View.ld x0 r0_21) (View.ld x0 r0_22) (View.ld x0 r0_23) (View.ld x0 r0_24) (View.ld x0 r0_25) (View.ld x1 r0_26)) (ix2 p j) = kComb (fun q' => x1 (ix3 (0 : Fin 1) p q')) (fun k q' => x0 (ix3 p k q')) j := by
  refine (pay7_at _ _ _ _ _ _ _ _ p j).trans ?_
  exact congrArg₂ (fun (a b : Fin 64 → EReal) => (cat a b : Fin 128 → EReal) j)
    (funext fun q => cs_at x1 p q) (funext fun q => nm_at x0 p q)

/-- The three expert weights of cell `p`. -/
theorem gate_at (x0 : Vec Ideal S729x26x64 .f32) (x1 : Vec Ideal S1x729x64 .f32) (x2 : Vec Ideal S128x32 .f32) (x3 : Vec Ideal S1x32 .f32) (x4 : Vec Ideal S32x3 .f32) (x5 : Vec Ideal S1x3 .f32) (x6 : Vec Ideal S128x64 .f32) (x7 : Vec Ideal S1x64 .f32) (x8 : Vec Ideal S128x32 .f32) (x9 : Vec Ideal S1x32 .f32) (x10 : Vec Ideal S96x64 .f32) (x11 : Vec Ideal S1x64 .f32) (x12 : Vec Ideal S128x64 .f32) (x13 : Vec Ideal S1x64 .f32) (p : Fin 729) (e : Fin 3) :
    (k0_pay9 (k0_pay8 (k0_pay4 (k0_pay3 (View.ld x0 r0_0) (View.ld x0 r0_1) (View.ld x0 r0_2) (View.ld x0 r0_3) (View.ld x0 r0_4) (View.ld x0 r0_5) (View.ld x0 r0_6) (View.ld x0 r0_7) (View.ld x0 r0_8) (View.ld x0 r0_9)) (View.ld x0 r0_10) (View.ld x0 r0_11) (View.ld x0 r0_12) (View.ld x0 r0_13) (View.ld x0 r0_14) (View.ld x0 r0_15) (View.ld x0 r0_16) (View.ld x0 r0_17) (View.ld x0 r0_18) (View.ld x0 r0_19)) (View.ld x0 r0_20) (View.ld x0 r0_21) (View.ld x0 r0_22) (View.ld x0 r0_23) (View.ld x0 r0_24) (View.ld x0 r0_25) (View.ld x1 r0_26) (View.ld x2 r0_27) (View.ld x3 r0_28)) (View.ld x4 r0_29) (View.ld x5 r0_30)) (ix2 p e) = kGate (kparamsOf x2 x3 x4 x5 x6 x7 x8 x9 x10 x11 x12 x13) (fun q' => x1 (ix3 (0 : Fin 1) p q')) (fun k q' => x0 (ix3 p k q')) e := by
  have h2 : View.ld x2 r0_27 = x2 := View.ld_unit_zero (S := S128x32) hz2 inb_S128x32_S128x32_0_0 x2
  have h3 : View.ld x3 r0_28 = x3 := View.ld_unit_zero (S := S1x32) hz2 inb_S1x32_S1x32_0_0 x3
  have h4 : View.ld x4 r0_29 = x4 := View.ld_unit_zero (S := S32x3) hz2 inb_S32x3_S32x3_0_0 x4
  have h5 : View.ld x5 r0_30 = x5 := View.ld_unit_zero (S := S1x3) hz2 inb_S1x3_S1x3_0_0 x5
  rw [h2, h3, h4, h5]
  refine (pay9_at _ _ _ p e).trans ?_
  unfold kGate
  congr 1
  funext e'
  unfold kLogits dot
  simp only [pay8_at, comb_at]
  rfl

/-- What the body leaves in the expert-weight window's buffer, at cell `p`. -/
theorem out15_at (x0 : Vec Ideal S729x26x64 .f32) (x1 : Vec Ideal S1x729x64 .f32) (x2 : Vec Ideal S128x32 .f32) (x3 : Vec Ideal S1x32 .f32) (x4 : Vec Ideal S32x3 .f32) (x5 : Vec Ideal S1x3 .f32) (x6 : Vec Ideal S128x64 .f32) (x7 : Vec Ideal S1x64 .f32) (x8 : Vec Ideal S128x32 .f32) (x9 : Vec Ideal S1x32 .f32) (x10 : Vec Ideal S96x64 .f32) (x11 : Vec Ideal S1x64 .f32) (x12 : Vec Ideal S128x64 .f32) (x13 : Vec Ideal S1x64 .f32) (p : Fin 729) (e : Fin 3) :
    out0_15 (F := Ideal) x0 x1 x2 x3 x4 x5 x6 x7 x8 x9 x10 x11 x12 x13 (ix3 (0 : Fin 1) p e) = kGate (kparamsOf x2 x3 x4 x5 x6 x7 x8 x9 x10 x11 x12 x13) (fun q' => x1 (ix3 (0 : Fin 1) p q')) (fun k q' => x0 (ix3 p k q')) e := by
  unfold out0_15
  refine (congrFun (View.canon_unit_zero (S := S1x729x3) hz3 inb_S1x729x3_S1x729x3_0_0_0 _) (ix3 (0 : Fin 1) p e)).trans ?_
  refine (pay2_at _ (0 : Fin 1) p e).trans ?_
  exact gate_at x0 x1 x2 x3 x4 x5 x6 x7 x8 x9 x10 x11 x12 x13 p e

end Cert.KernelIdeal.Cell

end
-- ==== Proof.KExperts.lean ====
/-
  The kernel's body on one block of 729 cells, read at a cell: the first expert (one tanh layer on the laid-out row) and
  the second expert's update layer before its tanh (the state's product with the update matrix's first 64 rows, plus the
  message's product with its last 32, plus the bias).
-/
import proofs.«152412_g38233798869014_cont_8to1_b_1562_9_alg».proof.Proof.Spec
import proofs.«152412_g38233798869014_cont_8to1_b_1562_9_alg».proof.Proof.KMatmul
import proofs.«152412_g38233798869014_cont_8to1_b_1562_9_alg».proof.Proof.KGate
import proofs.«152412_g38233798869014_cont_8to1_b_1562_9_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.Cell

open Cert.KernelIdeal Cert.KernelIdeal.Gen Idealize.ShloMosaic Idealize.ShloMosaic.ValueIdx Cert.Moe

/-- The zero offsets of a whole-block load, spelt as the constant function. -/
private theorem zero_off2 : (![0, 0] : Fin 2 → ℕ) = fun _ => 0 := by funext a; fin_cases a <;> rfl

/-- A tanh layer read at an entry: the product accumulated into zero, the bias row broadcast over the 729 cells, tanh. -/
private theorem pay10_at (v81 : FVec Ideal S729x128 .f32) (v104 : FVec Ideal S128x64 .f32) (v106 : FVec Ideal S1x64 .f32)
    (p : Fin 729) (q : Fin 64) :
    k0_pay10 v81 v104 v106 (ix2 p q)
      = Ideal.tanh ((∑ k : Fin 128, v81 (ix2 p k) * v104 (ix2 k q)) + v106 (ix2 (0 : Fin 1) q)) := by
  unfold k0_pay10
  show FloatOps.tanh (addf _ _ (ix2 p q)) = _
  rw [Ideal.tanh_def, addf_apply, mm_S729x128_S128x64, shapeCast_self, broadcastTo_1b_ab_apply]

/-- The message layer read at an entry. -/
private theorem msg_at (v81 : FVec Ideal S729x128 .f32) (v111 : FVec Ideal S128x32 .f32) (v113 : FVec Ideal S1x32 .f32)
    (p : Fin 729) (a : Fin 32) :
    tanh (addf (matmul dot_S729x128_S128x32_S729x32_1_0_0_1_n_n none v81 v111 (constant (F := Ideal) S729x32 .f32 0x00000000#32))
        (broadcastTo S729x32 v113 broadcasts_S1x32_S729x32)) (ix2 p a)
      = Ideal.tanh ((∑ k : Fin 128, v81 (ix2 p k) * v111 (ix2 k a)) + v113 (ix2 (0 : Fin 1) a)) := by
  show FloatOps.tanh (addf _ _ (ix2 p a)) = _
  rw [Ideal.tanh_def, addf_apply, mm_S729x128_S128x32, broadcastTo_1b_ab_apply]

/-- The update layer before its tanh, read at an entry: the state block's product with the upper matrix, plus the
    message's product with the lower matrix, plus the bias row. -/
private theorem pay11_at (v80 : FVec Ideal S729x64 .f32) (v81 : FVec Ideal S729x128 .f32) (v111 : FVec Ideal S128x32 .f32)
    (v113 : FVec Ideal S1x32 .f32) (v118 : FVec Ideal S64x64 .f32) (v120 : FVec Ideal S32x64 .f32)
    (v123 : FVec Ideal S1x64 .f32) (p : Fin 729) (q : Fin 64) :
    k0_pay11 v80 v81 v111 v113 v118 v120 v123 (ix2 p q)
      = (∑ k : Fin 64, v80 (ix2 p k) * v118 (ix2 k q))
        + (∑ a : Fin 32, Ideal.tanh ((∑ k : Fin 128, v81 (ix2 p k) * v111 (ix2 k a)) + v113 (ix2 (0 : Fin 1) a)) * v120 (ix2 a q))
        + v123 (ix2 (0 : Fin 1) q) := by
  unfold k0_pay11
  simp only [shapeCast_self]
  show addf (addf _ _) _ (ix2 p q) = _
  rw [addf_apply, addf_apply, mm_S729x64_S64x64, mm_S729x32_S32x64, broadcastTo_1b_ab_apply]
  simp only [msg_at]

/-- The update matrix's upper 64 rows, as the body loads them. -/
private theorem wuTop_at (x10 : Vec Ideal S96x64 .f32) (k : Fin 64) (q : Fin 64) :
    View.ld x10 r0_33 (ix2 k q) = x10 (ix2 (⟨k.val, by omega⟩ : Fin 96) q) := by
  show x10 _ = x10 _
  congr 1
  funext a
  apply Fin.ext
  match a with
  | ⟨0, _⟩ => show 0 + 1 * k.val = k.val; omega
  | ⟨1, _⟩ => show 0 + 1 * q.val = q.val; omega

/-- The update matrix's lower 32 rows, as the body loads them. -/
private theorem wuBot_at (x10 : Vec Ideal S96x64 .f32) (a : Fin 32) (q : Fin 64) :
    View.ld x10 r0_34 (ix2 a q) = x10 (ix2 (⟨64 + a.val, by omega⟩ : Fin 96) q) := by
  show x10 _ = x10 _
  congr 1
  funext c
  apply Fin.ext
  match c with
  | ⟨0, _⟩ => show 64 + 1 * a.val = 64 + a.val; omega
  | ⟨1, _⟩ => show 0 + 1 * q.val = q.val; omega

/-- The first expert at cell `p`. -/
theorem local_at (x0 : Vec Ideal S729x26x64 .f32) (x1 : Vec Ideal S1x729x64 .f32) (x2 : Vec Ideal S128x32 .f32) (x3 : Vec Ideal S1x32 .f32) (x4 : Vec Ideal S32x3 .f32) (x5 : Vec Ideal S1x3 .f32) (x6 : Vec Ideal S128x64 .f32) (x7 : Vec Ideal S1x64 .f32) (x8 : Vec Ideal S128x32 .f32) (x9 : Vec Ideal S1x32 .f32) (x10 : Vec Ideal S96x64 .f32) (x11 : Vec Ideal S1x64 .f32) (x12 : Vec Ideal S128x64 .f32) (x13 : Vec Ideal S1x64 .f32) (p : Fin 729) (q : Fin 64) :
    (k0_pay10 (k0_pay7 (k0_pay4 (k0_pay3 (View.ld x0 r0_0) (View.ld x0 r0_1) (View.ld x0 r0_2) (View.ld x0 r0_3) (View.ld x0 r0_4) (View.ld x0 r0_5) (View.ld x0 r0_6) (View.ld x0 r0_7) (View.ld x0 r0_8) (View.ld x0 r0_9)) (View.ld x0 r0_10) (View.ld x0 r0_11) (View.ld x0 r0_12) (View.ld x0 r0_13) (View.ld x0 r0_14) (View.ld x0 r0_15) (View.ld x0 r0_16) (View.ld x0 r0_17) (View.ld x0 r0_18) (View.ld x0 r0_19)) (View.ld x0 r0_20) (View.ld x0 r0_21) (View.ld x0 r0_22) (View.ld x0 r0_23) (View.ld x0 r0_24) (View.ld x0 r0_25) (View.ld x1 r0_26)) (View.ld x6 r0_31) (View.ld x7 r0_32)) (ix2 p q) = kLocal (kparamsOf x2 x3 x4 x5 x6 x7 x8 x9 x10 x11 x12 x13) (fun q' => x1 (ix3 (0 : Fin 1) p q')) (fun k q' => x0 (ix3 p k q')) q := by
  have e6 : View.ld x6 r0_31 = x6 := View.ld_unit_zero (S := S128x64) zero_off2 _ x6
  have e7 : View.ld x7 r0_32 = x7 := View.ld_unit_zero (S := S1x64) zero_off2 _ x7
  rw [pay10_at, e6, e7]
  simp only [comb_at]
  rfl

/-- The second expert's update layer before its tanh, at cell `p`. -/
theorem fpre_at (x0 : Vec Ideal S729x26x64 .f32) (x1 : Vec Ideal S1x729x64 .f32) (x2 : Vec Ideal S128x32 .f32) (x3 : Vec Ideal S1x32 .f32) (x4 : Vec Ideal S32x3 .f32) (x5 : Vec Ideal S1x3 .f32) (x6 : Vec Ideal S128x64 .f32) (x7 : Vec Ideal S1x64 .f32) (x8 : Vec Ideal S128x32 .f32) (x9 : Vec Ideal S1x32 .f32) (x10 : Vec Ideal S96x64 .f32) (x11 : Vec Ideal S1x64 .f32) (x12 : Vec Ideal S128x64 .f32) (x13 : Vec Ideal S1x64 .f32) (p : Fin 729) (q : Fin 64) :
    (k0_pay11 (k0_pay6 (View.ld x1 r0_26)) (k0_pay7 (k0_pay4 (k0_pay3 (View.ld x0 r0_0) (View.ld x0 r0_1) (View.ld x0 r0_2) (View.ld x0 r0_3) (View.ld x0 r0_4) (View.ld x0 r0_5) (View.ld x0 r0_6) (View.ld x0 r0_7) (View.ld x0 r0_8) (View.ld x0 r0_9)) (View.ld x0 r0_10) (View.ld x0 r0_11) (View.ld x0 r0_12) (View.ld x0 r0_13) (View.ld x0 r0_14) (View.ld x0 r0_15) (View.ld x0 r0_16) (View.ld x0 r0_17) (View.ld x0 r0_18) (View.ld x0 r0_19)) (View.ld x0 r0_20) (View.ld x0 r0_21) (View.ld x0 r0_22) (View.ld x0 r0_23) (View.ld x0 r0_24) (View.ld x0 r0_25) (View.ld x1 r0_26)) (View.ld x8 r0_27) (View.ld x9 r0_28) (View.ld x10 r0_33) (View.ld x10 r0_34) (View.ld x11 r0_32)) (ix2 p q) = kFuncPre (kparamsOf x2 x3 x4 x5 x6 x7 x8 x9 x10 x11 x12 x13) (fun q' => x1 (ix3 (0 : Fin 1) p q')) (fun k q' => x0 (ix3 p k q')) q := by
  have e8 : View.ld x8 r0_27 = x8 := View.ld_unit_zero (S := S128x32) zero_off2 _ x8
  have e9 : View.ld x9 r0_28 = x9 := View.ld_unit_zero (S := S1x32) zero_off2 _ x9
  have e11 : View.ld x11 r0_32 = x11 := View.ld_unit_zero (S := S1x64) zero_off2 _ x11
  rw [pay11_at, e8, e9, e11]
  simp only [comb_at, cs_at]
  unfold kFuncPre kMsg dot
  refine congrArg₂ (· + ·) (congrArg₂ (· + ·) (Finset.sum_congr rfl fun k _ => ?_) (Finset.sum_congr rfl fun a _ => ?_)) rfl
  · rw [wuTop_at]; rfl
  · rw [wuBot_at]; rfl

end Cert.KernelIdeal.Cell

end
-- ==== Proof.KState.lean ====
/-
  The kernel's body on one block of 729 cells, read at a cell: the third expert's three Euler steps, the mix of the three
  experts by their weights, and so what the body leaves in the new-state window's buffer.
-/
import proofs.«152412_g38233798869014_cont_8to1_b_1562_9_alg».proof.Proof.Spec
import proofs.«152412_g38233798869014_cont_8to1_b_1562_9_alg».proof.Proof.KMatmul
import proofs.«152412_g38233798869014_cont_8to1_b_1562_9_alg».proof.Proof.KGate
import proofs.«152412_g38233798869014_cont_8to1_b_1562_9_alg».proof.Proof.KExperts
import proofs.«152412_g38233798869014_cont_8to1_b_1562_9_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.Cell

open Cert.KernelIdeal Cert.KernelIdeal.Gen Idealize.ShloMosaic Idealize.ShloMosaic.ValueIdx Cert.Moe

/-! ## One Euler step on a row -/

/-- One explicit Euler step of size 1/3 on the row `s`: the vector field is the tanh of the row's product with `W` plus
    a term `b` that does not move. -/
def eul (W : Fin 64 → Fin 64 → EReal) (b s : Fin 64 → EReal) (q : Fin 64) : EReal :=
  s q + third * Ideal.tanh (dot s W q + b q)

/-- Entry (p, q) of a [729 × 64] · [64 × 64] product into zero is row `p` times the matrix, entry `q`. -/
theorem mm64_at (l : FVec Ideal S729x64 .f32) (r : FVec Ideal S64x64 .f32) (p : Fin 729) (q : Fin 64) :
    matmul dot_S729x64_S64x64_S729x64_1_0_0_1_n_n none l r (constant (F := Ideal) S729x64 .f32 0x00000000#32) (ix2 p q)
      = dot (fun k => l (ix2 p k)) (fun k q' => r (ix2 k q')) q :=
  mm_S729x64_S64x64 none l r p q

/-- The step as the body spells it on the whole block: `s + 1/3 · tanh (s · W + b)`. -/
def vstep (s b : FVec Ideal S729x64 .f32) (W : FVec Ideal S64x64 .f32) : FVec Ideal S729x64 .f32 :=
  addf s (mulf (broadcast S729x64 (Scalar.ofBits (F := Ideal) .f32 0x3EAAAAAB#32))
    (tanh (addf (matmul dot_S729x64_S64x64_S729x64_1_0_0_1_n_n none s W (constant (F := Ideal) S729x64 .f32 0x00000000#32)) b)))

/-- The block's step at cell `p` is the row's step. -/
theorem vstep_at (s b : FVec Ideal S729x64 .f32) (W : FVec Ideal S64x64 .f32) (p : Fin 729) (q : Fin 64) :
    vstep s b W (ix2 p q) = eul (fun k q' => W (ix2 k q')) (fun q' => b (ix2 p q')) (fun k => s (ix2 p k)) q := by
  show s (ix2 p q) + Ideal.ofBits .f32 0x3EAAAAAB#32 * Ideal.tanh
      (matmul dot_S729x64_S64x64_S729x64_1_0_0_1_n_n none s W (constant (F := Ideal) S729x64 .f32 0x00000000#32) (ix2 p q) + b (ix2 p q)) = _
  rw [mm64_at]
  rfl

/-- Row `p` of the block after a step is the step of row `p`. -/
theorem vstep_row (s b : FVec Ideal S729x64 .f32) (W : FVec Ideal S64x64 .f32) (p : Fin 729) :
    (fun k => vstep s b W (ix2 p k)) = eul (fun k q' => W (ix2 k q')) (fun q' => b (ix2 p q')) (fun k => s (ix2 p k)) :=
  funext fun k => vstep_at s b W p k

/-! ## The term that does not move -/

/-- The neighbours' mean times the matrix's lower rows, plus the bias row broadcast down the block. -/
def vbase (m : FVec Ideal S729x64 .f32) (W : FVec Ideal S64x64 .f32) (c : FVec Ideal S1x64 .f32) : FVec Ideal S729x64 .f32 :=
  addf (matmul dot_S729x64_S64x64_S729x64_1_0_0_1_n_n none m W (constant (F := Ideal) S729x64 .f32 0x00000000#32))
    (broadcastTo S729x64 (shapeCast S1x64 c shapeCasts_S1x64_S1x64) broadcasts_S1x64_S729x64)

theorem vbase_at (m : FVec Ideal S729x64 .f32) (W : FVec Ideal S64x64 .f32) (c : FVec Ideal S1x64 .f32) (p : Fin 729) (q : Fin 64) :
    vbase m W c (ix2 p q) = dot (fun k => m (ix2 p k)) (fun k q' => W (ix2 k q')) q + c (ix2 (0 : Fin 1) q) := by
  show matmul dot_S729x64_S64x64_S729x64_1_0_0_1_n_n none m W (constant (F := Ideal) S729x64 .f32 0x00000000#32) (ix2 p q)
      + broadcastTo S729x64 (shapeCast S1x64 c shapeCasts_S1x64_S1x64) broadcasts_S1x64_S729x64 (ix2 p q) = _
  rw [mm64_at, broadcastTo_1b_ab_apply, shapeCast_self]

theorem vbase_row (m : FVec Ideal S729x64 .f32) (W : FVec Ideal S64x64 .f32) (c : FVec Ideal S1x64 .f32) (p : Fin 729) :
    (fun q => vbase m W c (ix2 p q))
      = fun q => dot (fun k => m (ix2 p k)) (fun k q' => W (ix2 k q')) q + c (ix2 (0 : Fin 1) q) :=
  funext fun q => vbase_at m W c p q

/-! ## One column of the expert weights, broadcast along the row -/

/-- A one-column block broadcast along the row reads, at `(p, c)`, the column at `p`. -/
theorem bcol_at {a b : ℕ} {α : Type} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `k` of the expert weights, cut out and broadcast along the row, reads the weight of expert `k` at cell `p`. -/
theorem gcol_at (o : ℕ) (v : FVec Ideal S729x3 .f32) (h1 : S729x3.Slices ![0, o] S729x1) (h2 : S729x1.Broadcasts S729x64)
    (p : Fin 729) (q : Fin 64) (k : Fin 3) (hk : k.val = o) :
    broadcastTo S729x64 (extractStridedSlice S729x1 ![0, o] v h1) h2 (ix2 p q) = v (ix2 p k) :=
  (bcol_at _ h2 p q).trans (slice2_axis1_apply o v h1 p (0 : Fin 1) k hk)

/-! ## The whole payload at a cell -/

/-- The body's last value at cell `(p, q)`: the three experts mixed by the cell's three weights, the third expert being
    three Euler steps from the cell's state. -/
theorem pay12_at (v78 v80 : FVec Ideal S729x64 .f32) (v103 : FVec Ideal S729x3 .f32) (v110 v126 : FVec Ideal S729x64 .f32)
    (v128 : FVec Ideal S64x64 .f32) (v130 : FVec Ideal S1x64 .f32) (v134 v141 v148 : FVec Ideal S64x64 .f32)
    (p : Fin 729) (q : Fin 64) :
    k0_pay12 v78 v80 v103 v110 v126 v128 v130 v134 v141 v148 (ix2 p q)
      = v103 (ix2 p (0 : Fin 3)) * v110 (ix2 p q) + v103 (ix2 p (1 : Fin 3)) * Ideal.tanh (v126 (ix2 p q))
        + v103 (ix2 p (2 : Fin 3))
          * eul (fun k q' => v148 (ix2 k q'))
              (fun q' => dot (fun k => v78 (ix2 p k)) (fun k q'' => v128 (ix2 k q'')) q' + v130 (ix2 (0 : Fin 1) q'))
              (eul (fun k q' => v141 (ix2 k q'))
                (fun q' => dot (fun k => v78 (ix2 p k)) (fun k q'' => v128 (ix2 k q'')) q' + v130 (ix2 (0 : Fin 1) q'))
                (eul (fun k q' => v134 (ix2 k q'))
                  (fun q' => dot (fun k => v78 (ix2 p k)) (fun k q'' => v128 (ix2 k q'')) q' + v130 (ix2 (0 : Fin 1) q'))
                  (fun k => v80 (ix2 p k)))) q := by
  show broadcastTo S729x64 (extractStridedSlice S729x1 ![0, 0] v103 slices_S729x3_o0_0_S729x1) broadcasts_S729x1_S729x64 (ix2 p q)
        * v110 (ix2 p q)
      + broadcastTo S729x64 (extractStridedSlice S729x1 ![0, 1] v103 slices_S729x3_o0_1_S729x1) broadcasts_S729x1_S729x64 (ix2 p q)
        * Ideal.tanh (v126 (ix2 p q))
      + broadcastTo S729x64 (extractStridedSlice S729x1 ![0, 2] v103 slices_S729x3_o0_2_S729x1) broadcasts_S729x1_S729x64 (ix2 p q)
        * vstep (vstep (vstep v80 (vbase v78 v128 v130) v134) (vbase v78 v128 v130) v141) (vbase v78 v128 v130) v148 (ix2 p q) = _
  rw [gcol_at 0 v103 _ _ p q (0 : Fin 3) rfl, gcol_at 1 v103 _ _ p q (1 : Fin 3) rfl, gcol_at 2 v103 _ _ p q (2 : Fin 3) rfl,
    vstep_at, vstep_row, vstep_row, vbase_row]

/-- The stored value is the last value with a leading unit axis: at `(0, p, q)` it reads `(p, q)`. -/
theorem pay1_at (v : FVec Ideal S729x64 .f32) (p : Fin 729) (q : Fin 64) :
    k0_pay1 v (ix3 (0 : Fin 1) p q) = v (ix2 p q) := by
  unfold k0_pay1
  exact shapeCast_ab_1ab_apply v shapeCasts_S729x64_S1x729x64 (0 : Fin 1) p q

/-! ## The vector field's matrix and bias, as the body loads them -/

/-- The matrix's first 64 rows. -/
theorem ld_top (x12 : Vec Ideal S128x64 .f32) (k q : Fin 64) :
    View.ld x12 r0_36 (ix2 k q) = x12 (ix2 (⟨k.val, by omega⟩ : Fin 128) q) := by
  show x12 _ = x12 _
  refine congrArg x12 (funext fun a => Fin.ext ?_)
  match a with
  | ⟨0, _⟩ => show 0 + 1 * k.val = k.val; omega
  | ⟨1, _⟩ => show 0 + 1 * q.val = q.val; omega

/-- The matrix's last 64 rows. -/
theorem ld_bot (x12 : Vec Ideal S128x64 .f32) (k q : Fin 64) :
    View.ld x12 r0_35 (ix2 k q) = x12 (ix2 (⟨64 + k.val, by omega⟩ : Fin 128) q) := by
  show x12 _ = x12 _
  refine congrArg x12 (funext fun a => Fin.ext ?_)
  match a with
  | ⟨0, _⟩ => show 64 + 1 * k.val = 64 + k.val; omega
  | ⟨1, _⟩ => show 0 + 1 * q.val = q.val; omega

/-- What the body leaves in the new-state window's buffer, at cell `p`. -/
theorem out14_at (x0 : Vec Ideal S729x26x64 .f32) (x1 : Vec Ideal S1x729x64 .f32) (x2 : Vec Ideal S128x32 .f32) (x3 : Vec Ideal S1x32 .f32) (x4 : Vec Ideal S32x3 .f32) (x5 : Vec Ideal S1x3 .f32) (x6 : Vec Ideal S128x64 .f32) (x7 : Vec Ideal S1x64 .f32) (x8 : Vec Ideal S128x32 .f32) (x9 : Vec Ideal S1x32 .f32) (x10 : Vec Ideal S96x64 .f32) (x11 : Vec Ideal S1x64 .f32) (x12 : Vec Ideal S128x64 .f32) (x13 : Vec Ideal S1x64 .f32) (p : Fin 729) (q : Fin 64) :
    out0_14 (F := Ideal) x0 x1 x2 x3 x4 x5 x6 x7 x8 x9 x10 x11 x12 x13 (ix3 (0 : Fin 1) p q) = kState (kparamsOf x2 x3 x4 x5 x6 x7 x8 x9 x10 x11 x12 x13) (fun q' => x1 (ix3 (0 : Fin 1) p q')) (fun k q' => x0 (ix3 p k q')) q := by
  have hz3 : (![0, 0, 0] : Fin 3 → ℕ) = fun _ => 0 := by funext a; fin_cases a <;> rfl
  have hz2 : (![0, 0] : Fin 2 → ℕ) = fun _ => 0 := by funext a; fin_cases a <;> rfl
  have hT : (fun (k q' : Fin 64) => View.ld x12 r0_36 (ix2 k q'))
      = fun k q' => x12 (ix2 (⟨k.val, by omega⟩ : Fin 128) q') := funext fun k => funext fun q' => ld_top x12 k q'
  have hB : (fun (k q' : Fin 64) => View.ld x12 r0_35 (ix2 k q'))
      = fun k q' => x12 (ix2 (⟨64 + k.val, by omega⟩ : Fin 128) q') := funext fun k => funext fun q' => ld_bot x12 k q'
  have hc : View.ld x13 r0_32 = x13 := View.ld_unit_zero (S := S1x64) hz2 _ x13
  unfold out0_14
  rw [View.canon_unit_zero (S := S1x729x64) hz3, pay1_at, pay12_at]
  rw [gate_at x0 x1 x2 x3 x4 x5 x6 x7 x8 x9 x10 x11 x12 x13 p 0, gate_at x0 x1 x2 x3 x4 x5 x6 x7 x8 x9 x10 x11 x12 x13 p 1,
    gate_at x0 x1 x2 x3 x4 x5 x6 x7 x8 x9 x10 x11 x12 x13 p 2, local_at x0 x1 x2 x3 x4 x5 x6 x7 x8 x9 x10 x11 x12 x13 p q,
    fpre_at x0 x1 x2 x3 x4 x5 x6 x7 x8 x9 x10 x11 x12 x13 p q]
  simp only [nm_at, cs_at]
  rw [hT, hB, hc]
  rfl

end Cert.KernelIdeal.Cell

end
-- ==== Proof.KArrays.lean ====
/-
  From the blocks to the arrays. The grid has 27 points; at point t the body sees rows 729·t … 729·t + 728 of the
  neighbour array and of the state array (regrouped as 27 × 729 × 64 before the region), every weight matrix whole, and
  every bias as a one-row matrix; it writes back block t of the two result arrays (27 × 729 × 64 and 27 × 729 × 3),
  which are regrouped as 19683 × 64 and 19683 × 3 after the region.
-/
import proofs.«152412_g38233798869014_cont_8to1_b_1562_9_alg».proof.Proof.Spec
import proofs.«152412_g38233798869014_cont_8to1_b_1562_9_alg».proof.Proof.KState
import proofs.«152412_g38233798869014_cont_8to1_b_1562_9_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Arr

open Cert.KernelIdeal Cert.KernelIdeal.Gen Cert.KernelIdeal.Cell Cert.Moe
open Idealize.ShloMosaic Idealize.ShloMosaic.TcCoe Idealize.ShloMosaic.ValueIdx Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-! ## The index maps, decided over the grid -/

theorem idx_rows : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_14.index t (0 : Fin 3) = t.val ∧ win0_14.index t (1 : Fin 3) = 0 ∧ win0_14.index t (2 : Fin 3) = 0
    ∧ win0_15.index t (0 : Fin 3) = t.val ∧ win0_15.index t (1 : Fin 3) = 0 ∧ win0_15.index t (2 : Fin 3) = 0 :=
  (by decide +kernel : ∀ t : Fin grid0.N, _)

theorem idx_whole : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0) :=
  (by decide +kernel : ∀ t : Fin grid0.N, _)

/-! ## The argument arrays and the blocks, at their literal types -/

abbrev arg0 (c : Dev nD) : Arr2 19683 64 := m ((c : Thread nD τ).loc main_arg0)
abbrev arg1 (c : Dev nD) : Arr3 19683 26 64 := m ((c : Thread nD τ).loc main_arg1)
abbrev arg2 (c : Dev nD) : Arr2 128 32 := m ((c : Thread nD τ).loc main_arg2)
abbrev arg3 (c : Dev nD) : Arr1 32 := m ((c : Thread nD τ).loc main_arg3)
abbrev arg4 (c : Dev nD) : Arr2 32 3 := m ((c : Thread nD τ).loc main_arg4)
abbrev arg5 (c : Dev nD) : Arr1 3 := m ((c : Thread nD τ).loc main_arg5)
abbrev arg6 (c : Dev nD) : Arr2 128 64 := m ((c : Thread nD τ).loc main_arg6)
abbrev arg7 (c : Dev nD) : Arr1 64 := m ((c : Thread nD τ).loc main_arg7)
abbrev arg8 (c : Dev nD) : Arr2 128 32 := m ((c : Thread nD τ).loc main_arg8)
abbrev arg9 (c : Dev nD) : Arr1 32 := m ((c : Thread nD τ).loc main_arg9)
abbrev arg10 (c : Dev nD) : Arr2 96 64 := m ((c : Thread nD τ).loc main_arg10)
abbrev arg11 (c : Dev nD) : Arr1 64 := m ((c : Thread nD τ).loc main_arg11)
abbrev arg12 (c : Dev nD) : Arr2 128 64 := m ((c : Thread nD τ).loc main_arg12)
abbrev arg13 (c : Dev nD) : Arr1 64 := m ((c : Thread nD τ).loc main_arg13)

abbrev b0 (c : Dev nD) (t : Fin cfg0.N) : Vec Ideal S729x26x64 .f32 := iblk m c 0 t
abbrev b1 (c : Dev nD) (t : Fin cfg0.N) : Vec Ideal S1x729x64 .f32 := iblk m c 1 t
abbrev b2 (c : Dev nD) (t : Fin cfg0.N) : Vec Ideal S128x32 .f32 := iblk m c 2 t
abbrev b3 (c : Dev nD) (t : Fin cfg0.N) : Vec Ideal S1x32 .f32 := iblk m c 3 t
abbrev b4 (c : Dev nD) (t : Fin cfg0.N) : Vec Ideal S32x3 .f32 := iblk m c 4 t
abbrev b5 (c : Dev nD) (t : Fin cfg0.N) : Vec Ideal S1x3 .f32 := iblk m c 5 t
abbrev b6 (c : Dev nD) (t : Fin cfg0.N) : Vec Ideal S128x64 .f32 := iblk m c 6 t
abbrev b7 (c : Dev nD) (t : Fin cfg0.N) : Vec Ideal S1x64 .f32 := iblk m c 7 t
abbrev b8 (c : Dev nD) (t : Fin cfg0.N) : Vec Ideal S128x32 .f32 := iblk m c 8 t
abbrev b9 (c : Dev nD) (t : Fin cfg0.N) : Vec Ideal S1x32 .f32 := iblk m c 9 t
abbrev b10 (c : Dev nD) (t : Fin cfg0.N) : Vec Ideal S96x64 .f32 := iblk m c 10 t
abbrev b11 (c : Dev nD) (t : Fin cfg0.N) : Vec Ideal S1x64 .f32 := iblk m c 11 t
abbrev b12 (c : Dev nD) (t : Fin cfg0.N) : Vec Ideal S128x64 .f32 := iblk m c 12 t
abbrev b13 (c : Dev nD) (t : Fin cfg0.N) : Vec Ideal S1x64 .f32 := iblk m c 13 t

/-- Row `p` of block `t` is row `729·t + p` of the lattice. -/
def cell (t : Fin cfg0.N) (p : Fin 729) : Fin 19683 := ⟨729 * t.val + p.val, by have := t.isLt; have := p.isLt; have : cfg0.N = 27 := N_0; omega⟩

/-! ## What the host wrote before the region -/

theorem V_state (c : Dev nD) : (V m c main_call0_v0 : S27x729x64.Idx → EReal)
    = shapeCast S27x729x64 (arg0 m c) shapeCasts_S19683x64_S27x729x64 := by
  show StableHlo.after hostOps0 (fun b => m (c, b)) (Proc.devRef .tc main_call0_v0) = _
  after_results
  rfl

/-! ## The blocks read in the argument arrays -/

theorem b0_at (c : Dev nD) (t : Fin cfg0.N) (p : Fin 729) (k : Fin 26) (q : Fin 64) :
    b0 m c t (ix3 p k q) = arg1 m c (ix3 (cell t p) k q) := by
  obtain ⟨e0, e1, e2, -⟩ := idx_rows t
  show V m c main_arg1 (((cfg0.win 0).blk t).view.emb (ix3 p k q)) = _
  rw [V_main_arg1]
  refine congrArg (m ((c : Thread nD τ).loc main_arg1)) (funext fun a => Fin.ext ?_)
  match a with
  | ⟨0, _⟩ => show win0_0.index t (0 : Fin 3) * 729 + 1 * p.val = 729 * t.val + p.val; omega
  | ⟨1, _⟩ => show win0_0.index t (1 : Fin 3) * 26 + 1 * k.val = k.val; omega
  | ⟨2, _⟩ => show win0_0.index t (2 : Fin 3) * 64 + 1 * q.val = q.val; omega

theorem b1_at (c : Dev nD) (t : Fin cfg0.N) (p : Fin 729) (q : Fin 64) :
    b1 m c t (ix3 (0 : Fin 1) p q) = arg0 m c (ix2 (cell t p) q) := by
  obtain ⟨-, -, -, e0, e1, e2, -⟩ := idx_rows t
  show V m c main_call0_v0 (((cfg0.win 1).blk t).view.emb (ix3 (0 : Fin 1) p q)) = _
  rw [V_state]
  refine shapeCast_apply _ _ _ _ ?_
  rw [Shape.rowMajor_val_two, Shape.rowMajor_val_three]
  show (729 * t.val + p.val) * 64 + q.val = ((win0_1.index t (0 : Fin 3) * 1 + 1 * 0) * 729 + (win0_1.index t (1 : Fin 3) * 729 + 1 * p.val)) * 64 + (win0_1.index t (2 : Fin 3) * 64 + 1 * q.val)
  rw [e0, e1, e2]; ring

/-- Window 2 is its whole array at every point. -/
theorem b2_eq (c : Dev nD) (t : Fin cfg0.N) : b2 m c t = arg2 m c := by
  obtain ⟨⟨e0, e1⟩, -, -, -, -, -, -, -, -, -, -, -⟩ := idx_whole t
  funext y
  show V m c main_arg2 (((cfg0.win 2).blk t).view.emb y) = _
  rw [V_main_arg2]
  refine congrArg (m ((c : Thread nD τ).loc main_arg2)) (funext fun a => Fin.ext ?_)
  match a with
  | ⟨0, _⟩ => show win0_2.index t (0 : Fin 2) * 128 + 1 * (y 0).val = (y 0).val; omega
  | ⟨1, _⟩ => show win0_2.index t (1 : Fin 2) * 32 + 1 * (y 1).val = (y 1).val; omega

/-- Window 4 is its whole array at every point. -/
theorem b4_eq (c : Dev nD) (t : Fin cfg0.N) : b4 m c t = arg4 m c := by
  obtain ⟨-, -, ⟨e0, e1⟩, -, -, -, -, -, -, -, -, -⟩ := idx_whole t
  funext y
  show V m c main_arg4 (((cfg0.win 4).blk t).view.emb y) = _
  rw [V_main_arg4]
  refine congrArg (m ((c : Thread nD τ).loc main_arg4)) (funext fun a => Fin.ext ?_)
  match a with
  | ⟨0, _⟩ => show win0_4.index t (0 : Fin 2) * 32 + 1 * (y 0).val = (y 0).val; omega
  | ⟨1, _⟩ => show win0_4.index t (1 : Fin 2) * 3 + 1 * (y 1).val = (y 1).val; omega

/-- Window 6 is its whole array at every point. -/
theorem b6_eq (c : Dev nD) (t : Fin cfg0.N) : b6 m c t = arg6 m c := by
  obtain ⟨-, -, -, -, ⟨e0, e1⟩, -, -, -, -, -, -, -⟩ := idx_whole t
  funext y
  show V m c main_arg6 (((cfg0.win 6).blk t).view.emb y) = _
  rw [V_main_arg6]
  refine congrArg (m ((c : Thread nD τ).loc main_arg6)) (funext fun a => Fin.ext ?_)
  match a with
  | ⟨0, _⟩ => show win0_6.index t (0 : Fin 2) * 128 + 1 * (y 0).val = (y 0).val; omega
  | ⟨1, _⟩ => show win0_6.index t (1 : Fin 2) * 64 + 1 * (y 1).val = (y 1).val; omega

/-- Window 8 is its whole array at every point. -/
theorem b8_eq (c : Dev nD) (t : Fin cfg0.N) : b8 m c t = arg8 m c := by
  obtain ⟨-, -, -, -, -, -, ⟨e0, e1⟩, -, -, -, -, -⟩ := idx_whole t
  funext y
  show V m c main_arg8 (((cfg0.win 8).blk t).view.emb y) = _
  rw [V_main_arg8]
  refine congrArg (m ((c : Thread nD τ).loc main_arg8)) (funext fun a => Fin.ext ?_)
  match a with
  | ⟨0, _⟩ => show win0_8.index t (0 : Fin 2) * 128 + 1 * (y 0).val = (y 0).val; omega
  | ⟨1, _⟩ => show win0_8.index t (1 : Fin 2) * 32 + 1 * (y 1).val = (y 1).val; omega

/-- Window 10 is its whole array at every point. -/
theorem b10_eq (c : Dev nD) (t : Fin cfg0.N) : b10 m c t = arg10 m c := by
  obtain ⟨-, -, -, -, -, -, -, -, ⟨e0, e1⟩, -, -, -⟩ := idx_whole t
  funext y
  show V m c main_arg10 (((cfg0.win 10).blk t).view.emb y) = _
  rw [V_main_arg10]
  refine congrArg (m ((c : Thread nD τ).loc main_arg10)) (funext fun a => Fin.ext ?_)
  match a with
  | ⟨0, _⟩ => show win0_10.index t (0 : Fin 2) * 96 + 1 * (y 0).val = (y 0).val; omega
  | ⟨1, _⟩ => show win0_10.index t (1 : Fin 2) * 64 + 1 * (y 1).val = (y 1).val; omega

/-- Window 12 is its whole array at every point. -/
theorem b12_eq (c : Dev nD) (t : Fin cfg0.N) : b12 m c t = arg12 m c := by
  obtain ⟨-, -, -, -, -, -, -, -, -, -, ⟨e0, e1⟩, -⟩ := idx_whole t
  funext y
  show V m c main_arg12 (((cfg0.win 12).blk t).view.emb y) = _
  rw [V_main_arg12]
  refine congrArg (m ((c : Thread nD τ).loc main_arg12)) (funext fun a => Fin.ext ?_)
  match a with
  | ⟨0, _⟩ => show win0_12.index t (0 : Fin 2) * 128 + 1 * (y 0).val = (y 0).val; omega
  | ⟨1, _⟩ => show win0_12.index t (1 : Fin 2) * 64 + 1 * (y 1).val = (y 1).val; omega

/-- The host laid bias 3 out as one row before the region. -/
theorem V_bias3 (c : Dev nD) : (V m c main_call0_v1 : S1x32.Idx → EReal)
    = shapeCast S1x32 (arg3 m c) shapeCasts_S32_S1x32 := by
  show StableHlo.after hostOps0 (fun b => m (c, b)) (Proc.devRef .tc main_call0_v1) = _
  after_results
  rfl

/-- Window 3's one row is the bias vector. -/
theorem b3_at (c : Dev nD) (t : Fin cfg0.N) (a : Fin 32) : b3 m c t (ix2 (0 : Fin 1) a) = arg3 m c (ix1 a) := by
  obtain ⟨-, ⟨e0, e1⟩, -, -, -, -, -, -, -, -, -, -⟩ := idx_whole t
  show V m c main_call0_v1 (((cfg0.win 3).blk t).view.emb (ix2 (0 : Fin 1) a)) = _
  rw [V_bias3]
  have he : ((cfg0.win 3).blk t).view.emb (ix2 (0 : Fin 1) a) = ix2 (0 : Fin 1) a := funext fun d => Fin.ext (by
    match d with
    | ⟨0, _⟩ => show win0_3.index t (0 : Fin 2) * 1 + 1 * 0 = 0; omega
    | ⟨1, _⟩ => show win0_3.index t (1 : Fin 2) * 32 + 1 * a.val = a.val; omega)
  rw [he]
  exact shapeCast_a_1a_apply _ _ 0 a

/-- The host laid bias 5 out as one row before the region. -/
theorem V_bias5 (c : Dev nD) : (V m c main_call0_v2 : S1x3.Idx → EReal)
    = shapeCast S1x3 (arg5 m c) shapeCasts_S3_S1x3 := by
  show StableHlo.after hostOps0 (fun b => m (c, b)) (Proc.devRef .tc main_call0_v2) = _
  after_results
  rfl

/-- Window 5's one row is the bias vector. -/
theorem b5_at (c : Dev nD) (t : Fin cfg0.N) (a : Fin 3) : b5 m c t (ix2 (0 : Fin 1) a) = arg5 m c (ix1 a) := by
  obtain ⟨-, -, -, ⟨e0, e1⟩, -, -, -, -, -, -, -, -⟩ := idx_whole t
  show V m c main_call0_v2 (((cfg0.win 5).blk t).view.emb (ix2 (0 : Fin 1) a)) = _
  rw [V_bias5]
  have he : ((cfg0.win 5).blk t).view.emb (ix2 (0 : Fin 1) a) = ix2 (0 : Fin 1) a := funext fun d => Fin.ext (by
    match d with
    | ⟨0, _⟩ => show win0_5.index t (0 : Fin 2) * 1 + 1 * 0 = 0; omega
    | ⟨1, _⟩ => show win0_5.index t (1 : Fin 2) * 3 + 1 * a.val = a.val; omega)
  rw [he]
  exact shapeCast_a_1a_apply _ _ 0 a

/-- The host laid bias 7 out as one row before the region. -/
theorem V_bias7 (c : Dev nD) : (V m c main_call0_v3 : S1x64.Idx → EReal)
    = shapeCast S1x64 (arg7 m c) shapeCasts_S64_S1x64 := by
  show StableHlo.after hostOps0 (fun b => m (c, b)) (Proc.devRef .tc main_call0_v3) = _
  after_results
  rfl

/-- Window 7's one row is the bias vector. -/
theorem b7_at (c : Dev nD) (t : Fin cfg0.N) (a : Fin 64) : b7 m c t (ix2 (0 : Fin 1) a) = arg7 m c (ix1 a) := by
  obtain ⟨-, -, -, -, -, ⟨e0, e1⟩, -, -, -, -, -, -⟩ := idx_whole t
  show V m c main_call0_v3 (((cfg0.win 7).blk t).view.emb (ix2 (0 : Fin 1) a)) = _
  rw [V_bias7]
  have he : ((cfg0.win 7).blk t).view.emb (ix2 (0 : Fin 1) a) = ix2 (0 : Fin 1) a := funext fun d => Fin.ext (by
    match d with
    | ⟨0, _⟩ => show win0_7.index t (0 : Fin 2) * 1 + 1 * 0 = 0; omega
    | ⟨1, _⟩ => show win0_7.index t (1 : Fin 2) * 64 + 1 * a.val = a.val; omega)
  rw [he]
  exact shapeCast_a_1a_apply _ _ 0 a

/-- The host laid bias 9 out as one row before the region. -/
theorem V_bias9 (c : Dev nD) : (V m c main_call0_v4 : S1x32.Idx → EReal)
    = shapeCast S1x32 (arg9 m c) shapeCasts_S32_S1x32 := by
  show StableHlo.after hostOps0 (fun b => m (c, b)) (Proc.devRef .tc main_call0_v4) = _
  after_results
  rfl

/-- Window 9's one row is the bias vector. -/
theorem b9_at (c : Dev nD) (t : Fin cfg0.N) (a : Fin 32) : b9 m c t (ix2 (0 : Fin 1) a) = arg9 m c (ix1 a) := by
  obtain ⟨-, -, -, -, -, -, -, ⟨e0, e1⟩, -, -, -, -⟩ := idx_whole t
  show V m c main_call0_v4 (((cfg0.win 9).blk t).view.emb (ix2 (0 : Fin 1) a)) = _
  rw [V_bias9]
  have he : ((cfg0.win 9).blk t).view.emb (ix2 (0 : Fin 1) a) = ix2 (0 : Fin 1) a := funext fun d => Fin.ext (by
    match d with
    | ⟨0, _⟩ => show win0_9.index t (0 : Fin 2) * 1 + 1 * 0 = 0; omega
    | ⟨1, _⟩ => show win0_9.index t (1 : Fin 2) * 32 + 1 * a.val = a.val; omega)
  rw [he]
  exact shapeCast_a_1a_apply _ _ 0 a

/-- The host laid bias 11 out as one row before the region. -/
theorem V_bias11 (c : Dev nD) : (V m c main_call0_v5 : S1x64.Idx → EReal)
    = shapeCast S1x64 (arg11 m c) shapeCasts_S64_S1x64 := by
  show StableHlo.after hostOps0 (fun b => m (c, b)) (Proc.devRef .tc main_call0_v5) = _
  after_results
  rfl

/-- Window 11's one row is the bias vector. -/
theorem b11_at (c : Dev nD) (t : Fin cfg0.N) (a : Fin 64) : b11 m c t (ix2 (0 : Fin 1) a) = arg11 m c (ix1 a) := by
  obtain ⟨-, -, -, -, -, -, -, -, -, ⟨e0, e1⟩, -, -⟩ := idx_whole t
  show V m c main_call0_v5 (((cfg0.win 11).blk t).view.emb (ix2 (0 : Fin 1) a)) = _
  rw [V_bias11]
  have he : ((cfg0.win 11).blk t).view.emb (ix2 (0 : Fin 1) a) = ix2 (0 : Fin 1) a := funext fun d => Fin.ext (by
    match d with
    | ⟨0, _⟩ => show win0_11.index t (0 : Fin 2) * 1 + 1 * 0 = 0; omega
    | ⟨1, _⟩ => show win0_11.index t (1 : Fin 2) * 64 + 1 * a.val = a.val; omega)
  rw [he]
  exact shapeCast_a_1a_apply _ _ 0 a

/-- The host laid bias 13 out as one row before the region. -/
theorem V_bias13 (c : Dev nD) : (V m c main_call0_v6 : S1x64.Idx → EReal)
    = shapeCast S1x64 (arg13 m c) shapeCasts_S64_S1x64 := by
  show StableHlo.after hostOps0 (fun b => m (c, b)) (Proc.devRef .tc main_call0_v6) = _
  after_results
  rfl

/-- Window 13's one row is the bias vector. -/
theorem b13_at (c : Dev nD) (t : Fin cfg0.N) (a : Fin 64) : b13 m c t (ix2 (0 : Fin 1) a) = arg13 m c (ix1 a) := by
  obtain ⟨-, -, -, -, -, -, -, -, -, -, -, ⟨e0, e1⟩⟩ := idx_whole t
  show V m c main_call0_v6 (((cfg0.win 13).blk t).view.emb (ix2 (0 : Fin 1) a)) = _
  rw [V_bias13]
  have he : ((cfg0.win 13).blk t).view.emb (ix2 (0 : Fin 1) a) = ix2 (0 : Fin 1) a := funext fun d => Fin.ext (by
    match d with
    | ⟨0, _⟩ => show win0_13.index t (0 : Fin 2) * 1 + 1 * 0 = 0; omega
    | ⟨1, _⟩ => show win0_13.index t (1 : Fin 2) * 64 + 1 * a.val = a.val; omega)
  rw [he]
  exact shapeCast_a_1a_apply _ _ 0 a

/-- The block's weights are the arrays' weights, cut. -/
theorem kparams_blocks (c : Dev nD) (t : Fin cfg0.N) :
    kparamsOf (b2 m c t) (b3 m c t) (b4 m c t) (b5 m c t) (b6 m c t) (b7 m c t) (b8 m c t) (b9 m c t) (b10 m c t) (b11 m c t) (b12 m c t) (b13 m c t)
      = (paramsOf (arg2 m c) (arg3 m c) (arg4 m c) (arg5 m c) (arg6 m c) (arg7 m c) (arg8 m c) (arg9 m c) (arg10 m c) (arg11 m c) (arg12 m c) (arg13 m c)).split := by
  rw [b2_eq, b4_eq, b6_eq, b8_eq, b10_eq, b12_eq]
  exact kparamsOf_eq _ _ _ _ _ _ _ _ _ _ _ _ (b3 m c t) (b5 m c t) (b7 m c t) (b9 m c t) (b11 m c t) (b13 m c t)
    (b3_at m c t) (b5_at m c t) (b7_at m c t) (b9_at m c t) (b11_at m c t) (b13_at m c t)

/-! ## The two result windows' arrays -/

/-- The lattice cell an index of a 27 × 729 × … array belongs to. -/
def rowOf {n : ℕ} (i : (⟨3, ![27, 729, n]⟩ : Shape).Idx) : Fin 19683 :=
  ⟨729 * (i 0).val + (i 1).val, by have h0 : (i 0).val < 27 := (i 0).isLt; have h1 : (i 1).val < 729 := (i 1).isLt; omega⟩

/-- The new states, regrouped 27 × 729 × 64. -/
def G14 (c : Dev nD) : S27x729x64.Idx → EReal := fun i => Gstate (arg0 m c) (arg1 m c) (arg2 m c) (arg3 m c) (arg4 m c) (arg5 m c) (arg6 m c) (arg7 m c) (arg8 m c) (arg9 m c) (arg10 m c) (arg11 m c) (arg12 m c) (arg13 m c) (ix2 (rowOf i) (i 2))
/-- The expert weights, regrouped 27 × 729 × 3. -/
def G15 (c : Dev nD) : S27x729x3.Idx → EReal := fun i => Ggate (arg0 m c) (arg1 m c) (arg2 m c) (arg3 m c) (arg4 m c) (arg5 m c) (arg6 m c) (arg7 m c) (arg8 m c) (arg9 m c) (arg10 m c) (arg11 m c) (arg12 m c) (arg13 m c) (ix2 (rowOf i) (i 2))

/-- WHAT POINT `t` WRITES BACK to the new-state array is block `t` of the regrouped new states. -/
theorem flushed14_eq (c : Dev nD) (t : Fin cfg0.N) :
    (dats m 0 c).flushed 14 t = ((cfg0.win 14).blk t).view.read (Elt Ideal) (G14 m c) := by
  obtain ⟨-, -, -, -, -, -, e0, e1, e2, -⟩ := idx_rows t
  show (cfg0.win 14).cut (grid0.coords t) ((dats m 0 c).after 14 t) = _
  rw [after0_14]
  funext y
  obtain ⟨u, p, q, rfl⟩ : ∃ (u : Fin 1) (p : Fin 729) (q : Fin 64), y = ix3 u p q := ⟨y 0, y 1, y 2, eq_ix3 y⟩
  obtain rfl : u = 0 := Subsingleton.elim _ _
  show out0_14 (b0 m c t) (b1 m c t) (b2 m c t) (b3 m c t) (b4 m c t) (b5 m c t) (b6 m c t) (b7 m c t) (b8 m c t) (b9 m c t) (b10 m c t) (b11 m c t) (b12 m c t) (b13 m c t) (ix3 (0 : Fin 1) p q) = G14 m c (((cfg0.win 14).blk t).view.emb (ix3 (0 : Fin 1) p q))
  rw [out14_at, kparams_blocks]
  simp only [b1_at, b0_at]
  rw [kState_split]
  have hr : rowOf (((cfg0.win 14).blk t).view.emb (ix3 (0 : Fin 1) p q)) = cell t p := Fin.ext (by
    show 729 * (win0_14.index t (0 : Fin 3) * 1 + 1 * 0) + (win0_14.index t (1 : Fin 3) * 729 + 1 * p.val) = 729 * t.val + p.val
    omega)
  have hq : (((cfg0.win 14).blk t).view.emb (ix3 (0 : Fin 1) p q)) 2 = q := Fin.ext (by
    show win0_14.index t (2 : Fin 3) * 64 + 1 * q.val = q.val
    omega)
  unfold G14 Gstate
  rw [hr, hq]

/-- The same for the expert-weight array. -/
theorem flushed15_eq (c : Dev nD) (t : Fin cfg0.N) :
    (dats m 0 c).flushed 15 t = ((cfg0.win 15).blk t).view.read (Elt Ideal) (G15 m c) := by
  obtain ⟨-, -, -, -, -, -, -, -, -, e0, e1, e2⟩ := idx_rows t
  show (cfg0.win 15).cut (grid0.coords t) ((dats m 0 c).after 15 t) = _
  rw [after0_15]
  funext y
  obtain ⟨u, p, q, rfl⟩ : ∃ (u : Fin 1) (p : Fin 729) (q : Fin 3), y = ix3 u p q := ⟨y 0, y 1, y 2, eq_ix3 y⟩
  obtain rfl : u = 0 := Subsingleton.elim _ _
  show out0_15 (b0 m c t) (b1 m c t) (b2 m c t) (b3 m c t) (b4 m c t) (b5 m c t) (b6 m c t) (b7 m c t) (b8 m c t) (b9 m c t) (b10 m c t) (b11 m c t) (b12 m c t) (b13 m c t) (ix3 (0 : Fin 1) p q) = G15 m c (((cfg0.win 15).blk t).view.emb (ix3 (0 : Fin 1) p q))
  rw [out15_at, kparams_blocks]
  simp only [b1_at, b0_at]
  rw [kGate_split]
  have hr : rowOf (((cfg0.win 15).blk t).view.emb (ix3 (0 : Fin 1) p q)) = cell t p := Fin.ext (by
    show 729 * (win0_15.index t (0 : Fin 3) * 1 + 1 * 0) + (win0_15.index t (1 : Fin 3) * 729 + 1 * p.val) = 729 * t.val + p.val
    omega)
  have hq : (((cfg0.win 15).blk t).view.emb (ix3 (0 : Fin 1) p q)) 2 = q := Fin.ext (by
    show win0_15.index t (2 : Fin 3) * 3 + 1 * q.val = q.val
    omega)
  unfold G15 Ggate
  rw [hr, hq]

/-- An index of the new-state array is in point `t`'s block iff each coordinate is in the block's range. -/
theorem mem_blk14 (t : Fin cfg0.N) (i : S27x729x64.Idx) :
    i ∈ ((cfg0.win 14).blk t).view.set ↔ ∀ a : Fin 3, win0_14.index t a * S1x729x64.size a ≤ (i a).val ∧ (i a).val < win0_14.index t a * S1x729x64.size a + S1x729x64.size a := by
  show i ∈ ((View.whole main_call0_v7_0).slice (win0_14.rect t)).set ↔ _
  rw [View.set_slice_whole, Rect.mem_set_unit]
  exact Iff.rfl

theorem mem_blk15 (t : Fin cfg0.N) (i : S27x729x3.Idx) :
    i ∈ ((cfg0.win 15).blk t).view.set ↔ ∀ a : Fin 3, win0_15.index t a * S1x729x3.size a ≤ (i a).val ∧ (i a).val < win0_15.index t a * S1x729x3.size a + S1x729x3.size a := by
  show i ∈ ((View.whole main_call0_v7_1).slice (win0_15.rect t)).set ↔ _
  rw [View.set_slice_whole, Rect.mem_set_unit]
  exact Iff.rfl

/-- Every index of the new-state array is in the block of the point its first coordinate names. -/
theorem cover14 (i : S27x729x64.Idx) : ∃ t : Fin cfg0.N, (cfg0.win 14).flush t = true ∧ i ∈ ((cfg0.win 14).blk t).view.set := by
  have h0 : (i 0).val < 27 := (i 0).isLt
  have h1 : (i 1).val < 729 := (i 1).isLt
  have h2 : (i 2).val < 64 := (i 2).isLt
  let t : Fin cfg0.N := ⟨(i 0).val, by have : cfg0.N = 27 := N_0; omega⟩
  obtain ⟨-, -, -, -, -, -, e0, e1, e2, -⟩ := idx_rows t
  refine ⟨t, flush0_14 t, ?_⟩
  rw [mem_blk14]
  intro a
  match a with
  | ⟨0, _⟩ => show win0_14.index t (0 : Fin 3) * 1 ≤ (i 0).val ∧ (i 0).val < win0_14.index t (0 : Fin 3) * 1 + 1; rw [e0]; show (i 0).val * 1 ≤ (i 0).val ∧ (i 0).val < (i 0).val * 1 + 1; omega
  | ⟨1, _⟩ => show win0_14.index t (1 : Fin 3) * 729 ≤ (i 1).val ∧ (i 1).val < win0_14.index t (1 : Fin 3) * 729 + 729; omega
  | ⟨2, _⟩ => show win0_14.index t (2 : Fin 3) * 64 ≤ (i 2).val ∧ (i 2).val < win0_14.index t (2 : Fin 3) * 64 + 64; omega

theorem cover15 (i : S27x729x3.Idx) : ∃ t : Fin cfg0.N, (cfg0.win 15).flush t = true ∧ i ∈ ((cfg0.win 15).blk t).view.set := by
  have h0 : (i 0).val < 27 := (i 0).isLt
  have h1 : (i 1).val < 729 := (i 1).isLt
  have h2 : (i 2).val < 3 := (i 2).isLt
  let t : Fin cfg0.N := ⟨(i 0).val, by have : cfg0.N = 27 := N_0; omega⟩
  obtain ⟨-, -, -, -, -, -, -, -, -, e0, e1, e2⟩ := idx_rows t
  refine ⟨t, flush0_15 t, ?_⟩
  rw [mem_blk15]
  intro a
  match a with
  | ⟨0, _⟩ => show win0_15.index t (0 : Fin 3) * 1 ≤ (i 0).val ∧ (i 0).val < win0_15.index t (0 : Fin 3) * 1 + 1; rw [e0]; show (i 0).val * 1 ≤ (i 0).val ∧ (i 0).val < (i 0).val * 1 + 1; omega
  | ⟨1, _⟩ => show win0_15.index t (1 : Fin 3) * 729 ≤ (i 1).val ∧ (i 1).val < win0_15.index t (1 : Fin 3) * 729 + 729; omega
  | ⟨2, _⟩ => show win0_15.index t (2 : Fin 3) * 3 ≤ (i 2).val ∧ (i 2).val < win0_15.index t (2 : Fin 3) * 3 + 3; omega

/-- THE ARRAYS after the region. -/
theorem final14 (c : Dev nD) : (dats m 0 c).arrAt 14 cfg0.N = G14 m c :=
  (dats m 0 c).arrAt_eq_of_cover 14 (G14 m c) (fun t _ => flushed14_eq m c t) (cover14)
theorem final15 (c : Dev nD) : (dats m 0 c).arrAt 15 cfg0.N = G15 m c :=
  (dats m 0 c).arrAt_eq_of_cover 15 (G15 m c) (fun t _ => flushed15_eq m c t) (cover15)

/-! ## The host's regrouping after the region -/

theorem res_state (c : Dev nD) :
    Pipeline.afterTail₀ cfgs (dats m) 0 (V0 m) [hostOps1] c main_v0_0 = Gstate (arg0 m c) (arg1 m c) (arg2 m c) (arg3 m c) (arg4 m c) (arg5 m c) (arg6 m c) (arg7 m c) (arg8 m c) (arg9 m c) (arg10 m c) (arg11 m c) (arg12 m c) (arg13 m c) := by
  unfold Pipeline.afterTail₀
  show StableHlo.after hostOps1 _ (Proc.devRef .tc main_v0_0) = _
  after_results
  have hw : Pipeline.withArrays (cfgs 0).spec c (V0 m c) (fun w => (dats m 0 c).arrAt w (cfgs 0).N) (Proc.devRef .tc main_call0_v7_0) = G14 m c :=
    (Pipeline.withArrays_arr spec0 launch0.win.arr_inj c _ _ 14).trans (final14 m c)
  funext i
  obtain ⟨r, q, rfl⟩ : ∃ (r : Fin 19683) (q : Fin 64), i = ix2 r q := ⟨i 0, i 1, eq_ix2 i⟩
  show shapeCast S19683x64 (Pipeline.withArrays (cfgs 0).spec c (V0 m c) (fun w => (dats m 0 c).arrAt w (cfgs 0).N) (Proc.devRef .tc main_call0_v7_0)) shapeCasts_S27x729x64_S19683x64 (ix2 r q) = _
  rw [hw]
  have hr : r.val < 19683 := r.isLt
  have hq : q.val < 64 := q.isLt
  rw [shapeCast_apply (G14 m c) shapeCasts_S27x729x64_S19683x64 (ix2 r q) (ix3 (⟨r.val / 729, by omega⟩ : Fin 27) (⟨r.val % 729, by omega⟩ : Fin 729) q) (by
    rw [Shape.rowMajor_val_three, Shape.rowMajor_val_two]
    show (r.val / 729 * 729 + r.val % 729) * 64 + q.val = r.val * 64 + q.val
    have h := Nat.div_add_mod r.val 729
    have h' : r.val / 729 * 729 + r.val % 729 = r.val := by omega
    rw [h'])]
  have hrow : rowOf (ix3 (⟨r.val / 729, by omega⟩ : Fin 27) (⟨r.val % 729, by omega⟩ : Fin 729) q) = r := Fin.ext (by
    show 729 * (r.val / 729) + r.val % 729 = r.val
    omega)
  unfold G14
  rw [hrow]

theorem res_gate (c : Dev nD) :
    Pipeline.afterTail₀ cfgs (dats m) 0 (V0 m) [hostOps1] c main_v0_1 = Ggate (arg0 m c) (arg1 m c) (arg2 m c) (arg3 m c) (arg4 m c) (arg5 m c) (arg6 m c) (arg7 m c) (arg8 m c) (arg9 m c) (arg10 m c) (arg11 m c) (arg12 m c) (arg13 m c) := by
  unfold Pipeline.afterTail₀
  show StableHlo.after hostOps1 _ (Proc.devRef .tc main_v0_1) = _
  after_results
  have hw : Pipeline.withArrays (cfgs 0).spec c (V0 m c) (fun w => (dats m 0 c).arrAt w (cfgs 0).N) (Proc.devRef .tc main_call0_v7_1) = G15 m c :=
    (Pipeline.withArrays_arr spec0 launch0.win.arr_inj c _ _ 15).trans (final15 m c)
  funext i
  obtain ⟨r, q, rfl⟩ : ∃ (r : Fin 19683) (q : Fin 3), i = ix2 r q := ⟨i 0, i 1, eq_ix2 i⟩
  show shapeCast S19683x3 (Pipeline.withArrays (cfgs 0).spec c (V0 m c) (fun w => (dats m 0 c).arrAt w (cfgs 0).N) (Proc.devRef .tc main_call0_v7_1)) shapeCasts_S27x729x3_S19683x3 (ix2 r q) = _
  rw [hw]
  have hr : r.val < 19683 := r.isLt
  have hq : q.val < 3 := q.isLt
  rw [shapeCast_apply (G15 m c) shapeCasts_S27x729x3_S19683x3 (ix2 r q) (ix3 (⟨r.val / 729, by omega⟩ : Fin 27) (⟨r.val % 729, by omega⟩ : Fin 729) q) (by
    rw [Shape.rowMajor_val_three, Shape.rowMajor_val_two]
    show (r.val / 729 * 729 + r.val % 729) * 3 + q.val = r.val * 3 + q.val
    have h := Nat.div_add_mod r.val 729
    have h' : r.val / 729 * 729 + r.val % 729 = r.val := by omega
    rw [h'])]
  have hrow : rowOf (ix3 (⟨r.val / 729, by omega⟩ : Fin 27) (⟨r.val % 729, by omega⟩ : Fin 729) q) = r := Fin.ext (by
    show 729 * (r.val / 729) + r.val % 729 = r.val
    omega)
  unfold G15
  rw [hrow]

/-! ## The run, read -/

/-- The kernel's run with both result arrays named: the new states and the expert weights of every cell, as the
    specification's functions of the argument arrays; the arguments unchanged. -/
theorem run : θ_run defs (onTc (τ := τ) (main (F := Ideal))) ⟨m, fun _ => 0, ρ⟩ fun r => ∀ c : Dev nD,
      r.2.mem ((c : Thread nD τ).loc main_v0_0) = Gstate (arg0 m c) (arg1 m c) (arg2 m c) (arg3 m c) (arg4 m c) (arg5 m c) (arg6 m c) (arg7 m c) (arg8 m c) (arg9 m c) (arg10 m c) (arg11 m c) (arg12 m c) (arg13 m c)
      ∧ r.2.mem ((c : Thread nD τ).loc main_v0_1) = Ggate (arg0 m c) (arg1 m c) (arg2 m c) (arg3 m c) (arg4 m c) (arg5 m c) (arg6 m c) (arg7 m c) (arg8 m c) (arg9 m c) (arg10 m c) (arg11 m c) (arg12 m c) (arg13 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun _ h c => ⟨((h c).2 main_v0_0 (Pipeline.mem_restRefs_of main_v0_0 (by decide) (by decide))).trans (res_state m c),
      ((h c).2 main_v0_1 (Pipeline.mem_restRefs_of main_v0_1 (by decide) (by decide))).trans (res_gate m c),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c)),
      ((h c).1 8).trans (((dats m 0 c).arrAt_in 8 rfl _).trans ((A_eq m c 8).trans (V_main_arg8 m c))),
      (((h c).2 main_arg9 (Pipeline.mem_restRefs_of main_arg9 (by decide) (by decide))).trans (W_main_arg9 m (dats m) c)),
      ((h c).1 10).trans (((dats m 0 c).arrAt_in 10 rfl _).trans ((A_eq m c 10).trans (V_main_arg10 m c))),
      (((h c).2 main_arg11 (Pipeline.mem_restRefs_of main_arg11 (by decide) (by decide))).trans (W_main_arg11 m (dats m) c)),
      ((h c).1 12).trans (((dats m 0 c).arrAt_in 12 rfl _).trans ((A_eq m c 12).trans (V_main_arg12 m c))),
      (((h c).2 main_arg13 (Pipeline.mem_restRefs_of main_arg13 (by decide) (by decide))).trans (W_main_arg13 m (dats m) c))⟩) (run_main m ρ)

end Cert.KernelIdeal.Arr

end
-- ==== Proof.RGate.lean ====
/-
  The reference program read at a cell `r` of the lattice: the neighbours' mean (a sum over the neighbour axis divided by
  26), the state laid before it, and the gating path (hidden layer, logits, softmax) down to the array of expert weights.
-/
import proofs.«152412_g38233798869014_cont_8to1_b_1562_9_alg».proof.Proof.Spec
import proofs.«152412_g38233798869014_cont_8to1_b_1562_9_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Cell

open Cert.ReferenceIdeal Cert.ReferenceIdeal.Read Idealize.ShloMosaic Idealize.ShloMosaic.ValueIdx Cert.Moe

/-- The pattern the reference spells for its divisor denotes the real 26. -/
theorem lit26 : Ideal.ofBits .f32 0x41D00000#32 = ((26 : ℝ) : EReal) := by
  simp [Ideal.ofBits, Ideal.ieee, -EReal.coe_mul]; norm_num

/-- The neighbours' mean of cell `r`. -/
theorem v2_at (x1 : (⟨S19683x26x64, .f32⟩ : BufTy).Contents (Elt Ideal)) (r : Fin 19683) (q : Fin 64) :
    val_main_v2 (F := Ideal) x1 (ix2 r q) = nmean (fun k q' => x1 (ix3 r k q')) q := by
  -- the sum from zero over the neighbour axis, divided by the broadcast 26
  rw [val_main_v2_apply, val_main_v0_apply, val_main_v1_apply, val_main_cst_0_apply, val_main_cst_apply]
  simp only [Ideal.hostDivf_def, Ideal.ofBits_def]
  rw [Ideal.ofBits_zero_f32, zero_add, lit26, Ideal.div_coe (y := 26) (by norm_num)]
  unfold nmean
  refine congrArg (· * _) (Finset.sum_congr rfl fun k _ => congrArg x1 ?_)
  exact funext fun c => Fin.ext (by match c with | ⟨0, _⟩ => rfl | ⟨1, _⟩ => rfl | ⟨2, _⟩ => rfl)

/-- The state laid before the neighbours' mean. -/
theorem v3_at (x0 : (⟨S19683x64, .f32⟩ : BufTy).Contents (Elt Ideal)) (x1 : (⟨S19683x26x64, .f32⟩ : BufTy).Contents (Elt Ideal)) (r : Fin 19683) (j : Fin 128) :
    val_main_v3 (F := Ideal) x0 x1 (ix2 r j) = comb (fun q' => x0 (ix2 r q')) (fun k q' => x1 (ix3 r k q')) j := by
  unfold val_main_v3 comb cat
  by_cases h : j.val < 64
  · -- a column below 64 reads the state
    rw [dif_pos h]
    exact concatenate_pair_apply_left 1 x0 (val_main_v2 (F := Ideal) x1) _ (ix2 r j) rfl (ix2 r (⟨j.val, h⟩ : Fin 64))
      (fun b => by
        match b with
        | ⟨0, _⟩ => rfl
        | ⟨1, _⟩ => rfl)
  · -- a column from 64 on reads the mean, 64 columns to the left
    have h' : j.val - 64 < 64 := by have := j.isLt; omega
    rw [dif_neg h, dif_pos h', ← v2_at x1 r ⟨j.val - 64, h'⟩]
    exact concatenate_pair_apply_right 1 x0 (val_main_v2 (F := Ideal) x1) _ (ix2 r j) rfl rfl (ix2 r (⟨j.val - 64, h'⟩ : Fin 64))
      (fun b hb => by
        match b with
        | ⟨0, _⟩ => rfl
        | ⟨1, _⟩ => exact absurd rfl hb)
      (by show j.val - 64 + 64 = j.val; omega)

/-! ## The gating path, layer by layer -/

/-- The gating path's hidden layer at cell `r`, read off the arrays. -/
def hid (x0 : Arr2 19683 64) (x1 : Arr3 19683 26 64) (x2 : Arr2 128 32) (x3 : Arr1 32) (r : Fin 19683) (a : Fin 32) : EReal :=
  Ideal.tanh (Moe.lin (comb (fun q' => x0 (ix2 r q')) (fun k q' => x1 (ix3 r k q'))) (fun k a' => x2 (ix2 k a')) (fun a' => x3 (ix1 a')) a)

/-- The three logits at cell `r`, read off the arrays. -/
def lgt (x0 : Arr2 19683 64) (x1 : Arr3 19683 26 64) (x2 : Arr2 128 32) (x3 : Arr1 32) (x4 : Arr2 32 3) (x5 : Arr1 3) (r : Fin 19683)
    (e : Fin 3) : EReal :=
  Moe.lin (hid x0 x1 x2 x3 r) (fun a e' => x4 (ix2 a e')) (fun e' => x5 (ix1 e')) e

section Stages

variable (x0 : (⟨S19683x64, .f32⟩ : BufTy).Contents (Elt Ideal)) (x1 : (⟨S19683x26x64, .f32⟩ : BufTy).Contents (Elt Ideal)) (x2 : (⟨S128x32, .f32⟩ : BufTy).Contents (Elt Ideal)) (x3 : (⟨S32, .f32⟩ : BufTy).Contents (Elt Ideal)) (x4 : (⟨S32x3, .f32⟩ : BufTy).Contents (Elt Ideal)) (x5 : (⟨S3, .f32⟩ : BufTy).Contents (Elt Ideal)) (r : Fin 19683)

/-- The hidden layer's product: row `r` of the joined array against the first weight matrix. -/
theorem v4_at (a : Fin 32) :
    val_main_v4 (F := Ideal) x0 x1 x2 (ix2 r a) = Moe.dot (comb (fun q' => x0 (ix2 r q')) (fun k q' => x1 (ix3 r k q'))) (fun k a' => x2 (ix2 k a')) a := by
  rw [val_main_v4_apply]
  unfold Moe.dot
  refine Finset.sum_congr rfl fun k _ => ?_
  have hl : lidx_main_v4 (ix2 r a) k = ix2 r k := funext fun c => Fin.ext (by match c with | ⟨0, _⟩ => rfl | ⟨1, _⟩ => rfl)
  have hr : ridx_main_v4 (ix2 r a) k = ix2 k a := funext fun c => Fin.ext (by match c with | ⟨0, _⟩ => rfl | ⟨1, _⟩ => rfl)
  rw [hl, hr, v3_at]

/-- The hidden layer's bias, broadcast down the rows. -/
theorem v6_at (a : Fin 32) : val_main_v6 (F := Ideal) x3 (ix2 r a) = x3 (ix1 a) := by
  rw [val_main_v6_apply, val_main_v5_apply]
  exact congrArg x3 (funext fun c => Fin.ext (by match c with | ⟨0, _⟩ => rfl))

/-- The hidden layer. -/
theorem v8_at (a : Fin 32) : val_main_v8 (F := Ideal) x0 x1 x2 x3 (ix2 r a) = hid x0 x1 x2 x3 r a := by
  rw [val_main_v8_apply, val_main_v7_apply, v4_at, v6_at]
  rfl

/-- The logits' product: the hidden row against the second weight matrix. -/
theorem v9_at (e : Fin 3) :
    val_main_v9 (F := Ideal) x0 x1 x2 x3 x4 (ix2 r e) = Moe.dot (hid x0 x1 x2 x3 r) (fun a e' => x4 (ix2 a e')) e := by
  rw [val_main_v9_apply]
  unfold Moe.dot
  refine Finset.sum_congr rfl fun k _ => ?_
  have hl : lidx_main_v9 (ix2 r e) k = ix2 r k := funext fun c => Fin.ext (by match c with | ⟨0, _⟩ => rfl | ⟨1, _⟩ => rfl)
  have hr : ridx_main_v9 (ix2 r e) k = ix2 k e := funext fun c => Fin.ext (by match c with | ⟨0, _⟩ => rfl | ⟨1, _⟩ => rfl)
  rw [hl, hr, v8_at]

/-- The logits' bias, broadcast down the rows. -/
theorem v11_at (e : Fin 3) : val_main_v11 (F := Ideal) x5 (ix2 r e) = x5 (ix1 e) := by
  rw [val_main_v11_apply, val_main_v10_apply]
  exact congrArg x5 (funext fun c => Fin.ext (by match c with | ⟨0, _⟩ => rfl))

/-- The logits. -/
theorem v12_at (e : Fin 3) : val_main_v12 (F := Ideal) x0 x1 x2 x3 x4 x5 (ix2 r e) = lgt x0 x1 x2 x3 x4 x5 r e := by
  rw [val_main_v12_apply, v9_at, v11_at]
  rfl

/-- The row maximum: the reduce over the expert axis is the fold of `max` from minus infinity over the row's three logits. -/
theorem v13_at : val_main_v13 (F := Ideal) x0 x1 x2 x3 x4 x5 (ix1 r) = rowMax (lgt x0 x1 x2 x3 x4 x5 r) := by
  have hR : S19683x3.Reduces [1] S19683 := by decide
  unfold val_main_v13
  rw [Host.reduce_eq_fold_single FloatOps.maximumf _ _ _ hR _ (ix1 r)]
  have hf : (val_main_v12 (F := Ideal) x0 x1 x2 x3 x4 x5 ∘ hR.lift (ix1 r)) = lgt x0 x1 x2 x3 x4 x5 r := by
    funext k
    have hk : hR.lift (ix1 r) k = ix2 r (⟨k.val, k.isLt⟩ : Fin 3) := funext fun c => Fin.ext (by match c with | ⟨0, _⟩ => rfl | ⟨1, _⟩ => rfl)
    show val_main_v12 (F := Ideal) x0 x1 x2 x3 x4 x5 (hR.lift (ix1 r) k) = _
    rw [hk, v12_at]
    rfl
  rw [hf]
  rfl

/-- The maximum with a row of minus infinities changes nothing. -/
theorem v15_at : val_main_v15 (F := Ideal) x0 x1 x2 x3 x4 x5 (ix1 r) = rowMax (lgt x0 x1 x2 x3 x4 x5 r) := by
  rw [val_main_v15_apply, val_main_v14_apply, val_main_cst_2_apply, v13_at]
  exact max_negInf _

/-- The row maximum, broadcast along the row. -/
theorem v17_at (e : Fin 3) : val_main_v17 (F := Ideal) x0 x1 x2 x3 x4 x5 (ix2 r e) = rowMax (lgt x0 x1 x2 x3 x4 x5 r) := by
  rw [val_main_v17_apply, val_main_v16_apply]
  have hi : idx_main_v16 (idx_main_v17 (ix2 r e)) = ix1 r := funext fun c => Fin.ext (by match c with | ⟨0, _⟩ => rfl)
  rw [hi, v15_at]

/-- The exponential of the shifted logit. -/
theorem v19_at (e : Fin 3) :
    val_main_v19 (F := Ideal) x0 x1 x2 x3 x4 x5 (ix2 r e)
      = Ideal.exp (lgt x0 x1 x2 x3 x4 x5 r e - rowMax (lgt x0 x1 x2 x3 x4 x5 r)) := by
  rw [val_main_v19_apply, val_main_v18_apply, v12_at, v17_at]
  rfl

/-- The row's sum of exponentials, from zero. -/
theorem v20_at :
    val_main_v20 (F := Ideal) x0 x1 x2 x3 x4 x5 (ix1 r)
      = ∑ e' : Fin 3, Ideal.exp (lgt x0 x1 x2 x3 x4 x5 r e' - rowMax (lgt x0 x1 x2 x3 x4 x5 r)) := by
  rw [val_main_v20_apply, val_main_cst_3_apply]
  simp only [Ideal.ofBits_def]
  rw [Ideal.ofBits_zero_f32, zero_add]
  refine Finset.sum_congr rfl fun k _ => ?_
  have hi : idx_main_v20 (ix1 r) k = ix2 r k := funext fun c => Fin.ext (by match c with | ⟨0, _⟩ => rfl | ⟨1, _⟩ => rfl)
  rw [hi, v19_at]

/-- The row's sum, broadcast along the row. -/
theorem v22_at (e : Fin 3) :
    val_main_v22 (F := Ideal) x0 x1 x2 x3 x4 x5 (ix2 r e)
      = ∑ e' : Fin 3, Ideal.exp (lgt x0 x1 x2 x3 x4 x5 r e' - rowMax (lgt x0 x1 x2 x3 x4 x5 r)) := by
  rw [val_main_v22_apply, val_main_v21_apply]
  have hi : idx_main_v21 (idx_main_v22 (ix2 r e)) = ix1 r := funext fun c => Fin.ext (by match c with | ⟨0, _⟩ => rfl)
  rw [hi, v20_at]

end Stages

/-- The logits read off the arrays are the specification's logits at the arrays' weights. -/
theorem lgt_eq (x0 : (⟨S19683x64, .f32⟩ : BufTy).Contents (Elt Ideal)) (x1 : (⟨S19683x26x64, .f32⟩ : BufTy).Contents (Elt Ideal)) (x2 : (⟨S128x32, .f32⟩ : BufTy).Contents (Elt Ideal)) (x3 : (⟨S32, .f32⟩ : BufTy).Contents (Elt Ideal)) (x4 : (⟨S32x3, .f32⟩ : BufTy).Contents (Elt Ideal)) (x5 : (⟨S3, .f32⟩ : BufTy).Contents (Elt Ideal)) (x6 : (⟨S128x64, .f32⟩ : BufTy).Contents (Elt Ideal)) (x7 : (⟨S64, .f32⟩ : BufTy).Contents (Elt Ideal)) (x8 : (⟨S128x32, .f32⟩ : BufTy).Contents (Elt Ideal)) (x9 : (⟨S32, .f32⟩ : BufTy).Contents (Elt Ideal)) (x10 : (⟨S96x64, .f32⟩ : BufTy).Contents (Elt Ideal)) (x11 : (⟨S64, .f32⟩ : BufTy).Contents (Elt Ideal)) (x12 : (⟨S128x64, .f32⟩ : BufTy).Contents (Elt Ideal)) (x13 : (⟨S64, .f32⟩ : BufTy).Contents (Elt Ideal)) (r : Fin 19683) :
    lgt x0 x1 x2 x3 x4 x5 r = logits (paramsOf x2 x3 x4 x5 x6 x7 x8 x9 x10 x11 x12 x13) (fun q' => x0 (ix2 r q')) (fun k q' => x1 (ix3 r k q')) := rfl

/-- The three expert weights of cell `r`. -/
theorem v23_at (x0 : (⟨S19683x64, .f32⟩ : BufTy).Contents (Elt Ideal)) (x1 : (⟨S19683x26x64, .f32⟩ : BufTy).Contents (Elt Ideal)) (x2 : (⟨S128x32, .f32⟩ : BufTy).Contents (Elt Ideal)) (x3 : (⟨S32, .f32⟩ : BufTy).Contents (Elt Ideal)) (x4 : (⟨S32x3, .f32⟩ : BufTy).Contents (Elt Ideal)) (x5 : (⟨S3, .f32⟩ : BufTy).Contents (Elt Ideal)) (x6 : (⟨S128x64, .f32⟩ : BufTy).Contents (Elt Ideal)) (x7 : (⟨S64, .f32⟩ : BufTy).Contents (Elt Ideal)) (x8 : (⟨S128x32, .f32⟩ : BufTy).Contents (Elt Ideal)) (x9 : (⟨S32, .f32⟩ : BufTy).Contents (Elt Ideal)) (x10 : (⟨S96x64, .f32⟩ : BufTy).Contents (Elt Ideal)) (x11 : (⟨S64, .f32⟩ : BufTy).Contents (Elt Ideal)) (x12 : (⟨S128x64, .f32⟩ : BufTy).Contents (Elt Ideal)) (x13 : (⟨S64, .f32⟩ : BufTy).Contents (Elt Ideal)) (r : Fin 19683) (e : Fin 3) :
    val_main_v23 (F := Ideal) x0 x1 x2 x3 x4 x5 (ix2 r e) = gate (paramsOf x2 x3 x4 x5 x6 x7 x8 x9 x10 x11 x12 x13) (fun q' => x0 (ix2 r q')) (fun k q' => x1 (ix3 r k q')) e := by
  rw [val_main_v23_apply, v19_at, v22_at, lgt_eq x0 x1 x2 x3 x4 x5 x6 x7 x8 x9 x10 x11 x12 x13 r]
  rfl

/-- The array of expert weights is the specification's. -/
theorem ref_gate (x0 : (⟨S19683x64, .f32⟩ : BufTy).Contents (Elt Ideal)) (x1 : (⟨S19683x26x64, .f32⟩ : BufTy).Contents (Elt Ideal)) (x2 : (⟨S128x32, .f32⟩ : BufTy).Contents (Elt Ideal)) (x3 : (⟨S32, .f32⟩ : BufTy).Contents (Elt Ideal)) (x4 : (⟨S32x3, .f32⟩ : BufTy).Contents (Elt Ideal)) (x5 : (⟨S3, .f32⟩ : BufTy).Contents (Elt Ideal)) (x6 : (⟨S128x64, .f32⟩ : BufTy).Contents (Elt Ideal)) (x7 : (⟨S64, .f32⟩ : BufTy).Contents (Elt Ideal)) (x8 : (⟨S128x32, .f32⟩ : BufTy).Contents (Elt Ideal)) (x9 : (⟨S32, .f32⟩ : BufTy).Contents (Elt Ideal)) (x10 : (⟨S96x64, .f32⟩ : BufTy).Contents (Elt Ideal)) (x11 : (⟨S64, .f32⟩ : BufTy).Contents (Elt Ideal)) (x12 : (⟨S128x64, .f32⟩ : BufTy).Contents (Elt Ideal)) (x13 : (⟨S64, .f32⟩ : BufTy).Contents (Elt Ideal)) :
    val_main_v23 (F := Ideal) x0 x1 x2 x3 x4 x5 = Ggate x0 x1 x2 x3 x4 x5 x6 x7 x8 x9 x10 x11 x12 x13 := by
  funext i
  obtain ⟨r, e, rfl⟩ : ∃ (r : Fin 19683) (e : Fin 3), i = ix2 r e := ⟨i 0, i 1, eq_ix2 i⟩
  rw [v23_at x0 x1 x2 x3 x4 x5 x6 x7 x8 x9 x10 x11 x12 x13 r e]
  rfl

end Cert.ReferenceIdeal.Cell

end
-- ==== Proof.RExperts.lean ====
/-
  The reference program read at a cell `r` of the lattice: the first expert (one tanh layer on the laid-out row) and the
  second expert (a message layer, then a tanh layer on the state laid before the message).
-/
import proofs.«152412_g38233798869014_cont_8to1_b_1562_9_alg».proof.Proof.Spec
import proofs.«152412_g38233798869014_cont_8to1_b_1562_9_alg».proof.Proof.RGate
import proofs.«152412_g38233798869014_cont_8to1_b_1562_9_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Cell

open Cert.ReferenceIdeal Cert.ReferenceIdeal.Read Idealize.ShloMosaic Idealize.ShloMosaic.ValueIdx Cert.Moe

/-! ## The stages, one at a time -/

section Stages

variable (x0 : (⟨S19683x64, .f32⟩ : BufTy).Contents (Elt Ideal)) (x1 : (⟨S19683x26x64, .f32⟩ : BufTy).Contents (Elt Ideal))

/-- A bias vector spread over the rows: every row reads the vector (64 columns). -/
theorem bias64_idx (r : Fin 19683) (q : Fin 64) : idx_main_v25 (idx_main_v26 (ix2 r q)) = ix1 q :=
  funext fun a => Fin.ext (by match a with | ⟨0, _⟩ => rfl)

/-- The same for the message's bias (32 columns). -/
theorem bias32_idx (r : Fin 19683) (a : Fin 32) : idx_main_v30 (idx_main_v31 (ix2 r a)) = ix1 a :=
  funext fun b => Fin.ext (by match b with | ⟨0, _⟩ => rfl)

/-- The same for the update layer's bias. -/
theorem bias64u_idx (r : Fin 19683) (q : Fin 64) : idx_main_v36 (idx_main_v37 (ix2 r q)) = ix1 q :=
  funext fun a => Fin.ext (by match a with | ⟨0, _⟩ => rfl)

/-- The first expert's product: one row of the laid-out array times the matrix. -/
theorem v24_at (x6 : (⟨S128x64, .f32⟩ : BufTy).Contents (Elt Ideal)) (r : Fin 19683) (q : Fin 64) :
    val_main_v24 (F := Ideal) x0 x1 x6 (ix2 r q)
      = dot (comb (fun q' => x0 (ix2 r q')) (fun k q' => x1 (ix3 r k q'))) (fun k q' => x6 (ix2 k q')) q := by
  rw [val_main_v24_apply]
  unfold dot
  refine Finset.sum_congr rfl fun k _ => ?_
  have el : lidx_main_v24 (ix2 r q) k = ix2 r k :=
    funext fun a => Fin.ext (by match a with | ⟨0, _⟩ => rfl | ⟨1, _⟩ => rfl)
  have er : ridx_main_v24 (ix2 r q) k = ix2 k q :=
    funext fun a => Fin.ext (by match a with | ⟨0, _⟩ => rfl | ⟨1, _⟩ => rfl)
  rw [el, er, v3_at]

/-- The message's product. -/
theorem v29_at (x8 : (⟨S128x32, .f32⟩ : BufTy).Contents (Elt Ideal)) (r : Fin 19683) (a : Fin 32) :
    val_main_v29 (F := Ideal) x0 x1 x8 (ix2 r a)
      = dot (comb (fun q' => x0 (ix2 r q')) (fun k q' => x1 (ix3 r k q'))) (fun k a' => x8 (ix2 k a')) a := by
  rw [val_main_v29_apply]
  unfold dot
  refine Finset.sum_congr rfl fun k _ => ?_
  have el : lidx_main_v29 (ix2 r a) k = ix2 r k :=
    funext fun b => Fin.ext (by match b with | ⟨0, _⟩ => rfl | ⟨1, _⟩ => rfl)
  have er : ridx_main_v29 (ix2 r a) k = ix2 k a :=
    funext fun b => Fin.ext (by match b with | ⟨0, _⟩ => rfl | ⟨1, _⟩ => rfl)
  rw [el, er, v3_at]

/-- The message: the tanh of the product plus the bias. -/
theorem v33_at (x8 : (⟨S128x32, .f32⟩ : BufTy).Contents (Elt Ideal)) (x9 : (⟨S32, .f32⟩ : BufTy).Contents (Elt Ideal))
    (r : Fin 19683) (a : Fin 32) :
    val_main_v33 (F := Ideal) x0 x1 x8 x9 (ix2 r a)
      = Ideal.tanh (lin (comb (fun q' => x0 (ix2 r q')) (fun k q' => x1 (ix3 r k q'))) (fun k a' => x8 (ix2 k a'))
          (fun a' => x9 (ix1 a')) a) := by
  rw [val_main_v33_apply, val_main_v32_apply, v29_at, val_main_v31_apply, val_main_v30_apply, bias32_idx]
  simp only [Ideal.hostUnary_tanh_def, Ideal.addf_def]
  rfl

/-- The state laid before the message: a column below 64 reads the state, a later one the message 64 columns back. -/
theorem v34_at (x8 : (⟨S128x32, .f32⟩ : BufTy).Contents (Elt Ideal)) (x9 : (⟨S32, .f32⟩ : BufTy).Contents (Elt Ideal))
    (r : Fin 19683) (j : Fin 96) :
    val_main_v34 (F := Ideal) x0 x1 x8 x9 (ix2 r j)
      = (cat (fun q' => x0 (ix2 r q')) (fun a => val_main_v33 (F := Ideal) x0 x1 x8 x9 (ix2 r a)) : Fin 96 → EReal) j := by
  unfold val_main_v34 cat
  by_cases h : j.val < 64
  · rw [dif_pos h]
    exact concatenate_pair_apply_left (t := S19683x96) (s₁ := S19683x64) (s₂ := S19683x32) 1 x0
      (val_main_v33 (F := Ideal) x0 x1 x8 x9) Gen.concatenates_S19683x64_S19683x32_S19683x96_d1 (ix2 r j) rfl
      (ix2 r ⟨j.val, h⟩) (fun b => by
        match b with
        | ⟨0, _⟩ => rfl
        | ⟨1, _⟩ => rfl)
  · have h' : j.val - 64 < 32 := by have := j.isLt; omega
    rw [dif_neg h, dif_pos h']
    exact concatenate_pair_apply_right (t := S19683x96) (s₁ := S19683x64) (s₂ := S19683x32) 1 x0
      (val_main_v33 (F := Ideal) x0 x1 x8 x9) Gen.concatenates_S19683x64_S19683x32_S19683x96_d1 (ix2 r j) rfl rfl
      (ix2 r ⟨j.val - 64, h'⟩)
      (fun b hb => by
        match b with
        | ⟨0, _⟩ => rfl
        | ⟨1, _⟩ => exact absurd rfl hb)
      (by show j.val - 64 + 64 = j.val; omega)

/-- The update layer's product: the joined row times the matrix. -/
theorem v35_at (x8 : (⟨S128x32, .f32⟩ : BufTy).Contents (Elt Ideal)) (x9 : (⟨S32, .f32⟩ : BufTy).Contents (Elt Ideal))
    (x10 : (⟨S96x64, .f32⟩ : BufTy).Contents (Elt Ideal)) (r : Fin 19683) (q : Fin 64) :
    val_main_v35 (F := Ideal) x0 x1 x8 x9 x10 (ix2 r q)
      = dot (cat (fun q' => x0 (ix2 r q')) (fun a => val_main_v33 (F := Ideal) x0 x1 x8 x9 (ix2 r a)) : Fin 96 → EReal)
          (fun k q' => x10 (ix2 k q')) q := by
  rw [val_main_v35_apply]
  unfold dot
  refine Finset.sum_congr rfl fun k _ => ?_
  have el : lidx_main_v35 (ix2 r q) k = ix2 r k :=
    funext fun a => Fin.ext (by match a with | ⟨0, _⟩ => rfl | ⟨1, _⟩ => rfl)
  have er : ridx_main_v35 (ix2 r q) k = ix2 k q :=
    funext fun a => Fin.ext (by match a with | ⟨0, _⟩ => rfl | ⟨1, _⟩ => rfl)
  rw [el, er, v34_at]

end Stages

/-- The first expert at cell `r`. -/
theorem v28_at (x0 : (⟨S19683x64, .f32⟩ : BufTy).Contents (Elt Ideal)) (x1 : (⟨S19683x26x64, .f32⟩ : BufTy).Contents (Elt Ideal)) (x2 : (⟨S128x32, .f32⟩ : BufTy).Contents (Elt Ideal)) (x3 : (⟨S32, .f32⟩ : BufTy).Contents (Elt Ideal)) (x4 : (⟨S32x3, .f32⟩ : BufTy).Contents (Elt Ideal)) (x5 : (⟨S3, .f32⟩ : BufTy).Contents (Elt Ideal)) (x6 : (⟨S128x64, .f32⟩ : BufTy).Contents (Elt Ideal)) (x7 : (⟨S64, .f32⟩ : BufTy).Contents (Elt Ideal)) (x8 : (⟨S128x32, .f32⟩ : BufTy).Contents (Elt Ideal)) (x9 : (⟨S32, .f32⟩ : BufTy).Contents (Elt Ideal)) (x10 : (⟨S96x64, .f32⟩ : BufTy).Contents (Elt Ideal)) (x11 : (⟨S64, .f32⟩ : BufTy).Contents (Elt Ideal)) (x12 : (⟨S128x64, .f32⟩ : BufTy).Contents (Elt Ideal)) (x13 : (⟨S64, .f32⟩ : BufTy).Contents (Elt Ideal)) (r : Fin 19683) (q : Fin 64) :
    val_main_v28 (F := Ideal) x0 x1 x6 x7 (ix2 r q) = localOut (paramsOf x2 x3 x4 x5 x6 x7 x8 x9 x10 x11 x12 x13) (fun q' => x0 (ix2 r q')) (fun k q' => x1 (ix3 r k q')) q := by
  rw [val_main_v28_apply, val_main_v27_apply, v24_at, val_main_v26_apply, val_main_v25_apply, bias64_idx]
  simp only [Ideal.hostUnary_tanh_def, Ideal.addf_def]
  rfl

/-- The second expert at cell `r`. -/
theorem v39_at (x0 : (⟨S19683x64, .f32⟩ : BufTy).Contents (Elt Ideal)) (x1 : (⟨S19683x26x64, .f32⟩ : BufTy).Contents (Elt Ideal)) (x2 : (⟨S128x32, .f32⟩ : BufTy).Contents (Elt Ideal)) (x3 : (⟨S32, .f32⟩ : BufTy).Contents (Elt Ideal)) (x4 : (⟨S32x3, .f32⟩ : BufTy).Contents (Elt Ideal)) (x5 : (⟨S3, .f32⟩ : BufTy).Contents (Elt Ideal)) (x6 : (⟨S128x64, .f32⟩ : BufTy).Contents (Elt Ideal)) (x7 : (⟨S64, .f32⟩ : BufTy).Contents (Elt Ideal)) (x8 : (⟨S128x32, .f32⟩ : BufTy).Contents (Elt Ideal)) (x9 : (⟨S32, .f32⟩ : BufTy).Contents (Elt Ideal)) (x10 : (⟨S96x64, .f32⟩ : BufTy).Contents (Elt Ideal)) (x11 : (⟨S64, .f32⟩ : BufTy).Contents (Elt Ideal)) (x12 : (⟨S128x64, .f32⟩ : BufTy).Contents (Elt Ideal)) (x13 : (⟨S64, .f32⟩ : BufTy).Contents (Elt Ideal)) (r : Fin 19683) (q : Fin 64) :
    val_main_v39 (F := Ideal) x0 x1 x8 x9 x10 x11 (ix2 r q) = funcOut (paramsOf x2 x3 x4 x5 x6 x7 x8 x9 x10 x11 x12 x13) (fun q' => x0 (ix2 r q')) (fun k q' => x1 (ix3 r k q')) q := by
  rw [val_main_v39_apply, val_main_v38_apply, v35_at, val_main_v37_apply, val_main_v36_apply, bias64u_idx]
  simp only [Ideal.hostUnary_tanh_def, Ideal.addf_def]
  have hm : (fun a => val_main_v33 (F := Ideal) x0 x1 x8 x9 (ix2 r a))
      = msg (paramsOf x2 x3 x4 x5 x6 x7 x8 x9 x10 x11 x12 x13) (fun q' => x0 (ix2 r q')) (fun k q' => x1 (ix3 r k q')) := by
    funext a
    rw [v33_at]
    rfl
  rw [hm]
  rfl

end Cert.ReferenceIdeal.Cell

end
-- ==== Proof.RState.lean ====
/-
  The reference program read at a cell `r` of the lattice: the third expert's three Euler steps, and the mix of the three
  experts by their weights: the array of new states is the specification's.
-/
import proofs.«152412_g38233798869014_cont_8to1_b_1562_9_alg».proof.Proof.Spec
import proofs.«152412_g38233798869014_cont_8to1_b_1562_9_alg».proof.Proof.RGate
import proofs.«152412_g38233798869014_cont_8to1_b_1562_9_alg».proof.Proof.RExperts
import proofs.«152412_g38233798869014_cont_8to1_b_1562_9_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Cell

open Cert.ReferenceIdeal Cert.ReferenceIdeal.Read Idealize.ShloMosaic Idealize.ShloMosaic.ValueIdx Cert.Moe

namespace RStateAux

/-! ## Layout stages at a cell: two rows laid end to end, a product with a matrix, a bias, the step size -/

/-- Two arrays of 64 columns joined along the columns, read in row `r`: the two rows laid end to end. -/
theorem cat_at (s y : (⟨S19683x64, .f32⟩ : BufTy).Contents (Elt Ideal))
    (h : Shape.Concatenates [S19683x64, S19683x64] S19683x128 1) (r : Fin 19683) (j : Fin 128) :
    concatenate S19683x128 1 [⟨S19683x64, s⟩, ⟨S19683x64, y⟩] h (ix2 r j)
      = (cat (fun q' => s (ix2 r q')) (fun q' => y (ix2 r q')) : Fin 128 → EReal) j := by
  unfold cat
  by_cases hj : j.val < 64
  · rw [dif_pos hj]
    exact concatenate_pair_apply_left 1 s y h (ix2 r j) rfl (ix2 r ⟨j.val, hj⟩)
      (fun b => by match b with | ⟨0, _⟩ => rfl | ⟨1, _⟩ => rfl)
  · have hj' : j.val - 64 < 64 := by have := j.isLt; omega
    rw [dif_neg hj, dif_pos hj']
    exact concatenate_pair_apply_right 1 s y h (ix2 r j) rfl rfl (ix2 r ⟨j.val - 64, hj'⟩)
      (fun b hb => by match b, hb with | ⟨0, _⟩, _ => rfl | ⟨1, _⟩, hb => exact (hb (Fin.ext rfl)).elim)
      (by show (j.val - 64) + 64 = j.val; omega)

/-- The product of an array of 128 columns with a matrix, at a cell whose row of the array is known. -/
theorem dot_at (c : (⟨S19683x128, .f32⟩ : BufTy).Contents (Elt Ideal)) (w : (⟨S128x64, .f32⟩ : BufTy).Contents (Elt Ideal))
    (r : Fin 19683) (q : Fin 64) (v : Fin 128 → EReal) (hc : ∀ j, c (ix2 r j) = v j) :
    (∑ k : Fin 128, c (lidx_main_v41 (ix2 r q) k) * w (ridx_main_v41 (ix2 r q) k)) = dot v (fun k q' => w (ix2 k q')) q := by
  unfold dot
  refine Finset.sum_congr rfl fun k _ => ?_
  have el : lidx_main_v41 (ix2 r q) k = ix2 r k :=
    funext fun a => Fin.ext (by match a with | ⟨0, _⟩ => rfl | ⟨1, _⟩ => rfl)
  have er : ridx_main_v41 (ix2 r q) k = ix2 k q :=
    funext fun a => Fin.ext (by match a with | ⟨0, _⟩ => rfl | ⟨1, _⟩ => rfl)
  rw [el, er, hc]

/-- The bias of the vector field, broadcast over the cells, at a cell. -/
theorem v43_at (x13 : (⟨S64, .f32⟩ : BufTy).Contents (Elt Ideal)) (r : Fin 19683) (q : Fin 64) :
    val_main_v43 (F := Ideal) x13 (ix2 r q) = x13 (ix1 q) := by
  rw [val_main_v43_apply, val_main_v42_apply]
  exact congrArg x13 (funext fun a => Fin.ext (by match a with | ⟨0, _⟩ => rfl))

theorem v52_at (x13 : (⟨S64, .f32⟩ : BufTy).Contents (Elt Ideal)) (r : Fin 19683) (q : Fin 64) :
    val_main_v52 (F := Ideal) x13 (ix2 r q) = x13 (ix1 q) := by
  rw [val_main_v52_apply, val_main_v51_apply]
  exact congrArg x13 (funext fun a => Fin.ext (by match a with | ⟨0, _⟩ => rfl))

theorem v61_at (x13 : (⟨S64, .f32⟩ : BufTy).Contents (Elt Ideal)) (r : Fin 19683) (q : Fin 64) :
    val_main_v61 (F := Ideal) x13 (ix2 r q) = x13 (ix1 q) := by
  rw [val_main_v61_apply, val_main_v60_apply]
  exact congrArg x13 (funext fun a => Fin.ext (by match a with | ⟨0, _⟩ => rfl))

/-- The step size, broadcast over the cells, is the specification's word at every cell. -/
theorem v46_at (i : S19683x64.Idx) : val_main_v46 (F := Ideal) i = third := by
  rw [val_main_v46_apply, val_main_cst_4_apply]; rfl

theorem v55_at (i : S19683x64.Idx) : val_main_v55 (F := Ideal) i = third := by
  rw [val_main_v55_apply, val_main_cst_5_apply]; rfl

theorem v64_at (i : S19683x64.Idx) : val_main_v64 (F := Ideal) i = third := by
  rw [val_main_v64_apply, val_main_cst_6_apply]; rfl

/-! ## The three Euler steps at a cell -/

section Steps

variable (x0 : (⟨S19683x64, .f32⟩ : BufTy).Contents (Elt Ideal)) (x1 : (⟨S19683x26x64, .f32⟩ : BufTy).Contents (Elt Ideal)) (x2 : (⟨S128x32, .f32⟩ : BufTy).Contents (Elt Ideal)) (x3 : (⟨S32, .f32⟩ : BufTy).Contents (Elt Ideal)) (x4 : (⟨S32x3, .f32⟩ : BufTy).Contents (Elt Ideal)) (x5 : (⟨S3, .f32⟩ : BufTy).Contents (Elt Ideal)) (x6 : (⟨S128x64, .f32⟩ : BufTy).Contents (Elt Ideal)) (x7 : (⟨S64, .f32⟩ : BufTy).Contents (Elt Ideal)) (x8 : (⟨S128x32, .f32⟩ : BufTy).Contents (Elt Ideal)) (x9 : (⟨S32, .f32⟩ : BufTy).Contents (Elt Ideal)) (x10 : (⟨S96x64, .f32⟩ : BufTy).Contents (Elt Ideal)) (x11 : (⟨S64, .f32⟩ : BufTy).Contents (Elt Ideal)) (x12 : (⟨S128x64, .f32⟩ : BufTy).Contents (Elt Ideal)) (x13 : (⟨S64, .f32⟩ : BufTy).Contents (Elt Ideal)) (r : Fin 19683)

/-- The first step's argument: the cell's state laid before the neighbours' mean. -/
theorem v40_at (j : Fin 128) :
    val_main_v40 (F := Ideal) x0 x1 (ix2 r j)
      = (cat (fun q' => x0 (ix2 r q')) (nmean (fun k q' => x1 (ix3 r k q'))) : Fin 128 → EReal) j := by
  unfold val_main_v40
  rw [cat_at]
  exact congrArg (fun y => (cat (fun q' => x0 (ix2 r q')) y : Fin 128 → EReal) j) (funext fun q' => v2_at x1 r q')

/-- The state after one step. -/
theorem v48_at (q : Fin 64) :
    val_main_v48 (F := Ideal) x0 x1 x12 x13 (ix2 r q)
      = cnfStep (paramsOf x2 x3 x4 x5 x6 x7 x8 x9 x10 x11 x12 x13) (fun k q' => x1 (ix3 r k q')) (fun q' => x0 (ix2 r q')) q := by
  rw [val_main_v48_apply, val_main_v47_apply, val_main_v45_apply, val_main_v44_apply, val_main_v41_apply, v43_at, v46_at,
    dot_at _ x12 r q _ (v40_at x0 x1 r)]
  simp only [Ideal.addf_def, Ideal.mulf_def, Ideal.hostUnary_tanh_def]
  rfl

/-- The second step's argument. -/
theorem v49_at (j : Fin 128) :
    val_main_v49 (F := Ideal) x0 x1 x12 x13 (ix2 r j)
      = (cat (cnfStep (paramsOf x2 x3 x4 x5 x6 x7 x8 x9 x10 x11 x12 x13) (fun k q' => x1 (ix3 r k q')) (fun q' => x0 (ix2 r q')))
          (nmean (fun k q' => x1 (ix3 r k q'))) : Fin 128 → EReal) j := by
  unfold val_main_v49
  have hs : (fun q' => val_main_v48 (F := Ideal) x0 x1 x12 x13 (ix2 r q'))
      = cnfStep (paramsOf x2 x3 x4 x5 x6 x7 x8 x9 x10 x11 x12 x13) (fun k q' => x1 (ix3 r k q')) (fun q' => x0 (ix2 r q')) :=
    funext fun q' => v48_at x0 x1 x2 x3 x4 x5 x6 x7 x8 x9 x10 x11 x12 x13 r q'
  have hm : (fun q' => val_main_v2 (F := Ideal) x1 (ix2 r q')) = nmean (fun k q' => x1 (ix3 r k q')) := funext fun q' => v2_at x1 r q'
  rw [cat_at, hs, hm]

/-- The state after two steps. -/
theorem v57_at (q : Fin 64) :
    val_main_v57 (F := Ideal) x0 x1 x12 x13 (ix2 r q)
      = cnfStep (paramsOf x2 x3 x4 x5 x6 x7 x8 x9 x10 x11 x12 x13) (fun k q' => x1 (ix3 r k q'))
          (cnfStep (paramsOf x2 x3 x4 x5 x6 x7 x8 x9 x10 x11 x12 x13) (fun k q' => x1 (ix3 r k q')) (fun q' => x0 (ix2 r q'))) q := by
  rw [val_main_v57_apply, val_main_v56_apply, val_main_v54_apply, val_main_v53_apply, val_main_v50_apply, v52_at, v55_at,
    v48_at x0 x1 x2 x3 x4 x5 x6 x7 x8 x9 x10 x11 x12 x13 r q,
    show (∑ k : Fin 128, val_main_v49 (F := Ideal) x0 x1 x12 x13 (lidx_main_v50 (ix2 r q) k) * x12 (ridx_main_v50 (ix2 r q) k)) = _
      from dot_at _ x12 r q _ (v49_at x0 x1 x2 x3 x4 x5 x6 x7 x8 x9 x10 x11 x12 x13 r)]
  simp only [Ideal.addf_def, Ideal.mulf_def, Ideal.hostUnary_tanh_def]
  rfl

/-- The third step's argument. -/
theorem v58_at (j : Fin 128) :
    val_main_v58 (F := Ideal) x0 x1 x12 x13 (ix2 r j)
      = (cat (cnfStep (paramsOf x2 x3 x4 x5 x6 x7 x8 x9 x10 x11 x12 x13) (fun k q' => x1 (ix3 r k q'))
            (cnfStep (paramsOf x2 x3 x4 x5 x6 x7 x8 x9 x10 x11 x12 x13) (fun k q' => x1 (ix3 r k q')) (fun q' => x0 (ix2 r q'))))
          (nmean (fun k q' => x1 (ix3 r k q'))) : Fin 128 → EReal) j := by
  unfold val_main_v58
  have hs : (fun q' => val_main_v57 (F := Ideal) x0 x1 x12 x13 (ix2 r q'))
      = cnfStep (paramsOf x2 x3 x4 x5 x6 x7 x8 x9 x10 x11 x12 x13) (fun k q' => x1 (ix3 r k q')) (cnfStep (paramsOf x2 x3 x4 x5 x6 x7 x8 x9 x10 x11 x12 x13) (fun k q' => x1 (ix3 r k q')) (fun q' => x0 (ix2 r q'))) :=
    funext fun q' => v57_at x0 x1 x2 x3 x4 x5 x6 x7 x8 x9 x10 x11 x12 x13 r q'
  have hm : (fun q' => val_main_v2 (F := Ideal) x1 (ix2 r q')) = nmean (fun k q' => x1 (ix3 r k q')) := funext fun q' => v2_at x1 r q'
  rw [cat_at, hs, hm]

end Steps

end RStateAux

/-- The third expert at cell `r`: three Euler steps from the cell's state. -/
theorem v66_at (x0 : (⟨S19683x64, .f32⟩ : BufTy).Contents (Elt Ideal)) (x1 : (⟨S19683x26x64, .f32⟩ : BufTy).Contents (Elt Ideal)) (x2 : (⟨S128x32, .f32⟩ : BufTy).Contents (Elt Ideal)) (x3 : (⟨S32, .f32⟩ : BufTy).Contents (Elt Ideal)) (x4 : (⟨S32x3, .f32⟩ : BufTy).Contents (Elt Ideal)) (x5 : (⟨S3, .f32⟩ : BufTy).Contents (Elt Ideal)) (x6 : (⟨S128x64, .f32⟩ : BufTy).Contents (Elt Ideal)) (x7 : (⟨S64, .f32⟩ : BufTy).Contents (Elt Ideal)) (x8 : (⟨S128x32, .f32⟩ : BufTy).Contents (Elt Ideal)) (x9 : (⟨S32, .f32⟩ : BufTy).Contents (Elt Ideal)) (x10 : (⟨S96x64, .f32⟩ : BufTy).Contents (Elt Ideal)) (x11 : (⟨S64, .f32⟩ : BufTy).Contents (Elt Ideal)) (x12 : (⟨S128x64, .f32⟩ : BufTy).Contents (Elt Ideal)) (x13 : (⟨S64, .f32⟩ : BufTy).Contents (Elt Ideal)) (r : Fin 19683) (q : Fin 64) :
    val_main_v66 (F := Ideal) x0 x1 x12 x13 (ix2 r q) = cnfOut (paramsOf x2 x3 x4 x5 x6 x7 x8 x9 x10 x11 x12 x13) (fun q' => x0 (ix2 r q')) (fun k q' => x1 (ix3 r k q')) q := by
  rw [val_main_v66_apply, val_main_v65_apply, val_main_v63_apply, val_main_v62_apply, val_main_v59_apply, RStateAux.v61_at, RStateAux.v64_at,
    RStateAux.v57_at x0 x1 x2 x3 x4 x5 x6 x7 x8 x9 x10 x11 x12 x13 r q,
    show (∑ k : Fin 128, val_main_v58 (F := Ideal) x0 x1 x12 x13 (lidx_main_v59 (ix2 r q) k) * x12 (ridx_main_v59 (ix2 r q) k)) = _
      from RStateAux.dot_at _ x12 r q _ (RStateAux.v58_at x0 x1 x2 x3 x4 x5 x6 x7 x8 x9 x10 x11 x12 x13 r)]
  simp only [Ideal.addf_def, Ideal.mulf_def, Ideal.hostUnary_tanh_def]
  rfl

/-- The array of new states is the specification's. -/
theorem ref_state (x0 : (⟨S19683x64, .f32⟩ : BufTy).Contents (Elt Ideal)) (x1 : (⟨S19683x26x64, .f32⟩ : BufTy).Contents (Elt Ideal)) (x2 : (⟨S128x32, .f32⟩ : BufTy).Contents (Elt Ideal)) (x3 : (⟨S32, .f32⟩ : BufTy).Contents (Elt Ideal)) (x4 : (⟨S32x3, .f32⟩ : BufTy).Contents (Elt Ideal)) (x5 : (⟨S3, .f32⟩ : BufTy).Contents (Elt Ideal)) (x6 : (⟨S128x64, .f32⟩ : BufTy).Contents (Elt Ideal)) (x7 : (⟨S64, .f32⟩ : BufTy).Contents (Elt Ideal)) (x8 : (⟨S128x32, .f32⟩ : BufTy).Contents (Elt Ideal)) (x9 : (⟨S32, .f32⟩ : BufTy).Contents (Elt Ideal)) (x10 : (⟨S96x64, .f32⟩ : BufTy).Contents (Elt Ideal)) (x11 : (⟨S64, .f32⟩ : BufTy).Contents (Elt Ideal)) (x12 : (⟨S128x64, .f32⟩ : BufTy).Contents (Elt Ideal)) (x13 : (⟨S64, .f32⟩ : BufTy).Contents (Elt Ideal)) :
    val_main_v77 (F := Ideal) x0 x1 x2 x3 x4 x5 x6 x7 x8 x9 x10 x11 x12 x13 = Gstate x0 x1 x2 x3 x4 x5 x6 x7 x8 x9 x10 x11 x12 x13 := by
  funext i
  obtain ⟨r, q, rfl⟩ : ∃ (r : Fin 19683) (q : Fin 64), i = ix2 r q := ⟨i 0, i 1, eq_ix2 i⟩
  -- each expert's weight: a column of the weights, broadcast along the row
  have e0 : idx_main_v67 (idx_main_v68 (ix2 r q)) = ix2 r (0 : Fin 3) :=
    funext fun a => Fin.ext (by match a with | ⟨0, _⟩ => rfl | ⟨1, _⟩ => rfl)
  have e1 : idx_main_v70 (idx_main_v71 (ix2 r q)) = ix2 r (1 : Fin 3) :=
    funext fun a => Fin.ext (by match a with | ⟨0, _⟩ => rfl | ⟨1, _⟩ => rfl)
  have e2 : idx_main_v74 (idx_main_v75 (ix2 r q)) = ix2 r (2 : Fin 3) :=
    funext fun a => Fin.ext (by match a with | ⟨0, _⟩ => rfl | ⟨1, _⟩ => rfl)
  rw [val_main_v77_apply, val_main_v73_apply, val_main_v69_apply, val_main_v72_apply, val_main_v76_apply,
    val_main_v68_apply, val_main_v67_apply, val_main_v71_apply, val_main_v70_apply, val_main_v75_apply, val_main_v74_apply,
    e0, e1, e2,
    v23_at x0 x1 x2 x3 x4 x5 x6 x7 x8 x9 x10 x11 x12 x13 r 0, v23_at x0 x1 x2 x3 x4 x5 x6 x7 x8 x9 x10 x11 x12 x13 r 1, v23_at x0 x1 x2 x3 x4 x5 x6 x7 x8 x9 x10 x11 x12 x13 r 2,
    v28_at x0 x1 x2 x3 x4 x5 x6 x7 x8 x9 x10 x11 x12 x13 r q, v39_at x0 x1 x2 x3 x4 x5 x6 x7 x8 x9 x10 x11 x12 x13 r q, v66_at x0 x1 x2 x3 x4 x5 x6 x7 x8 x9 x10 x11 x12 x13 r q]
  simp only [Ideal.addf_def, Ideal.mulf_def]
  rfl

end Cert.ReferenceIdeal.Cell

end
-- ==== Proof.lean ====
/-
  A lattice of 19683 cells, each with a state of 64 numbers and 26 neighbours: every cell's new state mixes three experts
  by a softmax gate computed from the cell's state laid before its neighbours' mean. The kernel walks the lattice in 27
  blocks of 729 cells and, per block, adds the 26 neighbour slabs one after the other, multiplies by the reciprocal it
  names 1/26, splits the update layer's and the vector field's products between the upper and lower rows of their
  matrices, and carries the part of the vector field that does not move out of the three Euler steps; the reference
  takes the mean as a sum divided by 26 and every layer as one product on the laid-out rows. Over the extended reals
  both are one function of the arguments, cell by cell (Proof/Spec.lean): a sum of 26 terms in either order, a division
  by 26 against a product with 1/26, a product with a joined row split in two, and associativity of addition; nothing
  needs the inputs finite, so the precondition is never opened.

  The two kernel frames and the reference's run are the generated ones. What the kernel's result arrays hold is read
  off its frame run block by block (Proof/KGate.lean, KExperts.lean, KState.lean: the body at a cell; Proof/KArrays.lean:
  the blocks tile the arrays, and the host's regrouping before and after the region); what the reference's hold is read
  off its run one operation at a time (Proof/RGate.lean, RExperts.lean, RState.lean).
-/
import proofs.«152412_g38233798869014_cont_8to1_b_1562_9_alg».proof.Defs
import proofs.«152412_g38233798869014_cont_8to1_b_1562_9_alg».proof.Proof.Gen.Kernel
import proofs.«152412_g38233798869014_cont_8to1_b_1562_9_alg».proof.Proof.Gen.Kernel.Skeleton
import proofs.«152412_g38233798869014_cont_8to1_b_1562_9_alg».proof.Proof.Gen.Kernel.Launch
import proofs.«152412_g38233798869014_cont_8to1_b_1562_9_alg».proof.Proof.Gen.Kernel.Points
import proofs.«152412_g38233798869014_cont_8to1_b_1562_9_alg».proof.Proof.Gen.Kernel.Frame
import proofs.«152412_g38233798869014_cont_8to1_b_1562_9_alg».proof.Proof.Gen.KernelIdeal
import proofs.«152412_g38233798869014_cont_8to1_b_1562_9_alg».proof.Proof.Gen.KernelIdeal.Skeleton
import proofs.«152412_g38233798869014_cont_8to1_b_1562_9_alg».proof.Proof.Gen.KernelIdeal.Launch
import proofs.«152412_g38233798869014_cont_8to1_b_1562_9_alg».proof.Proof.Gen.KernelIdeal.Points
import proofs.«152412_g38233798869014_cont_8to1_b_1562_9_alg».proof.Proof.Gen.KernelIdeal.Frame
import proofs.«152412_g38233798869014_cont_8to1_b_1562_9_alg».proof.Proof.Gen.ReferenceIdeal
import proofs.«152412_g38233798869014_cont_8to1_b_1562_9_alg».proof.Proof.Gen.Pre_finite_inputs
import proofs.«152412_g38233798869014_cont_8to1_b_1562_9_alg».proof.Proof.Gen.ReferenceIdeal.Run
import proofs.«152412_g38233798869014_cont_8to1_b_1562_9_alg».proof.Proof.Gen.ReferenceIdeal.Read
import proofs.«152412_g38233798869014_cont_8to1_b_1562_9_alg».proof.Proof.KArrays
import proofs.«152412_g38233798869014_cont_8to1_b_1562_9_alg».proof.Proof.RState
import Idealize.ShloMosaic.PureOps.IdealRules
import Idealize.ShloMosaic.Adequacy
import Idealize.ShloMosaic.Init

noncomputable section

namespace Cert.Proof

open Idealize.ShloMosaic Idealize.SL.Sem Cert.Moe

theorem frame_kernel : Cert.frame_Kernel := fun m ρ _ => Cert.Kernel.Gen.frame m ρ

theorem frame_kernelIdeal : Cert.frame_KernelIdeal := fun m ρ _ => Cert.KernelIdeal.Gen.frame m ρ

/-- The reference's run with its results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The one rewrite of the idealization: the kernel's reciprocal of 26 is named, and the name's value is 1/26. -/
theorem preserves : Cert.preserves_Kernel_KernelIdeal :=
  IdealRules.named_const.statement Cert.KernelIdeal.κ "inv_26" .f32 0x3D1D89D9#32 ((1 / 26 : ℝ) : EReal) rfl

/-- Both programs end with every cell's new state and expert weights at the specification's functions of the
    arguments, which agree. -/
theorem algebraic : Cert.algebraic_KernelIdeal_ReferenceIdeal := by
  intro m ρ m' ρ' _ hagree
  refine ⟨_, _, Cert.KernelIdeal.Arr.run m ρ, ?_⟩
  refine (θ_run Cert.ReferenceIdeal.defs _ _).mono (fun _ h c => ?_) (Cert.ReferenceIdeal.Value.run (F := Ideal) m' ρ')
  obtain ⟨h0, h1, h2, h3, h4, h5, h6, h7, h8, h9, h10, h11, h12, h13⟩ := hagree c
  refine ⟨?_, ?_, (h c).2.2⟩
  · rw [(h c).1, Cert.ReferenceIdeal.Read.val_main_v77_eq, Cert.ReferenceIdeal.Cell.ref_state, h0, h1, h2, h3, h4, h5, h6, h7, h8, h9, h10, h11, h12, h13]
  · rw [(h c).2.1, Cert.ReferenceIdeal.Read.val_main_v23_eq, Cert.ReferenceIdeal.Cell.ref_gate (x6 := m' ((c.tc : Thread Cert.ReferenceIdeal.nD Cert.ReferenceIdeal.τ).loc Cert.ReferenceIdeal.main_arg6)) (x7 := m' ((c.tc : Thread Cert.ReferenceIdeal.nD Cert.ReferenceIdeal.τ).loc Cert.ReferenceIdeal.main_arg7)) (x8 := m' ((c.tc : Thread Cert.ReferenceIdeal.nD Cert.ReferenceIdeal.τ).loc Cert.ReferenceIdeal.main_arg8)) (x9 := m' ((c.tc : Thread Cert.ReferenceIdeal.nD Cert.ReferenceIdeal.τ).loc Cert.ReferenceIdeal.main_arg9)) (x10 := m' ((c.tc : Thread Cert.ReferenceIdeal.nD Cert.ReferenceIdeal.τ).loc Cert.ReferenceIdeal.main_arg10)) (x11 := m' ((c.tc : Thread Cert.ReferenceIdeal.nD Cert.ReferenceIdeal.τ).loc Cert.ReferenceIdeal.main_arg11)) (x12 := m' ((c.tc : Thread Cert.ReferenceIdeal.nD Cert.ReferenceIdeal.τ).loc Cert.ReferenceIdeal.main_arg12)) (x13 := m' ((c.tc : Thread Cert.ReferenceIdeal.nD Cert.ReferenceIdeal.τ).loc Cert.ReferenceIdeal.main_arg13)), h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
